-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64 : Shape := ⟨1, ![64]⟩
abbrev S64x512 : Shape := ⟨2, ![64, 512]⟩
abbrev S50257x1024 : Shape := ⟨2, ![50257, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x50257 : S_.BroadcastsInDim S1024x50257 (![] : Fin 0 → Fin S1024x50257.rank)
  reducesTo_S1024x50257_S_d0_1 : S1024x50257.ReducesTo [0, 1] S_
  bcast_S_S50257 : S_.BroadcastsInDim S50257 (![] : Fin 0 → Fin S50257.rank)
  reducesTo_S50257_S_d0 : S50257.ReducesTo [0] S_

variable [Facts]

def fn_part2 {F : FTy → Type} [FloatOps F] (main_arg9 : FVec F S1024x1024 .f32) (main_arg10 : FVec F S1024x50257 .f32) (main_arg11 : FVec F S50257 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x50257 .f32 := Host.absf main_arg10
  let main_cst_14 : FVec F S_ .f32 := constant S_ .f32 0x7F800000#32
  let main_v40 : FVec F S1024x50257 .f32 := broadcastInDim S1024x50257 ![] bcast_S_S1024x50257 main_cst_14
  let main_v41 : IVec S1024x50257 1 := cmpf .olt main_v39 main_v40
  let main_c_15 : IVec S_ 1 := constantI S_ 1 1#1
  let main_v42 : IVec S_ 1 := (fun x v => Host.reduce IntOp.andi x v reducesTo_S1024x50257_S_d0_1 h_S_) main_v41 main_c_15
  let main_v43 : IVec S_ 1 := andi main_v38 main_v42
  let main_v44 : FVec F S50257 .f32 := Host.absf main_arg11
  let main_cst_16 : FVec F S_ .f32 := constant S_ .f32 0x7F800000#32
  let main_v45 : FVec F S50257 .f32 := broadcastInDim S50257 ![] bcast_S_S50257 main_cst_16
  let main_v46 : IVec S50257 1 := cmpf .olt main_v44 main_v45
  let main_c_17 : IVec S_ 1 := constantI S_ 1 1#1
  let main_v47 : IVec S_ 1 := (fun x v => Host.reduce IntOp.andi x v reducesTo_S50257_S_d0 h_S_) main_v46 main_c_17
  let main_v48 : IVec S_ 1 := andi main_v43 main_v47
  main_v48

def fn_part1 {F : FTy → Type} [FloatOps F] (main_arg6 : FVec F S2048x1024 .f32) (main_arg7 : FVec F S1024 .f32) (main_arg8 : FVec F S1024x1024 .f32) (main_arg9 : FVec F S1024x1024 .f32) (main_arg10 : FVec F S1024x50257 .f32) (main_arg11 : FVec F S50257 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg6
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg8
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg9 main_arg10 main_arg11 main_v33

def fn {F : FTy → Type} [FloatOps F] (main_arg0 : FVec F S64x512x1024 .f32) (main_arg1 : IVec S64 32) (main_arg2 : IVec S64x512 1) (main_arg3 : FVec F S50257x1024 .f32) (main_arg4 : FVec F S1024x2048 .f32) (main_arg5 : FVec F S2048 .f32) (main_arg6 : FVec F S2048x1024 .f32) (main_arg7 : FVec F S1024 .f32) (main_arg8 : FVec F S1024x1024 .f32) (main_arg9 : FVec F S1024x1024 .f32) (main_arg10 : FVec F S1024x50257 .f32) (main_arg11 : FVec F S50257 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S50257x1024 .f32 := Host.absf main_arg3
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_arg8 main_arg9 main_arg10 main_arg11 main_v13 main_v16
-- ==== Kernel.lean ====
abbrev S64x512x1024 : Shape := ⟨3, ![64, 512, 1024]⟩
abbrev S64 : Shape := ⟨1, ![64]⟩
abbrev S64x512 : Shape := ⟨2, ![64, 512]⟩
abbrev S50257x1024 : Shape := ⟨2, ![50257, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S64x1 : Shape := ⟨2, ![64, 1]⟩
abbrev S64x1024 : Shape := ⟨2, ![64, 1024]⟩
abbrev S64x512x1 : Shape := ⟨3, ![64, 512, 1]⟩
abbrev S2x1x1024 : Shape := ⟨3, ![2, 1, 1024]⟩
abbrev S4x512x1024 : Shape := ⟨3, ![4, 512, 1024]⟩
abbrev S4x512x1 : Shape := ⟨3, ![4, 512, 1]⟩
abbrev S1x1x1024 : Shape := ⟨3, ![1, 1, 1024]⟩
abbrev S512x1024 : Shape := ⟨2, ![512, 1024]⟩
abbrev S1x1024 : Shape := ⟨2, ![1, 1024]⟩
abbrev S64x2048 : Shape := ⟨2, ![64, 2048]⟩
abbrev S1x2048 : Shape := ⟨2, ![1, 2048]⟩
abbrev S1x50257 : Shape := ⟨2, ![1, 50257]⟩
abbrev S64x50257 : Shape := ⟨2, ![64, 50257]⟩

abbrev nBuf : Space → Nat
  | .hbm => 44
  | .vmem => 22
  | .smem => 0
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S64x512, .i1⟩
  | .hbm, ⟨3, _⟩ => ⟨S50257x1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x50257, .f32⟩
  | .hbm, ⟨11, _⟩ => ⟨S50257, .f32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x1024, .f32⟩
  | .hbm, ⟨21, _⟩ => ⟨S64x512, .f32⟩
  | .hbm, ⟨22, _⟩ => ⟨S64x512x1, .f32⟩
  | .hbm, ⟨23, _⟩ => ⟨S2x1x1024, .f32⟩
  | .hbm, ⟨24, _⟩ => ⟨S_, .f32⟩
  | .hbm, ⟨25, _⟩ => ⟨S1x1024, .f32⟩
  | .hbm, ⟨26, _⟩ => ⟨S64x1024, .f32⟩
  | .hbm, ⟨27, _⟩ => ⟨S1x50257, .f32⟩
  | .hbm, ⟨28, _⟩ => ⟨S64x1024, .bf16⟩
  | .hbm, ⟨29, _⟩ => ⟨S64x50257, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x50257, .f32⟩
  | .hbm, ⟨37, _⟩ => ⟨S64x50257, .f32⟩
  | .hbm, ⟨38, _⟩ => ⟨S64x50257, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x50257, .f32⟩
  | .hbm, ⟨43, _⟩ => ⟨S64x50257, .f32⟩
  | .local _ .vmem, ⟨0, _⟩ => ⟨S4x512x1024, .f32⟩
  | .local _ .vmem, ⟨1, _⟩ => ⟨S4x512x1024, .f32⟩
  | .local _ .vmem, ⟨2, _⟩ => ⟨S4x512x1, .f32⟩
  | .local _ .vmem, ⟨3, _⟩ => ⟨S4x512x1, .f32⟩
  | .local _ .vmem, ⟨4, _⟩ => ⟨S1x1x1024, .f32⟩
  | .local _ .vmem, ⟨5, _⟩ => ⟨S1x1x1024, .f32⟩
  | .local _ .vmem, ⟨6, _⟩ => ⟨S64x1024, .f32⟩
  | .local _ .vmem, ⟨7, _⟩ => ⟨S1024x2048, .f32⟩
  | .local _ .vmem, ⟨8, _⟩ => ⟨S2048, .f32⟩
  | .local _ .vmem, ⟨9, _⟩ => ⟨S2048x1024, .f32⟩
  | .local _ .vmem, ⟨10, _⟩ => ⟨S1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S64x1024, .f32⟩
  | .local _ .vmem, ⟨15, _⟩ => ⟨S64x1024, .bf16⟩
  | .local _ .vmem, ⟨16, _⟩ => ⟨S1024x2048, .f32⟩
  | .local _ .vmem, ⟨17, _⟩ => ⟨S1024x2048, .f32⟩
  | .local _ .vmem, ⟨18, _⟩ => ⟨S1x2048, .f32⟩
  | .local _ .vmem, ⟨19, _⟩ => ⟨S1x2048, .f32⟩
  | .local _ .vmem, ⟨20, _⟩ => ⟨S64x2048, .f32⟩
  | .local _ .vmem, ⟨21, _⟩ => ⟨S64x2048, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x512_S64x512x1_0_1 : S64x512.BroadcastsInDim S64x512x1 (![0, 1] : Fin 2 → Fin S64x512x1.rank)
  inb_S1x1x1024_S1x1x1024_0_0_0 : ∀ a, (![0, 0, 0] : Fin 3 → Nat) a + S1x1x1024.size a ≤ S1x1x1024.size a
  h_S1x1x1024 : 0 < S1x1x1024.numel
  inb_S4x512x1024_S4x512x1024_0_0_0 : ∀ a, (![0, 0, 0] : Fin 3 → Nat) a + S4x512x1024.size a ≤ S4x512x1024.size a
  h_S4x512x1024 : 0 < S4x512x1024.numel
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  broadcasts_S4x512x1_S4x512x1024 : S4x512x1.Broadcasts S4x512x1024
  reduces_S4x512x1024_S512x1024 : S4x512x1024.Reduces [0] S512x1024
  reduces_S512x1024_S1024 : S512x1024.Reduces [0] S1024
  shapeCasts_S1024_S1x1024 : S1024.ShapeCasts S1x1024
  shapeCasts_S1x1x1024_S1x1x1024 : S1x1x1024.ShapeCasts S1x1x1024
  shapeCasts_S1x1024_S1x1x1024 : S1x1024.ShapeCasts S1x1x1024
  reducesTo_S2x1x1024_S1x1024_d0 : S2x1x1024.ReducesTo [0] S1x1024
  h_S_ : 0 < S_.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S64x2048 : S1x2048.Broadcasts S64x2048
  inb_S2048x1024_S2048x1024_0_0 : ∀ a, (![0, 0] : Fin 2 → Nat) a + S2048x1024.size a ≤ S2048x1024.size a
  h_S2048x1024 : 0 < S2048x1024.numel
  inb_S1024_S1024_0 : ∀ a, (![0] : Fin 1 → Nat) a + S1024.size a ≤ S1024.size a
  h_S1024 : 0 < S1024.numel
  broadcasts_S1x1024_S64x1024 : S1x1024.Broadcasts S64x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S50257_S1x50257 : S50257.ShapeCasts S1x50257
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S64x2048_S64x2048_0_0 : ∀ a, (![0, 0] : Fin 2 → Nat) a + S64x2048.size a ≤ S64x2048.size a
  h_S64x2048 : 0 < S64x2048.numel
  reducesTo_S64x50257_S64_d1 : S64x50257.ReducesTo [1] S64
  bcast_S64x1_S64x50257_0_1 : S64x1.BroadcastsInDim S64x50257 (![0, 1] : Fin 2 → Fin S64x50257.rank)
  gather_S50257x1024_S64x1_S64x1024_1_0_n_n_0_1_11024_wf : GatherDims.WF S50257x1024 S64x1 S64x1024 [1] [0] [] [0] [] 1 ![1, 1024]
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S64x512x1024.size a
  hwx0_0 : ∀ i : grid0.Coords, EltTy.bits .f32 = 32 ∨ (Rect.block (s := S64x512x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1.size a ≤ S64x512x1.size a
  hwx0_1 : ∀ i : grid0.Coords, EltTy.bits .f32 = 32 ∨ (Rect.block (s := S64x512x1) S4x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x1024.size a
  hwx0_2 : ∀ i : grid0.Coords, EltTy.bits .f32 = 32 ∨ (Rect.block (s := S2x1x1024) S1x1x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S2048x1024.size a
  hwx1_3 : ∀ i : grid1.Coords, EltTy.bits .f32 = 32 ∨ (Rect.block (s := S2048x1024) S2048x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .f32 = 32 ∨ (Rect.block (s := S1024x1024) S1024x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x1024.size a ≤ S64x1024.size a
  hwx1_8 : ∀ i : grid1.Coords, EltTy.bits .f32 = 32 ∨ (Rect.block (s := S64x1024) S64x1024.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x1024.size a
  hwx2_0 : ∀ i : grid2.Coords, EltTy.bits .bf16 = 32 ∨ (Rect.block (s := S64x1024) S64x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x2048.size a < S1024x50257.size a
  hwx2_1 : ∀ i : grid2.Coords, EltTy.bits .f32 = 32 ∨ (Rect.unit (s := S1024x50257) (fun a => cc2_transform_1 i a * S1024x2048.size a) (fun a => (Pipeline.Clip.of (cc2_transform_1 i a) (S1024x2048.size a) (S1024x50257.size a)).extent (S1024x2048.size a)) fun a => Pipeline.Clip.inb (Pipeline.Clip.ok_of (hstart2_1 i a))).WholeWords (EltTy.packing .f32)
  hwxs2_1 : ∀ i : grid2.Coords, EltTy.bits .f32 = 32 ∨ (Rect.unit (s := S1024x2048) (fun _ => 0) (fun a => (Pipeline.Clip.of (cc2_transform_1 i a) (S1024x2048.size a) (S1024x50257.size a)).extent (S1024x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S64x2048.size a < S64x50257.size a
  hwx2_3 : ∀ i : grid2.Coords, EltTy.bits .f32 = 32 ∨ (Rect.unit (s := S64x50257) (fun a => cc2_transform_3 i a * S64x2048.size a) (fun a => (Pipeline.Clip.of (cc2_transform_3 i a) (S64x2048.size a) (S64x50257.size a)).extent (S64x2048.size a)) fun a => Pipeline.Clip.inb (Pipeline.Clip.ok_of (hstart2_3 i a))).WholeWords (EltTy.packing .f32)
  hwxs2_3 : ∀ i : grid2.Coords, EltTy.bits .f32 = 32 ∨ (Rect.unit (s := S64x2048) (fun _ => 0) (fun a => (Pipeline.Clip.of (cc2_transform_3 i a) (S64x2048.size a) (S64x50257.size a)).extent (S64x2048.size a)) fun a => (Nat.zero_add _).trans_le (Pipeline.Clip.extent_le (Pipeline.Clip.ok_of (hstart2_3 i a)))).WholeWords (EltTy.packing .f32)

variable [Facts₀]

def gather_S50257x1024_S64x1_S64x1024_1_0_n_n_0_1_11024 : GatherDims S50257x1024 S64x1 S64x1024 where
  offsetDims := [1]
  collapsedSliceDims := [0]
  operandBatchingDims := []
  startIndicesBatchingDims := []
  startIndexMap := [0]
  indexVectorDim := 1
  sliceSizes := ![1, 1024]
  wf := gather_S50257x1024_S64x1_S64x1024_1_0_n_n_0_1_11024_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S2048x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S64x1024.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v13) S64x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg10) S1024x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v12) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v14) S64x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64x512x1024 : Shape := ⟨3, ![64, 512, 1024]⟩
abbrev S64 : Shape := ⟨1, ![64]⟩
abbrev S64x512 : Shape := ⟨2, ![64, 512]⟩
abbrev S50257x1024 : Shape := ⟨2, ![50257, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S64x1 : Shape := ⟨2, ![64, 1]⟩
abbrev S64x1024 : Shape := ⟨2, ![64, 1024]⟩
abbrev S64x2048 : Shape := ⟨2, ![64, 2048]⟩
abbrev S1x2048 : Shape := ⟨2, ![1, 2048]⟩
abbrev S1x1024 : Shape := ⟨2, ![1, 1024]⟩
abbrev S64x512x1 : Shape := ⟨3, ![64, 512, 1]⟩
abbrev S64x50257 : Shape := ⟨2, ![64, 50257]⟩
abbrev S1x50257 : Shape := ⟨2, ![1, 50257]⟩

abbrev nBuf : Space → Nat
  | .hbm => 62
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S64x512, .i1⟩
  | .hbm, ⟨3, _⟩ => ⟨S50257x1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x50257, .f32⟩
  | .hbm, ⟨11, _⟩ => ⟨S50257, .f32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x1024, .f32⟩
  | .hbm, ⟨21, _⟩ => ⟨S64x2048, .f32⟩
  | .hbm, ⟨22, _⟩ => ⟨S1x2048, .f32⟩
  | .hbm, ⟨23, _⟩ => ⟨S64x2048, .f32⟩
  | .hbm, ⟨24, _⟩ => ⟨S64x2048, .f32⟩
  | .hbm, ⟨25, _⟩ => ⟨S_, .f32⟩
  | .hbm, ⟨26, _⟩ => ⟨S64x2048, .f32⟩
  | .hbm, ⟨27, _⟩ => ⟨S64x2048, .f32⟩
  | .hbm, ⟨28, _⟩ => ⟨S64x1024, .f32⟩
  | .hbm, ⟨29, _⟩ => ⟨S1x1024, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S64x512, .f32⟩
  | .hbm, ⟨34, _⟩ => ⟨S64x512x1, .f32⟩
  | .hbm, ⟨35, _⟩ => ⟨S64x512x1024, .f32⟩
  | .hbm, ⟨36, _⟩ => ⟨S64x512x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024, .f32⟩
  | .hbm, ⟨44, _⟩ => ⟨S64x50257, .f32⟩
  | .hbm, ⟨45, _⟩ => ⟨S1x50257, .f32⟩
  | .hbm, ⟨46, _⟩ => ⟨S64x50257, .f32⟩
  | .hbm, ⟨47, _⟩ => ⟨S64x50257, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64x1, .f32⟩
  | .hbm, ⟨54, _⟩ => ⟨S64x50257, .f32⟩
  | .hbm, ⟨55, _⟩ => ⟨S64x50257, .f32⟩
  | .hbm, ⟨56, _⟩ => ⟨S64x50257, .f32⟩
  | .hbm, ⟨57, _⟩ => ⟨S_, .f32⟩
  | .hbm, ⟨58, _⟩ => ⟨S64, .f32⟩
  | .hbm, ⟨59, _⟩ => ⟨S64x1, .f32⟩
  | .hbm, ⟨60, _⟩ => ⟨S64x50257, .f32⟩
  | .hbm, ⟨61, _⟩ => ⟨S64x50257, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_cst : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x512_S64x512x1_0_1 : S64x512.BroadcastsInDim S64x512x1 (![0, 1] : Fin 2 → Fin S64x512x1.rank)
  bcast_S64x512x1_S64x512x1024_0_1_2 : S64x512x1.BroadcastsInDim S64x512x1024 (![0, 1, 2] : Fin 3 → Fin S64x512x1024.rank)
  reducesTo_S64x512x1024_S1024_d0_1 : S64x512x1024.ReducesTo [0, 1] S1024
  h_S_ : 0 < S_.numel
  bcast_S50257_S1x50257_1 : S50257.BroadcastsInDim S1x50257 (![1] : Fin 1 → Fin S1x50257.rank)
  bcast_S1x50257_S64x50257_0_1 : S1x50257.BroadcastsInDim S64x50257 (![0, 1] : Fin 2 → Fin S64x50257.rank)
  reducesTo_S64x50257_S64_d1 : S64x50257.ReducesTo [1] S64
  bcast_S64x1_S64x50257_0_1 : S64x1.BroadcastsInDim S64x50257 (![0, 1] : Fin 2 → Fin S64x50257.rank)
  gather_S50257x1024_S64x1_S64x1024_1_0_n_n_0_1_11024_wf : GatherDims.WF S50257x1024 S64x1 S64x1024 [1] [0] [] [0] [] 1 ![1, 1024]
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []
  dot_S64x1024_S1024x1024_S64x1024_1_0_0_1_n_n_wf : DotDims.WF S64x1024 S1024x1024 S64x1024 [1] [0] [0] [1] [] []
  dot_S64x1024_S1024x50257_S64x50257_1_0_0_1_n_n_wf : DotDims.WF S64x1024 S1024x50257 S64x50257 [1] [0] [0] [1] [] []

variable [Facts₀]

def gather_S50257x1024_S64x1_S64x1024_1_0_n_n_0_1_11024 : GatherDims S50257x1024 S64x1 S64x1024 where
  offsetDims := [1]
  collapsedSliceDims := [0]
  operandBatchingDims := []
  startIndicesBatchingDims := []
  startIndexMap := [0]
  indexVectorDim := 1
  sliceSizes := ![1, 1024]
  wf := gather_S50257x1024_S64x1_S64x1024_1_0_n_n_0_1_11024_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x50257_S64x50257_1_0_0_1_n_n : DotDims S64x1024 S1024x50257 S64x50257 where
  lhsContracting := [1]
  rhsContracting := [0]
  lhsNonContracting := [0]
  rhsNonContracting := [1]
  lhsBatch := []
  rhsBatch := []
  wf := dot_S64x1024_S1024x50257_S64x50257_1_0_0_1_n_n_wf

class Facts : Prop extends Facts₀ where

variable [Facts]
-- ==== Proof.K.Reduce.lean ====
import proofs.«426471_j54382875902324_3_alg».proof.Proof.Gen.Kernel.Launch
import proofs.«426471_j54382875902324_3_alg».proof.Proof.Gen.Kernel.Skeleton
import proofs.«426471_j54382875902324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The masked entity sum's region: blocks, the body at one point, the running sum, the proof data

Region 0 runs on a grid of 2 × 8 points. At point `(r, j)` the body reads block `8r + j` of the hidden states
(4 batch rows × 512 entities × 1024 features) and of the mask (4 × 512 × 1), and adds, feature by feature, the sum
over the block's rows and entities of their products to the output block `r` (1 × 1 × 1024), which it first sets
to zero when `j = 0`. The output block stays in its staging buffer along `j` and is written back at `j = 7`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one conditional as a proposition of the grid coordinates: the second coordinate is zero. -/
abbrev atReset (i : grid0.Coords) : Prop :=
  (Scalar.cmpi .ne (Scalar.extui (Scalar.cmpi .eq (BitVec.ofNat 32 (i 1).val) 0#32)) 0#32) = 1#1

/-- Over the 16 points, in row-major order, the second coordinate is zero at the multiples of 8. -/
theorem atReset_iff : ∀ t : Fin cfg0.N, atReset (grid0.coords t) ↔ t.val % 8 = 0 :=
  (by decide +kernel : ∀ t : Fin grid0.N, atReset (grid0.coords t) ↔ t.val % 8 = 0)

/-- The zero offsets of a rank-3 rectangle, as the constant function. -/
theorem zeros3 : (![0, 0, 0] : Fin 3 → Nat) = fun _ => 0 := funext fun a => by fin_cases a <;> rfl

/-- A store through the whole-shape rectangle at zero offsets, made last, leaves its payload whatever was stored before. -/
theorem read_writes_whole_last {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole-shape rectangle at zero offsets reads the contents the memref reads. -/
theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (X : S.Idx → Val e) (hX : v.read Val f = X) :
    v.readAt Val (Rect.unit off S.size inb).toLoadRect f = X := by
  rw [← hX]; exact View.ld_unit_zero h inb (v.read Val f)

/-- THE BODY AT A RESET POINT (second coordinate zero), on any whole staging memrefs holding the two input blocks
    `x0`, `x1` and anything `d` in the output's: the output's buffer is set to the zero row, read back, and the block's
    sum added to it; the inputs' buffers are left as they were. -/
theorem body_reset (c : Dev nD) (i : grid0.Coords)
    (a2 : Memref sig .tc .vmem S4x512x1024 .f32) (h2 : a2.IsWhole)
    (a3 : Memref sig .tc .vmem S4x512x1 .f32) (h3 : a3.IsWhole)
    (a4 : Memref sig .tc .vmem S1x1x1024 .f32) (h4 : a4.IsWhole) (hc : atReset i)
    (x0 : Vec F S4x512x1024 .f32) (x1 : Vec F S4x512x1 .f32) (d : Vec F S1x1x1024 .f32)
    (E : Set ℕ) (K : PUnit → sProp 𝕄) :
    iprop(owns (c : Thread nD τ) a2 fullShare x0 ∗ owns (c : Thread nD τ) a3 fullShare x1 ∗ owns (c : Thread nD τ) a4 fullShare d
        ∗ (iprop(owns (c : Thread nD τ) a2 fullShare x0 ∗ owns (c : Thread nD τ) a3 fullShare x1
            ∗ owns (c : Thread nD τ) a4 fullShare (k0_pay2 x0 x1 (k0_pay1 (F := F)))) -∗ K ⟨⟩))
      ⊢ wp frame (wpE (defs₀ (F := F)) Variants.none c none) E (cc0__entity_reduce_kernel i a2 h2 a3 h3 a4 h4) K := by
  simp only [cc0__entity_reduce_kernel_eq_skeleton]; unfold cc0__entity_reduce_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_whole_last _ _ zeros3, readAt_whole _ _ zeros3 _ _ hf0, readAt_whole _ _ zeros3 _ _ hf1]
  sl_unfold_run_names
  rw [View.readCov_unit_zero _ zeros3]

/-- THE BODY AT ANY OTHER POINT, the output's staging memref holding `prev`: the block's sum is added to `prev`. -/
theorem body_acc (c : Dev nD) (i : grid0.Coords)
    (a2 : Memref sig .tc .vmem S4x512x1024 .f32) (h2 : a2.IsWhole)
    (a3 : Memref sig .tc .vmem S4x512x1 .f32) (h3 : a3.IsWhole)
    (a4 : Memref sig .tc .vmem S1x1x1024 .f32) (h4 : a4.IsWhole) (hc : ¬atReset i)
    (x0 : Vec F S4x512x1024 .f32) (x1 : Vec F S4x512x1 .f32) (prev : Vec F S1x1x1024 .f32)
    (E : Set ℕ) (K : PUnit → sProp 𝕄) :
    iprop(owns (c : Thread nD τ) a2 fullShare x0 ∗ owns (c : Thread nD τ) a3 fullShare x1 ∗ owns (c : Thread nD τ) a4 fullShare prev
        ∗ (iprop(owns (c : Thread nD τ) a2 fullShare x0 ∗ owns (c : Thread nD τ) a3 fullShare x1
            ∗ owns (c : Thread nD τ) a4 fullShare (k0_pay2 x0 x1 prev)) -∗ K ⟨⟩))
      ⊢ wp frame (wpE (defs₀ (F := F)) Variants.none c none) E (cc0__entity_reduce_kernel i a2 h2 a3 h3 a4 h4) K := by
  simp only [cc0__entity_reduce_kernel_eq_skeleton]; unfold cc0__entity_reduce_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_whole_last _ _ zeros3, readAt_whole _ _ zeros3 _ _ hf0, readAt_whole _ _ zeros3 _ _ hf1,
    readAt_whole _ _ zeros3 _ _ hf2]

/-! ## The running sum and the proof data -/

/-- THE RUNNING SUM. What the output's staging buffer holds after the body at position `n`: the block sum of point
    `n` added to the zero row at a reset point (`n` a multiple of 8), to what position `n - 1` left otherwise. -/
def acc0 (c : Dev nD) : (n : ℕ) → n < cfg0.N → Vec F S1x1x1024 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 8 = 0 then k0_pay1 (F := F) else acc0 c n (Nat.lt_of_succ_lt hn))

/-- At a reset point the running sum is the point's block sum over the zero row. -/
theorem acc0_reset (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rw [acc0]
  | succ n => rw [acc0, if_pos h0]

/-- At any other point it is the point's block sum over what the point before left. -/
theorem acc0_step (c : Dev nD) (t : Fin cfg0.N) (h0 : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => rw [acc0, if_neg h0]; rfl

/-- The proof data of region 0 on core `c`: the arrays as the region finds them; after the body at point `t` each
    input's buffer still at its block, the output's at the running sum; the invariant the scoped rest; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The hidden states' staging buffer holds the point's block at every point: the window is fetched at every point,
    is never cut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]) t d).trans
    (by unfold Dat.fetched Dat.blockOf iblk0; rw [A_eq0]; rfl)

/-- The mask's likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]) t d).trans
    (by unfold Dat.fetched Dat.blockOf iblk0; rw [A_eq0]; rfl)

/-- Away from the reset points the output's staging buffer holds what the body left at the point before: the point
    is not the first, the buffer was not written back in between (write-backs happen at the points ≡ 7 mod 8, whose
    successors are reset points), and the window is never idle and never cut. -/
theorem before0_2 (c : Dev nD) (t : Fin cfg0.N) (h0 : ¬t.val % 8 = 0) (d) :
    (dat0 V c).before 2 t d = acc0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega)
    (Bool.eq_false_iff.mpr fun h => by have := (flush0_2 _).mp h; dsimp only at this; omega)
    (fun _ => rfl) (fun _ _ => rfl)]
  dsimp only [dat0]

/-! ## The body obligation -/

/-- The body at any point `t`, on the staging memrefs the pipeline passes: the inputs' hold their blocks; at a reset
    point the output's holds anything and the reset case applies, elsewhere it holds the running sum of the point
    before and the accumulating case applies; the invariant and the (empty) debt pass through untouched. -/
theorem sound_body0 (c : Dev nD) (t : Fin cfg0.N) :
    iprop((dat0 V c).Φ t.castSucc ∗ (dat0 V c).owesAt () t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d))
        ∗ (∃ d, owns (c : Thread nD τ) (win0_2.stage (cfg0.slots t 2)) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (win0_0.stage (cfg0.slots t 0)) fullShare ((dat0 V c).after 0 t)
            ∗ owns (c : Thread nD τ) (win0_1.stage (cfg0.slots t 1)) fullShare ((dat0 V c).after 1 t)
            ∗ owns (c : Thread nD τ) (win0_2.stage (cfg0.slots t 2)) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [acc0_reset V c t h0]
    iintro ⟨HΦ, Ho, ⟨%d0, H0⟩, ⟨%d1, H1⟩, ⟨%d2, H2⟩⟩
    iapply (body_reset c (grid0.coords t) _ _ _ _ _ _ ((atReset_iff t).mpr h0) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [acc0_step V c t h0]
    simp only [before0_2 V c t h0]
    iintro ⟨HΦ, Ho, ⟨%d0, H0⟩, ⟨%d1, H1⟩, ⟨%d2, H2⟩⟩
    iapply (body_acc c (grid0.coords t) _ _ _ _ _ _ (fun h => h0 ((atReset_iff t).mp h)) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Ffn.lean ====
import proofs.«426471_j54382875902324_3_alg».proof.Proof.Gen.Kernel.Launch
import proofs.«426471_j54382875902324_3_alg».proof.Proof.Gen.Kernel.Skeleton
import proofs.«426471_j54382875902324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The feed-forward / gate kernel (the second pallas_call): one grid point, every block a whole array

The pipeline stages eight operands — the question-embedding rows `eq0`, the two layers `W1, b1, W2, b2`, the attention
matrix `A`, the mixing matrix `H` and the entity-sum row — each as ONE block that is the whole array, runs the body once
and writes the one output block `z` back. The body loads the eight buffers whole, computes

    q = relu(eq0·W1 + b1)·W2 + b2,   z = q + ((q·A) ⊙ ent)·H

(the payload `k1_pay1`) and stores it over the whole output buffer. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store span their whole buffer -/

abbrev rEq : Rect S64x1024 := Rect.unit (s := S64x1024) ![0, 0] S64x1024.size inb_S64x1024_S64x1024_0_0
abbrev rW1 : Rect S1024x2048 := Rect.unit (s := S1024x2048) ![0, 0] S1024x2048.size inb_S1024x2048_S1024x2048_0_0
abbrev rB1 : Rect S2048 := Rect.unit (s := S2048) ![0] S2048.size inb_S2048_S2048_0
abbrev rW2 : Rect S2048x1024 := Rect.unit (s := S2048x1024) ![0, 0] S2048x1024.size inb_S2048x1024_S2048x1024_0_0
abbrev rB2 : Rect S1024 := Rect.unit (s := S1024) ![0] S1024.size inb_S1024_S1024_0
abbrev rSq : Rect S1024x1024 := Rect.unit (s := S1024x1024) ![0, 0] S1024x1024.size inb_S1024x1024_S1024x1024_0_0
abbrev rEnt : Rect S1x1024 := Rect.unit (s := S1x1024) ![0, 0] S1x1024.size inb_S1x1024_S1x1024_0_0

/-- What the body leaves in the output's staging buffer, from the eight input buffers: its one store, of the payload
    over the whole-buffer loads. -/
def zOut (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32) : Vec F S64x1024 .f32 :=
  View.canon [⟨rEq, k1_pay1 (View.ld eq0 rEq) (View.ld w1 rW1) (View.ld b1 rB1) (View.ld w2 rW2) (View.ld b2 rB2) (View.ld a rSq)
    (View.ld ent rEnt) (View.ld h rSq)⟩]

/-- The one store spans the buffer. -/
theorem zCover (p : Vec F S64x1024 .f32) (y : S64x1024.Idx) :
    ∃ pc ∈ ([⟨rEq, p⟩] : List (View.Piece (Elt F) S64x1024 .f32)), y ∈ pc.1.set :=
  View.cover_of_tiled [⟨rEq, p⟩] S64x1024.size (by rfl) y

set_option maxHeartbeats 1000000 in
/-- The body on whole staging memrefs, the eight inputs' at contents read and the output's at anything: it runs to the
    continuation with the inputs untouched and the output's buffer at `zOut` of them. -/
theorem sound_kernel1 (c : Dev nD) (E : Set ℕ) (i : grid1.Coords)
    (arg1 : Memref sig .tc .vmem S64x1024 .f32) (harg1 : arg1.IsWhole) (arg2 : Memref sig .tc .vmem S1024x2048 .f32) (harg2 : arg2.IsWhole)
    (arg3 : Memref sig .tc .vmem S2048 .f32) (harg3 : arg3.IsWhole) (arg4 : Memref sig .tc .vmem S2048x1024 .f32) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1x1024 .f32) (harg8 : arg8.IsWhole)
    (arg9 : Memref sig .tc .vmem S64x1024 .f32) (harg9 : arg9.IsWhole)
    (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32)
    (K : PUnit → sProp 𝕄) :
    iprop(owns (c : Thread nD τ) arg1 fullShare eq0 ∗ owns (c : Thread nD τ) arg2 fullShare w1 ∗ owns (c : Thread nD τ) arg3 fullShare b1
        ∗ owns (c : Thread nD τ) arg4 fullShare w2 ∗ owns (c : Thread nD τ) arg5 fullShare b2 ∗ owns (c : Thread nD τ) arg6 fullShare a
        ∗ owns (c : Thread nD τ) arg7 fullShare h ∗ owns (c : Thread nD τ) arg8 fullShare ent ∗ (∃ d, owns (c : Thread nD τ) arg9 fullShare d)
        ∗ (iprop(owns (c : Thread nD τ) arg1 fullShare eq0 ∗ owns (c : Thread nD τ) arg2 fullShare w1 ∗ owns (c : Thread nD τ) arg3 fullShare b1
            ∗ owns (c : Thread nD τ) arg4 fullShare w2 ∗ owns (c : Thread nD τ) arg5 fullShare b2 ∗ owns (c : Thread nD τ) arg6 fullShare a
            ∗ owns (c : Thread nD τ) arg7 fullShare h ∗ owns (c : Thread nD τ) arg8 fullShare ent
            ∗ owns (c : Thread nD τ) arg9 fullShare (zOut eq0 w1 b1 w2 b2 a h ent)) -∗ K ⟨⟩))
      ⊢ wp frame (wpE (defs₀ (F := F)) Variants.none c none) E
          (cc1__ffn_attn_kernel i arg1 harg1 arg2 harg2 arg3 harg3 arg4 harg4 arg5 harg5 arg6 harg6 arg7 harg7 arg8 harg8 arg9 harg9) K := by
  simp only [cc1__ffn_attn_kernel_eq_skeleton]; unfold cc1__ffn_attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  exact View.read_writes_eq_canon _ _ _ (zCover _)

end Cert.Kernel.Hand

end
-- ==== Proof.K.FfnData.lean ====
import proofs.«426471_j54382875902324_3_alg».proof.Proof.Gen.Kernel.Launch
import proofs.«426471_j54382875902324_3_alg».proof.Proof.Gen.Kernel.Skeleton
import proofs.«426471_j54382875902324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«426471_j54382875902324_3_alg».proof.Proof.K.Ffn
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The feed-forward / gate kernel: proof data, body obligation, and the output array -/

/-! ## The proof data -/

/-- The pipeline's proof data on core `c`: the arrays as the region finds them; after the body each input's buffer at its
    block and the output's at `zOut` of the input blocks; the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => zOut (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = zOut (iblk1 V c 0 t) (iblk1 V c 1 t) (iblk1 V c 2 t) (iblk1 V c 3 t) (iblk1 V c 4 t) (iblk1 V c 5 t) (iblk1 V c 6 t) (iblk1 V c 7 t) := by
  dsimp only [dat1]

/-! Every input window is fetched at the one point, unclipped: its buffer then holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)
theorem before1_6 (c : Dev nD) (t : Fin cfg1.N) (d) : (dat1 V c).before 6 t d = iblk1 V c 6 t :=
  ((dat1 V c).before_fetched 6 t (fetch1_6 t) d).trans (by unfold Dat.fetched Dat.blockOf iblk1; rw [A_eq1]; try rfl)
theorem before1_7 (c : Dev nD) (t : Fin cfg1.N) (d) : (dat1 V c).before 7 t d = iblk1 V c 7 t :=
  ((dat1 V c).before_fetched 7 t (fetch1_7 t) d).trans (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at the point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

/-! ## The output array after the region

The grid has one point and every window's block there is its whole array (block index 0, block size the array's), so a
block read is the array itself and the one write-back replaces the output array by what the body stored. -/

theorem blk1_0_read (t : Fin cfg1.N) (X : Vec F S64x1024 .f32) : ((cfg1.win 0).blk t).view.read (Elt F) X = X := by
  obtain rfl := fin_N1 t
  funext y
  show X (((cfg1.win 0).blk t1_0).view.emb y) = X y
  congr 1
  funext a; apply Fin.ext
  show win1_0.index t1_0 a * win1_0.size a + 1 * (y a).val = (y a).val
  have h0 : ∀ a, win1_0.index t1_0 a = 0 := by decide +kernel
  rw [h0 a]; omega
theorem blk1_1_read (t : Fin cfg1.N) (X : Vec F S1024x2048 .f32) : ((cfg1.win 1).blk t).view.read (Elt F) X = X := by
  obtain rfl := fin_N1 t
  funext y
  show X (((cfg1.win 1).blk t1_0).view.emb y) = X y
  congr 1
  funext a; apply Fin.ext
  show win1_1.index t1_0 a * win1_1.size a + 1 * (y a).val = (y a).val
  have h0 : ∀ a, win1_1.index t1_0 a = 0 := by decide +kernel
  rw [h0 a]; omega
theorem blk1_2_read (t : Fin cfg1.N) (X : Vec F S2048 .f32) : ((cfg1.win 2).blk t).view.read (Elt F) X = X := by
  obtain rfl := fin_N1 t
  funext y
  show X (((cfg1.win 2).blk t1_0).view.emb y) = X y
  congr 1
  funext a; apply Fin.ext
  show win1_2.index t1_0 a * win1_2.size a + 1 * (y a).val = (y a).val
  have h0 : ∀ a, win1_2.index t1_0 a = 0 := by decide +kernel
  rw [h0 a]; omega
theorem blk1_3_read (t : Fin cfg1.N) (X : Vec F S2048x1024 .f32) : ((cfg1.win 3).blk t).view.read (Elt F) X = X := by
  obtain rfl := fin_N1 t
  funext y
  show X (((cfg1.win 3).blk t1_0).view.emb y) = X y
  congr 1
  funext a; apply Fin.ext
  show win1_3.index t1_0 a * win1_3.size a + 1 * (y a).val = (y a).val
  have h0 : ∀ a, win1_3.index t1_0 a = 0 := by decide +kernel
  rw [h0 a]; omega
theorem blk1_4_read (t : Fin cfg1.N) (X : Vec F S1024 .f32) : ((cfg1.win 4).blk t).view.read (Elt F) X = X := by
  obtain rfl := fin_N1 t
  funext y
  show X (((cfg1.win 4).blk t1_0).view.emb y) = X y
  congr 1
  funext a; apply Fin.ext
  show win1_4.index t1_0 a * win1_4.size a + 1 * (y a).val = (y a).val
  have h0 : ∀ a, win1_4.index t1_0 a = 0 := by decide +kernel
  rw [h0 a]; omega
theorem blk1_5_read (t : Fin cfg1.N) (X : Vec F S1024x1024 .f32) : ((cfg1.win 5).blk t).view.read (Elt F) X = X := by
  obtain rfl := fin_N1 t
  funext y
  show X (((cfg1.win 5).blk t1_0).view.emb y) = X y
  congr 1
  funext a; apply Fin.ext
  show win1_5.index t1_0 a * win1_5.size a + 1 * (y a).val = (y a).val
  have h0 : ∀ a, win1_5.index t1_0 a = 0 := by decide +kernel
  rw [h0 a]; omega
theorem blk1_6_read (t : Fin cfg1.N) (X : Vec F S1024x1024 .f32) : ((cfg1.win 6).blk t).view.read (Elt F) X = X := by
  obtain rfl := fin_N1 t
  funext y
  show X (((cfg1.win 6).blk t1_0).view.emb y) = X y
  congr 1
  funext a; apply Fin.ext
  show win1_6.index t1_0 a * win1_6.size a + 1 * (y a).val = (y a).val
  have h0 : ∀ a, win1_6.index t1_0 a = 0 := by decide +kernel
  rw [h0 a]; omega
theorem blk1_7_read (t : Fin cfg1.N) (X : Vec F S1x1024 .f32) : ((cfg1.win 7).blk t).view.read (Elt F) X = X := by
  obtain rfl := fin_N1 t
  funext y
  show X (((cfg1.win 7).blk t1_0).view.emb y) = X y
  congr 1
  funext a; apply Fin.ext
  show win1_7.index t1_0 a * win1_7.size a + 1 * (y a).val = (y a).val
  have h0 : ∀ a, win1_7.index t1_0 a = 0 := by decide +kernel
  rw [h0 a]; omega
theorem blk1_8_read (t : Fin cfg1.N) (X : Vec F S64x1024 .f32) : ((cfg1.win 8).blk t).view.read (Elt F) X = X := by
  obtain rfl := fin_N1 t
  funext y
  show X (((cfg1.win 8).blk t1_0).view.emb y) = X y
  congr 1
  funext a; apply Fin.ext
  show win1_8.index t1_0 a * win1_8.size a + 1 * (y a).val = (y a).val
  have h0 : ∀ a, win1_8.index t1_0 a = 0 := by decide +kernel
  rw [h0 a]; omega

theorem iblk1_eq (c : Dev nD) (t : Fin cfg1.N) :
    iblk1 V c 0 t = V c main_v6 ∧ iblk1 V c 1 t = V c main_arg4 ∧ iblk1 V c 2 t = V c main_arg5 ∧ iblk1 V c 3 t = V c main_arg6
      ∧ iblk1 V c 4 t = V c main_arg7 ∧ iblk1 V c 5 t = V c main_arg8 ∧ iblk1 V c 6 t = V c main_arg9 ∧ iblk1 V c 7 t = V c main_v10 :=
  ⟨blk1_0_read t _, blk1_1_read t _, blk1_2_read t _, blk1_3_read t _, blk1_4_read t _, blk1_5_read t _, blk1_6_read t _, blk1_7_read t _⟩

/-- The one store spans the output buffer and each load its input buffer: the stored block is the payload of the blocks. -/
theorem zOut_eq (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32) :
    zOut eq0 w1 b1 w2 b2 a h ent = k1_pay1 eq0 w1 b1 w2 b2 a ent h := by
  have hz2 : (![0, 0] : Fin 2 → Nat) = fun _ => 0 := funext fun a => by fin_cases a <;> rfl
  have hz1 : (![0] : Fin 1 → Nat) = fun _ => 0 := funext fun a => by fin_cases a; rfl
  unfold zOut
  rw [View.canon_unit_zero hz2]
  simp only [View.ld_unit_zero (S := S64x1024) hz2, View.ld_unit_zero (S := S1024x2048) hz2, View.ld_unit_zero (S := S2048) hz1,
    View.ld_unit_zero (S := S2048x1024) hz2, View.ld_unit_zero (S := S1024) hz1, View.ld_unit_zero (S := S1024x1024) hz2,
    View.ld_unit_zero (S := S1x1024) hz2]

/-- After the region the output array `z` is the feed-forward / gate stage of the eight entry arrays. -/
theorem ffn_out (c : Dev nD) : (dat1 V c).arrAt 8 cfg1.N
    = k1_pay1 (V c main_v6) (V c main_arg4) (V c main_arg5) (V c main_arg6) (V c main_arg7) (V c main_arg8) (V c main_v10) (V c main_arg9) := by
  refine (dat1 V c).arrAt_eq_of_cover 8 _ (fun t _ => ?_) (fun i => ⟨t1_0, flush1_8 _, ?_⟩)
  · obtain ⟨e0, e1, e2, e3, e4, e5, e6, e7⟩ := iblk1_eq V c t
    rw [blk1_8_read t]
    show (cfg1.win 8).cut (cfg1.grid.coords t) ((dat1 V c).after 8 t) = _
    rw [after1_8, e0, e1, e2, e3, e4, e5, e6, e7, zOut_eq]
    rfl
  · -- every index of the array lies in the one block, which is the whole array
    obtain ⟨y, hy⟩ : ∃ y : S64x1024.Idx, ((cfg1.win 8).blk t1_0).view.emb y = i := ⟨i, by
      funext a; apply Fin.ext
      show win1_8.index t1_0 a * win1_8.size a + 1 * (i a).val = (i a).val
      have h0 : ∀ a, win1_8.index t1_0 a = 0 := by decide +kernel
      rw [h0 a]; omega⟩
    rw [← hy]; exact View.emb_mem_set _ y

end Cert.Kernel.Hand

end
-- ==== Proof.K.ProjRel.lean ====
import proofs.«426471_j54382875902324_3_alg».proof.Proof.Gen.Kernel.Launch
import proofs.«426471_j54382875902324_3_alg».proof.Proof.Gen.Kernel.Skeleton
import proofs.«426471_j54382875902324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection region at the word level: relational proof data

The body multiplies the activations by a 2048-column tile of the weights on the matrix unit and adds the bias tile.
The last tile overhangs the weight array, so the fetched tail of its staging buffer holds words of no array; at the
word level a product entry is not stated independently of those words, and what the body leaves in the logits'
staging buffer is left unnamed. Only this is said: the activations' buffer, fetched once and read at every point, comes
back as handed over; of the weight tile, the bias tile and the logits tile, nothing. -/

/-- The proof data of pipeline 2 on core `c`: the arrays as the region finds them; the activations' staging buffer
    left as found, the other three unconstrained; the invariant is the scoped rest and the generator register,
    untouched; nothing owed; full shares. -/
def rdat2 (c : Dev nD) : Pipeline.RDat τ (Elt F) Unit ℕ (UR sig nD τ) ℕ cfg2 c where
  A w := V c (Pipeline.arrRef spec2 w)
  after w _ Y X := match w with
    | ⟨0, _⟩ => X = Y
    | _ => True
  Φ _ := Pipeline.ΦA spec2 c
  q _ := fullShare
  owed _ := 0

theorem rA_eq2 (c : Dev nD) (w : Fin cfg2.W) : (rdat2 V c).A w = V c (Pipeline.arrRef spec2 w) := by
  dsimp only [rdat2]

/-! ## The body's triple -/

set_option maxHeartbeats 1000000 in
/-- The body on whole staging memrefs at any contents: four whole-buffer loads and one whole-buffer store into the
    logits' memref. The three inputs' memrefs come back at the contents they had, the logits' at some contents. -/
theorem sound_kernel2 (c : Dev nD) (E : Set ℕ) (i : grid2.Coords)
    (arg1 : Memref sig .tc .vmem S64x1024 .bf16) (harg1 : arg1.IsWhole) (arg2 : Memref sig .tc .vmem S1024x2048 .f32) (harg2 : arg2.IsWhole)
    (arg3 : Memref sig .tc .vmem S1x2048 .f32) (harg3 : arg3.IsWhole) (arg4 : Memref sig .tc .vmem S64x2048 .f32) (harg4 : arg4.IsWhole)
    (x0 : Vec F S64x1024 .bf16) (x1 : Vec F S1024x2048 .f32) (x2 : Vec F S1x2048 .f32) (x3 : Vec F S64x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (iprop(owns (c : Thread nD τ) arg1 fullShare x0 ∗ owns (c : Thread nD τ) arg2 fullShare x1 ∗ owns (c : Thread nD τ) arg3 fullShare x2
            ∗ (∃ X, owns (c : Thread nD τ) arg4 fullShare X)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The body obligation -/

/-- At every point, whatever the four current staging buffers hold: the body runs, the invariant and the core's dues
    pass through unread, the activations' buffer is as handed over and the other three hold something. -/
theorem rbody_obligation2 (c : Dev nD) : (rdat2 (F := F) V c).BodyObligation (defs₀ (F := F)) Variants.none () Set.univ := fun t Y _ => by
  rw [bigSep_W2, bigSep_W2]
  rw [show (rdat2 V c).Φ t.succ = (rdat2 V c).Φ t.castSucc from rfl,
    show (rdat2 V c).owesAt () t.succ = (rdat2 V c).owesAt () t.castSucc from rfl]
  iintro ⟨HΦ, Ho, H0, H1, H2, H3⟩
  iapply (sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (Y 0) (Y 1) (Y 2) (Y 3) _)
  isplitl [H0]; · iexact H0
  isplitl [H1]; · iexact H1
  isplitl [H2]; · iexact H2
  isplitl [H3]; · iexact H3
  iintro ⟨H0, H1, H2, ⟨%X, H3⟩⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact trivial
    iexact H1
  isplitl [H2]
  · iexists (Y 2); isplitr; · ipureintro; exact trivial
    iexact H2
  iexists X; isplitr; · ipureintro; exact trivial
  iexact H3

end Cert.Kernel.Hand

end
-- ==== Proof.K.Run.lean ====
import proofs.«426471_j54382875902324_3_alg».proof.Proof.Gen.Kernel.Launch
import proofs.«426471_j54382875902324_3_alg».proof.Proof.Gen.Kernel.Skeleton
import proofs.«426471_j54382875902324_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«426471_j54382875902324_3_alg».proof.Proof.Gen.Kernel.Regions
import proofs.«426471_j54382875902324_3_alg».proof.Proof.K.Reduce
import proofs.«426471_j54382875902324_3_alg».proof.Proof.K.FfnData
import proofs.«426471_j54382875902324_3_alg».proof.Proof.K.ProjRel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! # @main's run at the word level: the frame

@main is four stretches of host operations around three kernel regions. Between two items core `c` holds every
unscoped buffer whole at a valuation, the generator register at some state, and owes nothing. The valuations are a
fold from the launch memory: a host stretch rewrites the buffers it writes; region 0 rewrites `main_v9` and region 1
`main_v11`, each to what its write-backs leave (named by the region's exact proof data); region 2 rewrites `main_v14`
to contents that are NOT named, so from its exit on the state is quantified over that one buffer. No item writes an
argument, so each argument's buffer reads back through the fold to the launch memory. -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- After region 0: `main_v9` at what the sixteen points' write-backs leave, everything else as entered. -/
def W2 (c : Dev nD) : Valuation τ sig (Elt F) :=
  Function.update (V1 m c) (Proc.devRef .tc main_v9) ((dat0 (atTc (V1 m)) c).arrAt 2 cfg0.N)
/-- After the second host stretch (region 1's entry). -/
def W3 (c : Dev nD) : Valuation τ sig (Elt F) := StableHlo.after hostOps1 (W2 m c)
/-- After region 1: `main_v11` at what its one write-back leaves. -/
def W4 (c : Dev nD) : Valuation τ sig (Elt F) :=
  Function.update (W3 m c) (Proc.devRef .tc main_v11) ((dat1 (atTc (W3 m)) c).arrAt 8 cfg1.N)
/-- After the third host stretch (region 2's entry). -/
def W5 (c : Dev nD) : Valuation τ sig (Elt F) := StableHlo.after hostOps2 (W4 m c)
/-- After region 2, if it left `X` in `main_v14`. -/
def W6 (c : Dev nD) (X : Buf (Elt F) ((c : Thread nD τ).loc main_v14)) : Valuation τ sig (Elt F) :=
  Function.update (W5 m c) (Proc.devRef .tc main_v14) X
/-- After the last host stretch, from there. -/
def W7 (c : Dev nD) (X : Buf (Elt F) ((c : Thread nD τ).loc main_v14)) : Valuation τ sig (Elt F) :=
  StableHlo.after hostOps3 (W6 m c X)

/-! ## No item writes an argument -/

/-- The twelve arguments. -/
abbrev argRefs : List (Ref sig .tc) :=
  [main_arg0, main_arg1, main_arg2, main_arg3, main_arg4, main_arg5, main_arg6, main_arg7, main_arg8, main_arg9, main_arg10, main_arg11]

/-- None is written by a host stretch, none is a region's output. -/
theorem arg_not_written : ∀ r ∈ argRefs, r ∉ hostOps0_W ∧ r ≠ main_v9 ∧ r ∉ hostOps1_W ∧ r ≠ main_v11 ∧ r ∉ hostOps2_W
    ∧ r ≠ main_v14 ∧ r ∉ hostOps3_W := by decide

/-- Each is an unscoped buffer. -/
theorem arg_unscoped : ∀ r ∈ argRefs, ¬ (Proc.devRef .tc r : DevRef τ sig).isScoped := by decide

/-- So an argument's buffer holds its launch contents after the last item, whatever region 2 left in `main_v14`. -/
theorem W7_arg (c : Dev nD) (X : Buf (Elt F) ((c : Thread nD τ).loc main_v14)) (r : Ref sig .tc) (hr : r ∈ argRefs) :
    W7 m c X (Proc.devRef .tc r) = m ((c : Thread nD τ).loc r) := by
  obtain ⟨h0, h1, h2, h3, h4, h5, h6⟩ := arg_not_written r hr
  calc W7 m c X (Proc.devRef .tc r)
    _ = W6 m c X (Proc.devRef .tc r) := StableHlo.after_of_writes_sub hostOps3 _ hostOps3_writes h6
    _ = W5 m c (Proc.devRef .tc r) := Function.update_of_ne (StableHlo.devRef_ne_of_ne h5) _ _
    _ = W4 m c (Proc.devRef .tc r) := StableHlo.after_of_writes_sub hostOps2 _ hostOps2_writes h4
    _ = W3 m c (Proc.devRef .tc r) := Function.update_of_ne (StableHlo.devRef_ne_of_ne h3) _ _
    _ = W2 m c (Proc.devRef .tc r) := StableHlo.after_of_writes_sub hostOps1 _ hostOps1_writes h2
    _ = V1 m c (Proc.devRef .tc r) := Function.update_of_ne (StableHlo.devRef_ne_of_ne h1) _ _
    _ = V0 m c (Proc.devRef .tc r) := StableHlo.after_of_writes_sub hostOps0 _ hostOps0_writes h0
    _ = m ((c : Thread nD τ).loc r) := rfl

/-! ## The proof data family and the thread state -/

/-- Every pipeline's proof data, each at its region's entry contents: regions 0 and 1 name what their bodies leave and
    are read as relations; region 2 constrains without naming. -/
def rdats : (p : Fin 3) → (c : Dev nD) → Pipeline.RDat τ (Elt F) Unit ℕ (UR sig nD τ) ℕ (Pipeline.pin (pcfgs (F := F)) adm p) c
  | ⟨0, _⟩ => fun c => (dat0 (atTc (V1 m)) c).toR
  | ⟨1, _⟩ => fun c => (dat1 (atTc (W3 m)) c).toR
  | ⟨2, _⟩ => fun c => rdat2 (atTc (W5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and owing nothing. -/
abbrev R (c : Dev nD) : sProp 𝕄 := iprop((∃ r, prngReg c r) ∗ ∃ W, owes (c : Thread nD τ) (0 : CellTallies nD τ sig Unit) W)

/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region's arrays at contents `Fs` and the unscoped rest at `V` are the core's unscoped buffers at any valuation
    that has the arrays at `Fs` and agrees with `V` off them (the arrays distinct whole buffers at the full share). -/
theorem bufs_of_arrays {p : Fin 3} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c : Thread nD τ).loc b))
    (Fs : (w : Fin (Pipeline.pin (pcfgs (F := F)) adm p).W) → Buf (Elt F) (((Pipeline.pin (pcfgs (F := F)) adm p).spec w).arr.view.loc (c : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays Fs ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## Each region's arrays at its exit -/

/-- Region 0: the two inputs as entered, `main_v9` at the write-backs' fold. -/
theorem hF0 (c : Dev nD) : ∀ w : Fin cfg0.W, (dat0 (atTc (V1 m)) c).arrAt w cfg0.N = atTc (W2 m) c (Pipeline.arrRef spec0 w)
  | ⟨0, _⟩ => ((dat0 (atTc (V1 m)) c).arrAt_in 0 rfl _).trans ((A_eq0 (atTc (V1 m)) c 0).trans
      (Function.update_of_ne (StableHlo.devRef_ne_of_ne (by decide)) _ _).symm)
  | ⟨1, _⟩ => ((dat0 (atTc (V1 m)) c).arrAt_in 1 rfl _).trans ((A_eq0 (atTc (V1 m)) c 1).trans
      (Function.update_of_ne (StableHlo.devRef_ne_of_ne (by decide)) _ _).symm)
  | ⟨2, _⟩ => by
    show _ = Function.update (V1 m c) (Proc.devRef .tc main_v9) _ (Proc.devRef .tc main_v9)
    rw [Function.update_self]; rfl
theorem hrest0 (c : Dev nD) : ∀ b, b ∉ Finset.univ.image (Pipeline.arrRef spec0) → atTc (W2 m) c b = atTc (V1 m) c b :=
  fun b hb => Function.update_of_ne (StableHlo.devRef_ne_of_ne fun e => hb (Finset.mem_image.mpr ⟨2, Finset.mem_univ _, e.symm⟩)) _ _

/-- Every window of region 1 but the last is an input, and its array is not `main_v11`. -/
theorem win1_in : ∀ w : Fin cfg1.W, w ≠ 8 → (cfg1.win w).isOut = false ∧ Pipeline.arrRef spec1 w ≠ main_v11 := by decide

/-- Region 1: the eight inputs as entered, `main_v11` at its one write-back. -/
theorem hF1 (c : Dev nD) (w : Fin cfg1.W) : (dat1 (atTc (W3 m)) c).arrAt w cfg1.N = atTc (W4 m) c (Pipeline.arrRef spec1 w) := by
  by_cases hw : w = 8
  · subst hw
    show _ = Function.update (W3 m c) (Proc.devRef .tc main_v11) _ (Proc.devRef .tc main_v11)
    rw [Function.update_self]
  · obtain ⟨hin, hne⟩ := win1_in w hw
    exact ((dat1 (atTc (W3 m)) c).arrAt_in w hin _).trans ((A_eq1 (atTc (W3 m)) c w).trans
      (Function.update_of_ne (StableHlo.devRef_ne_of_ne hne) _ _).symm)
theorem hrest1 (c : Dev nD) : ∀ b, b ∉ Finset.univ.image (Pipeline.arrRef spec1) → atTc (W4 m) c b = atTc (W3 m) c b :=
  fun b hb => Function.update_of_ne (StableHlo.devRef_ne_of_ne fun e => hb (Finset.mem_image.mpr ⟨8, Finset.mem_univ _, e.symm⟩)) _ _

/-- Every window of region 2 but the last is an input, and its array is not `main_v14`. -/
theorem win2_in : ∀ w : Fin cfg2.W, w ≠ 3 → (cfg2.win w).isOut = false ∧ Pipeline.arrRef spec2 w ≠ main_v14 := by decide

/-- Region 2: contents its arrays may hold after every write-back are the three inputs as entered and, in `main_v14`,
    whatever they are. -/
theorem hF2 (c : Dev nD) (Fs : (w : Fin cfg2.W) → Buf (Elt F) ((cfg2.win w).arr.view.loc (c : Thread nD τ)))
    (hFs : ∀ w, (rdat2 (atTc (W5 m)) c).ArrAt w cfg2.N (Fs w)) (w : Fin cfg2.W) :
    Fs w = W6 m c (Fs 3) (Proc.devRef .tc (Pipeline.arrRef spec2 w)) := by
  by_cases hw : w = 3
  · subst hw
    show _ = Function.update (W5 m c) (Proc.devRef .tc main_v14) _ (Proc.devRef .tc main_v14)
    rw [Function.update_self]
  · obtain ⟨hin, hne⟩ := win2_in w hw
    have h := hFs w
    rw [(rdat2 (atTc (W5 m)) c).ArrAt_in w hin] at h
    exact h.trans ((rA_eq2 (atTc (W5 m)) c w).trans (Function.update_of_ne (StableHlo.devRef_ne_of_ne hne) _ _).symm)
theorem hrest2 (c : Dev nD) (X : Buf (Elt F) ((c : Thread nD τ).loc main_v14)) :
    ∀ b : Ref sig .tc, b ∉ Finset.univ.image (Pipeline.arrRef spec2) → W6 m c X (Proc.devRef .tc b) = atTc (W5 m) c b :=
  fun b hb => Function.update_of_ne (StableHlo.devRef_ne_of_ne fun e => hb (Finset.mem_image.mpr ⟨3, Finset.mem_univ _, e.symm⟩)) _ _

/-! ## The regions as segments -/

/-- No pipeline has a prefetched table. -/
theorem prefHeld_none (p : Fin 3) (c : Dev nD) :
    (Pipeline.prefHeld (Ix := Unit) (Name := ℕ) (U := UR sig nD τ) (Lvl := ℕ) (pcfgs (F := F) p).pre c (fun _ => fullShare) (adm (F := F) p).1 : sProp 𝕄) = BI.emp := by
  unfold Pipeline.prefHeld; rw [show (Finset.univ : Finset (Fin 0)) = ∅ from rfl, BI.bigSep_empty]

set_option backward.isDefEq.respectTransparency.types false in
/-- REGION 0 (the masked sum): entered from every unscoped buffer at `V1`, left at `W2`. Its arrays are split out of the
    unscoped buffers and put back at the exit contents; the generator register goes into the invariant and comes out;
    nothing is owed; the kernel has no semaphore of its own. -/
def rreg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V1 m)) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none, prefHeld_none]
    have hsplit := Pipeline.RDat.arrays_of_unscopedBufs (p := 0) (pcfgs (F := F)) adm (rdats m) launch0.win launch0.arr_whole c
      ((rdats m 0 c).share_full fun _ => rfl) (atTc (V1 m) c) (A_eq0 (atTc (V1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays m (p := 0) launch0.win launch0.arr_whole c ((rdats m 0 c).share_full fun _ => rfl)
      (atTc (V1 m) c) (atTc (W2 m) c) ((dat0 (atTc (V1 m)) c).arrAt · cfg0.N) (hF0 m c) (hrest0 m c)
    rw [Pipeline.unscopedBufs_held] at hjoin
    have harrs : (rdats m 0 c).arraysAt (Pipeline.pin (pcfgs (F := F)) adm 0).N
        ⊢ ((rdats m 0 c).arrays ((dat0 (atTc (V1 m)) c).arrAt · cfg0.N) : sProp 𝕄) :=
      Entails.of_eq ((dat0 (atTc (V1 m)) c).toR_arraysAt_eq cfg0.N)
    iintro ⟨Ha, HO, HY, Hrest⟩
    ihave Ha' := harrs $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- REGION 1 (the one-point feed-forward and gate kernel): entered at `W3`, left at `W4`; routed as region 0. -/
def rreg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none, prefHeld_none]
    have hsplit := Pipeline.RDat.arrays_of_unscopedBufs (p := 1) (pcfgs (F := F)) adm (rdats m) launch1.win launch1.arr_whole c
      ((rdats m 1 c).share_full fun _ => rfl) (atTc (W3 m) c) (A_eq1 (atTc (W3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arrays m (p := 1) launch1.win launch1.arr_whole c ((rdats m 1 c).share_full fun _ => rfl)
      (atTc (W3 m) c) (atTc (W4 m) c) ((dat1 (atTc (W3 m)) c).arrAt · cfg1.N) (hF1 m c) (hrest1 m c)
    rw [Pipeline.unscopedBufs_held] at hjoin
    have harrs : (rdats m 1 c).arraysAt (Pipeline.pin (pcfgs (F := F)) adm 1).N
        ⊢ ((rdats m 1 c).arrays ((dat1 (atTc (W3 m)) c).arrAt · cfg1.N) : sProp 𝕄) :=
      Entails.of_eq ((dat1 (atTc (W3 m)) c).toR_arraysAt_eq cfg1.N)
    iintro ⟨Ha, HO, HY, Hrest⟩
    ihave Ha' := harrs $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- REGION 2 (the projection): entered at `W5`, left with `main_v14` at SOME contents and every other unscoped buffer as
    entered. At the exit each array is held at contents it may hold after the write-backs: one choice of contents for
    all four (`bigSep_exists_pi`), the three inputs' being the entry contents and the output's the witness. -/
def rreg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := rbody_obligation2 (atTc (W5 m)) c
  hwaits := Pipeline.RDat.hwaits_of_owed_zero _ _ _ _ L lv 2 fun _ _ => rfl
  pre c := iprop(StableHlo.held (c : Thread nD τ) (Pipeline.ucRefs τ sig) (W5 m c) ∗ R c)
  post c := iprop(∃ X, StableHlo.held (c : Thread nD τ) (Pipeline.ucRefs τ sig) (W6 m c X) ∗ R c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none, prefHeld_none]
    have hsplit := Pipeline.RDat.arrays_of_unscopedBufs (p := 2) (pcfgs (F := F)) adm (rdats m) launch2.win launch2.arr_whole c
      ((rdats m 2 c).share_full fun _ => rfl) (atTc (W5 m) c) (rA_eq2 (atTc (W5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    haveI : ∀ w : Fin cfg2.W, Nonempty (Buf (Elt F) ((cfg2.win w).arr.view.loc (c : Thread nD τ))) := fun w => ⟨(rdat2 (atTc (W5 m)) c).A w⟩
    have hpick : (rdats m 2 c).arraysAt (Pipeline.pin (pcfgs (F := F)) adm 2).N
        ⊢ (iprop(∃ Fs : (w : Fin cfg2.W) → Buf (Elt F) ((cfg2.win w).arr.view.loc (c : Thread nD τ)),
            ⌜∀ w, (rdat2 (atTc (W5 m)) c).ArrAt w cfg2.N (Fs w)⌝ ∗ (rdats m 2 c).arrays Fs) : sProp 𝕄) := by
      show (rdat2 (atTc (W5 m)) c).arraysAt cfg2.N ⊢ (iprop(∃ Fs : (w : Fin cfg2.W) → Buf (Elt F) ((cfg2.win w).arr.view.loc (c : Thread nD τ)),
            ⌜∀ w, (rdat2 (atTc (W5 m)) c).ArrAt w cfg2.N (Fs w)⌝ ∗ (rdat2 (atTc (W5 m)) c).arrays Fs) : sProp 𝕄)
      unfold Pipeline.RDat.arraysAt Pipeline.RDat.arrays
      refine (bigSep_exists_pi Finset.univ _).trans ?_
      iintro ⟨%Fs, H⟩
      ihave H' := (bigSep_pure_sep Finset.univ _ _) $$ H
      icases H' with ⟨%h, H'⟩
      iexists Fs
      isplitr; · ipureintro; exact fun w => h w (Finset.mem_univ w)
      iexact H'
    iintro ⟨Ha, HO, HY, Hrest⟩
    ihave Ha' := hpick $$ Ha
    icases Ha' with ⟨%Fs, %hFs, Ha'⟩
    have hjoin := bufs_of_arrays m (p := 2) launch2.win launch2.arr_whole c ((rdats m 2 c).share_full fun _ => rfl)
      (atTc (W5 m) c) (fun b => W6 m c (Fs 3) b) Fs (hF2 m c Fs hFs) (hrest2 m c (Fs 3))
    rw [Pipeline.unscopedBufs_held] at hjoin
    imodintro
    iexists (Fs 3)
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- The last host stretch (the softmax tail) from whatever region 2 left in `main_v14`: under the witness it is the
    line of operations over the held buffers. -/
def hseg3 : Pipeline.HostSeg (Name := ℕ) (U := UR sig nD τ) (pcfgs (F := F)) defs₀ 𝒱₀ L lv where
  prog := StableHlo.seq hostOps3
  pre c := iprop(∃ X, StableHlo.held (c : Thread nD τ) (Pipeline.ucRefs τ sig) (W6 m c X) ∗ R c)
  post c := iprop(∃ X, StableHlo.held (c : Thread nD τ) (Pipeline.ucRefs τ sig) (W7 m c X) ∗ R c)
  run c {β} k K := by
    iintro ⟨Hk, Hbd, ⟨%X, Hh, HR⟩, -⟩
    have hseq := StableHlo.wp_seq (defs := Pipeline.defs (pcfgs (F := F)) defs₀) (Variants.lift 𝒱₀) none Set.univ c (Pipeline.ucRefs τ sig) k (K := K)
      hostOps3 (fun op h => Pipeline.sub_ucRefs op ((List.forall_iff_forall_mem.mp hostOps3_sub) op h))
      (fun op h => (List.forall_iff_forall_mem.mp hostOps3_fresh) op h) (W6 m c X)
    iapply hseq $$ [Hbd Hh]
    · isplitl [Hbd] <;> iassumption
    iintro ⟨Hbd, Hh⟩
    iapply Hk
    isplitl [Hbd]; · iexact Hbd
    iexists X
    isplitl [Hh]; · iexact Hh
    iexact HR

/-! ## @main as segments, and the launch -/

/-- @main's seven items in order. -/
abbrev rsegs : List (Pipeline.RDat.Seg (pcfgs (F := F)) adm (rdats m) () defs₀ 𝒱₀ L lv) :=
  [ .host (hseg hostOps0 hostOps0_sub hostOps0_fresh (V0 m)),
    .region (rreg0 m),
    .host (hseg hostOps1 hostOps1_sub hostOps1_fresh (W2 m)),
    .region (rreg1 m),
    .host (hseg hostOps2 hostOps2_sub hostOps2_fresh (W4 m)),
    .region (rreg2 m),
    .host (hseg3 m) ]

/-- The last thread state without the dues: every unscoped buffer after the last stretch, from some contents of
    `main_v14`; the generator register at some state. -/
abbrev Tₙ (c : Dev nD) : sProp 𝕄 :=
  iprop(∃ X, StableHlo.held (c : Thread nD τ) (Pipeline.ucRefs τ sig) (W7 m c X) ∗ ∃ r, prngReg c r)

/-- The chain's end: the last stretch's state is the last thread state beside the core owing nothing. -/
theorem last_step (c : Dev nD) :
    (iprop(∃ X, StableHlo.held (c : Thread nD τ) (Pipeline.ucRefs τ sig) (W7 m c X) ∗ R c) : sProp 𝕄)
      ⊢ iprop(Tₙ m c ∗ ∃ W, owes (c.tc : Thread nD τ) (0 : CellTallies nD τ sig Unit) W) := by
  iintro ⟨%X, Hh, Hp, HO⟩
  isplitr [HO]
  · iexists X
    isplitl [Hh]; · iexact Hh
    iexact Hp
  iexact HO

set_option backward.isDefEq.respectTransparency.types false in
/-- THE FRAME at the word level (at any `F`): from any memory with zero counters, every weakly fair execution of @main
    terminates, nothing faulting, and every final state has the twelve argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.RDat.θ_run_regions_kit (pcfgs (F := F)) adm (rdats m) () cellOf_inj emb₁ defs₀ 𝒱₀ L lv m ρ main (rsegs m)
    (fun c Q => by
      rewrite [main_chain c, Pipeline.RDat.Seg.run_eq_chain,
        show (rsegs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun c => last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ r ∈ argRefs, s.mem ((c.tc : Thread nD τ).loc r) = m ((c.tc : Thread nD τ).loc r))
    (hfin := fun c s' => by
      iintro ⟨⟨%X, Hh, -⟩, HSI⟩
      unfold StableHlo.held
      ihave Hr := (pointsTo_read_all (Pipeline.ucRefs τ sig) (fun b => (((c : Thread nD τ)).1, b)) (W7 m c X) s') $$ [Hh HSI]
      · isplitl [Hh] <;> iassumption
      icases Hr with ⟨%h, HSI⟩
      imodintro
      isplitr
      · ipureintro
        intro r hr
        exact (h (Proc.devRef .tc r) (mem_uc r (arg_unscoped r hr))).trans (W7_arg m c X r hr)
      · iexact HSI)
    (hQ := fun s h c =>
      ⟨h c main_arg0 (by decide), h c main_arg1 (by decide), h c main_arg2 (by decide), h c main_arg3 (by decide),
        h c main_arg4 (by decide), h c main_arg5 (by decide), h c main_arg6 (by decide), h c main_arg7 (by decide),
        h c main_arg8 (by decide), h c main_arg9 (by decide), h c main_arg10 (by decide), h c main_arg11 (by decide)⟩)

end Cert.Kernel.Hand

end
-- ==== Proof.KI.Reduce.lean ====
import proofs.«426471_j54382875902324_3_alg».proof.Proof.Gen.KernelIdeal.Launch
import proofs.«426471_j54382875902324_3_alg».proof.Proof.Gen.KernelIdeal.Skeleton
import proofs.«426471_j54382875902324_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The masked entity sum's region: blocks, the body at one point, the running sum, the proof data

Region 0 runs on a grid of 2 × 8 points. At point `(r, j)` the body reads block `8r + j` of the hidden states
(4 batch rows × 512 entities × 1024 features) and of the mask (4 × 512 × 1), and adds, feature by feature, the sum
over the block's rows and entities of their products to the output block `r` (1 × 1 × 1024), which it first sets
to zero when `j = 0`. The output block stays in its staging buffer along `j` and is written back at `j = 7`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one conditional as a proposition of the grid coordinates: the second coordinate is zero. -/
abbrev atReset (i : grid0.Coords) : Prop :=
  (Scalar.cmpi .ne (Scalar.extui (Scalar.cmpi .eq (BitVec.ofNat 32 (i 1).val) 0#32)) 0#32) = 1#1

/-- Over the 16 points, in row-major order, the second coordinate is zero at the multiples of 8. -/
theorem atReset_iff : ∀ t : Fin cfg0.N, atReset (grid0.coords t) ↔ t.val % 8 = 0 :=
  (by decide +kernel : ∀ t : Fin grid0.N, atReset (grid0.coords t) ↔ t.val % 8 = 0)

/-- The zero offsets of a rank-3 rectangle, as the constant function. -/
theorem zeros3 : (![0, 0, 0] : Fin 3 → Nat) = fun _ => 0 := funext fun a => by fin_cases a <;> rfl

/-- A store through the whole-shape rectangle at zero offsets, made last, leaves its payload whatever was stored before. -/
theorem read_writes_whole_last {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole-shape rectangle at zero offsets reads the contents the memref reads. -/
theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (X : S.Idx → Val e) (hX : v.read Val f = X) :
    v.readAt Val (Rect.unit off S.size inb).toLoadRect f = X := by
  rw [← hX]; exact View.ld_unit_zero h inb (v.read Val f)

/-- THE BODY AT A RESET POINT (second coordinate zero), on any whole staging memrefs holding the two input blocks
    `x0`, `x1` and anything `d` in the output's: the output's buffer is set to the zero row, read back, and the block's
    sum added to it; the inputs' buffers are left as they were. -/
theorem body_reset (c : Dev nD) (i : grid0.Coords)
    (a2 : Memref sig .tc .vmem S4x512x1024 .f32) (h2 : a2.IsWhole)
    (a3 : Memref sig .tc .vmem S4x512x1 .f32) (h3 : a3.IsWhole)
    (a4 : Memref sig .tc .vmem S1x1x1024 .f32) (h4 : a4.IsWhole) (hc : atReset i)
    (x0 : Vec F S4x512x1024 .f32) (x1 : Vec F S4x512x1 .f32) (d : Vec F S1x1x1024 .f32)
    (E : Set ℕ) (K : PUnit → sProp 𝕄) :
    iprop(owns (c : Thread nD τ) a2 fullShare x0 ∗ owns (c : Thread nD τ) a3 fullShare x1 ∗ owns (c : Thread nD τ) a4 fullShare d
        ∗ (iprop(owns (c : Thread nD τ) a2 fullShare x0 ∗ owns (c : Thread nD τ) a3 fullShare x1
            ∗ owns (c : Thread nD τ) a4 fullShare (k0_pay2 x0 x1 (k0_pay1 (F := F)))) -∗ K ⟨⟩))
      ⊢ wp frame (wpE (defs₀ (F := F)) Variants.none c none) E (cc0__entity_reduce_kernel i a2 h2 a3 h3 a4 h4) K := by
  simp only [cc0__entity_reduce_kernel_eq_skeleton]; unfold cc0__entity_reduce_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_whole_last _ _ zeros3, readAt_whole _ _ zeros3 _ _ hf0, readAt_whole _ _ zeros3 _ _ hf1]
  sl_unfold_run_names
  rw [View.readCov_unit_zero _ zeros3]

/-- THE BODY AT ANY OTHER POINT, the output's staging memref holding `prev`: the block's sum is added to `prev`. -/
theorem body_acc (c : Dev nD) (i : grid0.Coords)
    (a2 : Memref sig .tc .vmem S4x512x1024 .f32) (h2 : a2.IsWhole)
    (a3 : Memref sig .tc .vmem S4x512x1 .f32) (h3 : a3.IsWhole)
    (a4 : Memref sig .tc .vmem S1x1x1024 .f32) (h4 : a4.IsWhole) (hc : ¬atReset i)
    (x0 : Vec F S4x512x1024 .f32) (x1 : Vec F S4x512x1 .f32) (prev : Vec F S1x1x1024 .f32)
    (E : Set ℕ) (K : PUnit → sProp 𝕄) :
    iprop(owns (c : Thread nD τ) a2 fullShare x0 ∗ owns (c : Thread nD τ) a3 fullShare x1 ∗ owns (c : Thread nD τ) a4 fullShare prev
        ∗ (iprop(owns (c : Thread nD τ) a2 fullShare x0 ∗ owns (c : Thread nD τ) a3 fullShare x1
            ∗ owns (c : Thread nD τ) a4 fullShare (k0_pay2 x0 x1 prev)) -∗ K ⟨⟩))
      ⊢ wp frame (wpE (defs₀ (F := F)) Variants.none c none) E (cc0__entity_reduce_kernel i a2 h2 a3 h3 a4 h4) K := by
  simp only [cc0__entity_reduce_kernel_eq_skeleton]; unfold cc0__entity_reduce_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_whole_last _ _ zeros3, readAt_whole _ _ zeros3 _ _ hf0, readAt_whole _ _ zeros3 _ _ hf1,
    readAt_whole _ _ zeros3 _ _ hf2]

/-! ## The running sum and the proof data -/

/-- THE RUNNING SUM. What the output's staging buffer holds after the body at position `n`: the block sum of point
    `n` added to the zero row at a reset point (`n` a multiple of 8), to what position `n - 1` left otherwise. -/
def acc0 (c : Dev nD) : (n : ℕ) → n < cfg0.N → Vec F S1x1x1024 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 8 = 0 then k0_pay1 (F := F) else acc0 c n (Nat.lt_of_succ_lt hn))

/-- At a reset point the running sum is the point's block sum over the zero row. -/
theorem acc0_reset (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rw [acc0]
  | succ n => rw [acc0, if_pos h0]

/-- At any other point it is the point's block sum over what the point before left. -/
theorem acc0_step (c : Dev nD) (t : Fin cfg0.N) (h0 : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => rw [acc0, if_neg h0]; rfl

/-- The proof data of region 0 on core `c`: the arrays as the region finds them; after the body at point `t` each
    input's buffer still at its block, the output's at the running sum; the invariant the scoped rest; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The hidden states' staging buffer holds the point's block at every point: the window is fetched at every point,
    is never cut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]) t d).trans
    (by unfold Dat.fetched Dat.blockOf iblk0; rw [A_eq0]; rfl)

/-- The mask's likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]) t d).trans
    (by unfold Dat.fetched Dat.blockOf iblk0; rw [A_eq0]; rfl)

/-- Away from the reset points the output's staging buffer holds what the body left at the point before: the point
    is not the first, the buffer was not written back in between (write-backs happen at the points ≡ 7 mod 8, whose
    successors are reset points), and the window is never idle and never cut. -/
theorem before0_2 (c : Dev nD) (t : Fin cfg0.N) (h0 : ¬t.val % 8 = 0) (d) :
    (dat0 V c).before 2 t d = acc0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega)
    (Bool.eq_false_iff.mpr fun h => by have := (flush0_2 _).mp h; dsimp only at this; omega)
    (fun _ => rfl) (fun _ _ => rfl)]
  dsimp only [dat0]

/-! ## The body obligation -/

/-- The body at any point `t`, on the staging memrefs the pipeline passes: the inputs' hold their blocks; at a reset
    point the output's holds anything and the reset case applies, elsewhere it holds the running sum of the point
    before and the accumulating case applies; the invariant and the (empty) debt pass through untouched. -/
theorem sound_body0 (c : Dev nD) (t : Fin cfg0.N) :
    iprop((dat0 V c).Φ t.castSucc ∗ (dat0 V c).owesAt () t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d))
        ∗ (∃ d, owns (c : Thread nD τ) (win0_2.stage (cfg0.slots t 2)) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (win0_0.stage (cfg0.slots t 0)) fullShare ((dat0 V c).after 0 t)
            ∗ owns (c : Thread nD τ) (win0_1.stage (cfg0.slots t 1)) fullShare ((dat0 V c).after 1 t)
            ∗ owns (c : Thread nD τ) (win0_2.stage (cfg0.slots t 2)) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [acc0_reset V c t h0]
    iintro ⟨HΦ, Ho, ⟨%d0, H0⟩, ⟨%d1, H1⟩, ⟨%d2, H2⟩⟩
    iapply (body_reset c (grid0.coords t) _ _ _ _ _ _ ((atReset_iff t).mpr h0) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [acc0_step V c t h0]
    simp only [before0_2 V c t h0]
    iintro ⟨HΦ, Ho, ⟨%d0, H0⟩, ⟨%d1, H1⟩, ⟨%d2, H2⟩⟩
    iapply (body_acc c (grid0.coords t) _ _ _ _ _ _ (fun h => h0 ((atReset_iff t).mp h)) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Ffn.lean ====
import proofs.«426471_j54382875902324_3_alg».proof.Proof.Gen.KernelIdeal.Launch
import proofs.«426471_j54382875902324_3_alg».proof.Proof.Gen.KernelIdeal.Skeleton
import proofs.«426471_j54382875902324_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The feed-forward / gate kernel (the second pallas_call): one grid point, every block a whole array

The pipeline stages eight operands — the question-embedding rows `eq0`, the two layers `W1, b1, W2, b2`, the attention
matrix `A`, the mixing matrix `H` and the entity-sum row — each as ONE block that is the whole array, runs the body once
and writes the one output block `z` back. The body loads the eight buffers whole, computes

    q = relu(eq0·W1 + b1)·W2 + b2,   z = q + ((q·A) ⊙ ent)·H

(the payload `k1_pay1`) and stores it over the whole output buffer. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store span their whole buffer -/

abbrev rEq : Rect S64x1024 := Rect.unit (s := S64x1024) ![0, 0] S64x1024.size inb_S64x1024_S64x1024_0_0
abbrev rW1 : Rect S1024x2048 := Rect.unit (s := S1024x2048) ![0, 0] S1024x2048.size inb_S1024x2048_S1024x2048_0_0
abbrev rB1 : Rect S2048 := Rect.unit (s := S2048) ![0] S2048.size inb_S2048_S2048_0
abbrev rW2 : Rect S2048x1024 := Rect.unit (s := S2048x1024) ![0, 0] S2048x1024.size inb_S2048x1024_S2048x1024_0_0
abbrev rB2 : Rect S1024 := Rect.unit (s := S1024) ![0] S1024.size inb_S1024_S1024_0
abbrev rSq : Rect S1024x1024 := Rect.unit (s := S1024x1024) ![0, 0] S1024x1024.size inb_S1024x1024_S1024x1024_0_0
abbrev rEnt : Rect S1x1024 := Rect.unit (s := S1x1024) ![0, 0] S1x1024.size inb_S1x1024_S1x1024_0_0

/-- What the body leaves in the output's staging buffer, from the eight input buffers: its one store, of the payload
    over the whole-buffer loads. -/
def zOut (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32) : Vec F S64x1024 .f32 :=
  View.canon [⟨rEq, k1_pay1 (View.ld eq0 rEq) (View.ld w1 rW1) (View.ld b1 rB1) (View.ld w2 rW2) (View.ld b2 rB2) (View.ld a rSq)
    (View.ld ent rEnt) (View.ld h rSq)⟩]

/-- The one store spans the buffer. -/
theorem zCover (p : Vec F S64x1024 .f32) (y : S64x1024.Idx) :
    ∃ pc ∈ ([⟨rEq, p⟩] : List (View.Piece (Elt F) S64x1024 .f32)), y ∈ pc.1.set :=
  View.cover_of_tiled [⟨rEq, p⟩] S64x1024.size (by rfl) y

set_option maxHeartbeats 1000000 in
/-- The body on whole staging memrefs, the eight inputs' at contents read and the output's at anything: it runs to the
    continuation with the inputs untouched and the output's buffer at `zOut` of them. -/
theorem sound_kernel1 (c : Dev nD) (E : Set ℕ) (i : grid1.Coords)
    (arg1 : Memref sig .tc .vmem S64x1024 .f32) (harg1 : arg1.IsWhole) (arg2 : Memref sig .tc .vmem S1024x2048 .f32) (harg2 : arg2.IsWhole)
    (arg3 : Memref sig .tc .vmem S2048 .f32) (harg3 : arg3.IsWhole) (arg4 : Memref sig .tc .vmem S2048x1024 .f32) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1x1024 .f32) (harg8 : arg8.IsWhole)
    (arg9 : Memref sig .tc .vmem S64x1024 .f32) (harg9 : arg9.IsWhole)
    (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32)
    (K : PUnit → sProp 𝕄) :
    iprop(owns (c : Thread nD τ) arg1 fullShare eq0 ∗ owns (c : Thread nD τ) arg2 fullShare w1 ∗ owns (c : Thread nD τ) arg3 fullShare b1
        ∗ owns (c : Thread nD τ) arg4 fullShare w2 ∗ owns (c : Thread nD τ) arg5 fullShare b2 ∗ owns (c : Thread nD τ) arg6 fullShare a
        ∗ owns (c : Thread nD τ) arg7 fullShare h ∗ owns (c : Thread nD τ) arg8 fullShare ent ∗ (∃ d, owns (c : Thread nD τ) arg9 fullShare d)
        ∗ (iprop(owns (c : Thread nD τ) arg1 fullShare eq0 ∗ owns (c : Thread nD τ) arg2 fullShare w1 ∗ owns (c : Thread nD τ) arg3 fullShare b1
            ∗ owns (c : Thread nD τ) arg4 fullShare w2 ∗ owns (c : Thread nD τ) arg5 fullShare b2 ∗ owns (c : Thread nD τ) arg6 fullShare a
            ∗ owns (c : Thread nD τ) arg7 fullShare h ∗ owns (c : Thread nD τ) arg8 fullShare ent
            ∗ owns (c : Thread nD τ) arg9 fullShare (zOut eq0 w1 b1 w2 b2 a h ent)) -∗ K ⟨⟩))
      ⊢ wp frame (wpE (defs₀ (F := F)) Variants.none c none) E
          (cc1__ffn_attn_kernel i arg1 harg1 arg2 harg2 arg3 harg3 arg4 harg4 arg5 harg5 arg6 harg6 arg7 harg7 arg8 harg8 arg9 harg9) K := by
  simp only [cc1__ffn_attn_kernel_eq_skeleton]; unfold cc1__ffn_attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  exact View.read_writes_eq_canon _ _ _ (zCover _)

end Cert.KernelIdeal.Hand

end
-- ==== Proof.KI.FfnData.lean ====
import proofs.«426471_j54382875902324_3_alg».proof.Proof.Gen.KernelIdeal.Launch
import proofs.«426471_j54382875902324_3_alg».proof.Proof.Gen.KernelIdeal.Skeleton
import proofs.«426471_j54382875902324_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«426471_j54382875902324_3_alg».proof.Proof.KI.Ffn
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The feed-forward / gate kernel: proof data, body obligation, and the output array -/

/-! ## The proof data -/

/-- The pipeline's proof data on core `c`: the arrays as the region finds them; after the body each input's buffer at its
    block and the output's at `zOut` of the input blocks; the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => zOut (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = zOut (iblk1 V c 0 t) (iblk1 V c 1 t) (iblk1 V c 2 t) (iblk1 V c 3 t) (iblk1 V c 4 t) (iblk1 V c 5 t) (iblk1 V c 6 t) (iblk1 V c 7 t) := by
  dsimp only [dat1]

/-! Every input window is fetched at the one point, unclipped: its buffer then holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)
theorem before1_6 (c : Dev nD) (t : Fin cfg1.N) (d) : (dat1 V c).before 6 t d = iblk1 V c 6 t :=
  ((dat1 V c).before_fetched 6 t (fetch1_6 t) d).trans (by unfold Dat.fetched Dat.blockOf iblk1; rw [A_eq1]; try rfl)
theorem before1_7 (c : Dev nD) (t : Fin cfg1.N) (d) : (dat1 V c).before 7 t d = iblk1 V c 7 t :=
  ((dat1 V c).before_fetched 7 t (fetch1_7 t) d).trans (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at the point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

/-! ## The output array after the region

The grid has one point and every window's block there is its whole array (block index 0, block size the array's), so a
block read is the array itself and the one write-back replaces the output array by what the body stored. -/

theorem blk1_0_read (t : Fin cfg1.N) (X : Vec F S64x1024 .f32) : ((cfg1.win 0).blk t).view.read (Elt F) X = X := by
  obtain rfl := fin_N1 t
  funext y
  show X (((cfg1.win 0).blk t1_0).view.emb y) = X y
  congr 1
  funext a; apply Fin.ext
  show win1_0.index t1_0 a * win1_0.size a + 1 * (y a).val = (y a).val
  have h0 : ∀ a, win1_0.index t1_0 a = 0 := by decide +kernel
  rw [h0 a]; omega
theorem blk1_1_read (t : Fin cfg1.N) (X : Vec F S1024x2048 .f32) : ((cfg1.win 1).blk t).view.read (Elt F) X = X := by
  obtain rfl := fin_N1 t
  funext y
  show X (((cfg1.win 1).blk t1_0).view.emb y) = X y
  congr 1
  funext a; apply Fin.ext
  show win1_1.index t1_0 a * win1_1.size a + 1 * (y a).val = (y a).val
  have h0 : ∀ a, win1_1.index t1_0 a = 0 := by decide +kernel
  rw [h0 a]; omega
theorem blk1_2_read (t : Fin cfg1.N) (X : Vec F S2048 .f32) : ((cfg1.win 2).blk t).view.read (Elt F) X = X := by
  obtain rfl := fin_N1 t
  funext y
  show X (((cfg1.win 2).blk t1_0).view.emb y) = X y
  congr 1
  funext a; apply Fin.ext
  show win1_2.index t1_0 a * win1_2.size a + 1 * (y a).val = (y a).val
  have h0 : ∀ a, win1_2.index t1_0 a = 0 := by decide +kernel
  rw [h0 a]; omega
theorem blk1_3_read (t : Fin cfg1.N) (X : Vec F S2048x1024 .f32) : ((cfg1.win 3).blk t).view.read (Elt F) X = X := by
  obtain rfl := fin_N1 t
  funext y
  show X (((cfg1.win 3).blk t1_0).view.emb y) = X y
  congr 1
  funext a; apply Fin.ext
  show win1_3.index t1_0 a * win1_3.size a + 1 * (y a).val = (y a).val
  have h0 : ∀ a, win1_3.index t1_0 a = 0 := by decide +kernel
  rw [h0 a]; omega
theorem blk1_4_read (t : Fin cfg1.N) (X : Vec F S1024 .f32) : ((cfg1.win 4).blk t).view.read (Elt F) X = X := by
  obtain rfl := fin_N1 t
  funext y
  show X (((cfg1.win 4).blk t1_0).view.emb y) = X y
  congr 1
  funext a; apply Fin.ext
  show win1_4.index t1_0 a * win1_4.size a + 1 * (y a).val = (y a).val
  have h0 : ∀ a, win1_4.index t1_0 a = 0 := by decide +kernel
  rw [h0 a]; omega
theorem blk1_5_read (t : Fin cfg1.N) (X : Vec F S1024x1024 .f32) : ((cfg1.win 5).blk t).view.read (Elt F) X = X := by
  obtain rfl := fin_N1 t
  funext y
  show X (((cfg1.win 5).blk t1_0).view.emb y) = X y
  congr 1
  funext a; apply Fin.ext
  show win1_5.index t1_0 a * win1_5.size a + 1 * (y a).val = (y a).val
  have h0 : ∀ a, win1_5.index t1_0 a = 0 := by decide +kernel
  rw [h0 a]; omega
theorem blk1_6_read (t : Fin cfg1.N) (X : Vec F S1024x1024 .f32) : ((cfg1.win 6).blk t).view.read (Elt F) X = X := by
  obtain rfl := fin_N1 t
  funext y
  show X (((cfg1.win 6).blk t1_0).view.emb y) = X y
  congr 1
  funext a; apply Fin.ext
  show win1_6.index t1_0 a * win1_6.size a + 1 * (y a).val = (y a).val
  have h0 : ∀ a, win1_6.index t1_0 a = 0 := by decide +kernel
  rw [h0 a]; omega
theorem blk1_7_read (t : Fin cfg1.N) (X : Vec F S1x1024 .f32) : ((cfg1.win 7).blk t).view.read (Elt F) X = X := by
  obtain rfl := fin_N1 t
  funext y
  show X (((cfg1.win 7).blk t1_0).view.emb y) = X y
  congr 1
  funext a; apply Fin.ext
  show win1_7.index t1_0 a * win1_7.size a + 1 * (y a).val = (y a).val
  have h0 : ∀ a, win1_7.index t1_0 a = 0 := by decide +kernel
  rw [h0 a]; omega
theorem blk1_8_read (t : Fin cfg1.N) (X : Vec F S64x1024 .f32) : ((cfg1.win 8).blk t).view.read (Elt F) X = X := by
  obtain rfl := fin_N1 t
  funext y
  show X (((cfg1.win 8).blk t1_0).view.emb y) = X y
  congr 1
  funext a; apply Fin.ext
  show win1_8.index t1_0 a * win1_8.size a + 1 * (y a).val = (y a).val
  have h0 : ∀ a, win1_8.index t1_0 a = 0 := by decide +kernel
  rw [h0 a]; omega

theorem iblk1_eq (c : Dev nD) (t : Fin cfg1.N) :
    iblk1 V c 0 t = V c main_v6 ∧ iblk1 V c 1 t = V c main_arg4 ∧ iblk1 V c 2 t = V c main_arg5 ∧ iblk1 V c 3 t = V c main_arg6
      ∧ iblk1 V c 4 t = V c main_arg7 ∧ iblk1 V c 5 t = V c main_arg8 ∧ iblk1 V c 6 t = V c main_arg9 ∧ iblk1 V c 7 t = V c main_v10 :=
  ⟨blk1_0_read t _, blk1_1_read t _, blk1_2_read t _, blk1_3_read t _, blk1_4_read t _, blk1_5_read t _, blk1_6_read t _, blk1_7_read t _⟩

/-- The one store spans the output buffer and each load its input buffer: the stored block is the payload of the blocks. -/
theorem zOut_eq (eq0 : Vec F S64x1024 .f32) (w1 : Vec F S1024x2048 .f32) (b1 : Vec F S2048 .f32) (w2 : Vec F S2048x1024 .f32)
    (b2 : Vec F S1024 .f32) (a : Vec F S1024x1024 .f32) (h : Vec F S1024x1024 .f32) (ent : Vec F S1x1024 .f32) :
    zOut eq0 w1 b1 w2 b2 a h ent = k1_pay1 eq0 w1 b1 w2 b2 a ent h := by
  have hz2 : (![0, 0] : Fin 2 → Nat) = fun _ => 0 := funext fun a => by fin_cases a <;> rfl
  have hz1 : (![0] : Fin 1 → Nat) = fun _ => 0 := funext fun a => by fin_cases a; rfl
  unfold zOut
  rw [View.canon_unit_zero hz2]
  simp only [View.ld_unit_zero (S := S64x1024) hz2, View.ld_unit_zero (S := S1024x2048) hz2, View.ld_unit_zero (S := S2048) hz1,
    View.ld_unit_zero (S := S2048x1024) hz2, View.ld_unit_zero (S := S1024) hz1, View.ld_unit_zero (S := S1024x1024) hz2,
    View.ld_unit_zero (S := S1x1024) hz2]

/-- After the region the output array `z` is the feed-forward / gate stage of the eight entry arrays. -/
theorem ffn_out (c : Dev nD) : (dat1 V c).arrAt 8 cfg1.N
    = k1_pay1 (V c main_v6) (V c main_arg4) (V c main_arg5) (V c main_arg6) (V c main_arg7) (V c main_arg8) (V c main_v10) (V c main_arg9) := by
  refine (dat1 V c).arrAt_eq_of_cover 8 _ (fun t _ => ?_) (fun i => ⟨t1_0, flush1_8 _, ?_⟩)
  · obtain ⟨e0, e1, e2, e3, e4, e5, e6, e7⟩ := iblk1_eq V c t
    rw [blk1_8_read t]
    show (cfg1.win 8).cut (cfg1.grid.coords t) ((dat1 V c).after 8 t) = _
    rw [after1_8, e0, e1, e2, e3, e4, e5, e6, e7, zOut_eq]
    rfl
  · -- every index of the array lies in the one block, which is the whole array
    obtain ⟨y, hy⟩ : ∃ y : S64x1024.Idx, ((cfg1.win 8).blk t1_0).view.emb y = i := ⟨i, by
      funext a; apply Fin.ext
      show win1_8.index t1_0 a * win1_8.size a + 1 * (i a).val = (i a).val
      have h0 : ∀ a, win1_8.index t1_0 a = 0 := by decide +kernel
      rw [h0 a]; omega⟩
    rw [← hy]; exact View.emb_mem_set _ y

end Cert.KernelIdeal.Hand

end
-- ==== Proof.KI.Spec.lean ====
/- The three functions both programs compute on the way to the logits, written once over the whole arrays at the
   exact (extended-real) instance:
   * the masked entity sum: for each feature `d`, the sum over all batch rows `b` and entities `e` of
     `x[b,e,d] · m[b,e]` (the mask carried as a trailing unit axis);
   * the small feed-forward / gate stage, which is the second kernel's arithmetic itself (one grid point whose
     blocks are the whole arrays), so its payload term serves as its own specification;
   * the vocabulary projection: `logits[r,v] = Σ_k z[r,k] · Ws[k,v] + bs[v]`. -/
import proofs.«426471_j54382875902324_3_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The masked entity sum as a row vector: `entSpec x m (0, d) = Σ_b Σ_e x[b,e,d] · m[b,e,0]`. -/
def entSpec (x : FVec Ideal S64x512x1024 .f32) (m : FVec Ideal S64x512x1 .f32) : FVec Ideal S1x1024 .f32 :=
  fun j => ∑ b : Fin 64, ∑ e : Fin 512, x (ix3 b e (j 1)) * m (ix3 b e 0)

/-- The feed-forward / gate stage on whole arrays (question embedding rows, the two FFN layers, the attention matrix,
    the entity sum row, the mixing matrix): the second kernel's own arithmetic. -/
abbrev ffnSpec (eq0 : FVec Ideal S64x1024 .f32) (W1 : FVec Ideal S1024x2048 .f32) (b1 : FVec Ideal S2048 .f32)
    (W2 : FVec Ideal S2048x1024 .f32) (b2 : FVec Ideal S1024 .f32) (A : FVec Ideal S1024x1024 .f32)
    (ent : FVec Ideal S1x1024 .f32) (H : FVec Ideal S1024x1024 .f32) : FVec Ideal S64x1024 .f32 :=
  k1_pay1 (F := Ideal) eq0 W1 b1 W2 b2 A ent H

/-- The vocabulary projection: `logitsSpec z Ws bs (r, v) = Σ_k z[r,k] · Ws[k,v] + bs[0,v]`. -/
def logitsSpec (z : FVec Ideal S64x1024 .bf16) (Ws : FVec Ideal S1024x50257 .f32) (bs : FVec Ideal S1x50257 .f32) :
    FVec Ideal S64x50257 .f32 :=
  fun i => (∑ k : Fin 1024, z (ix2 (i 0) k) * Ws (ix2 k (i 1))) + bs (ix2 0 (i 1))

/-- The closing softmax over the vocabulary axis as ONE function of the logits (row maximum, shifted exponentials,
    their row sum, the quotient). Both programs apply exactly this chain of host operations to their logits; it is
    carried whole and never opened. -/
def softmaxTail (x : FVec Ideal S64x50257 .f32) : FVec Ideal S64x50257 .f32 :=
  let mx : FVec Ideal S64 .f32 := Host.reduce FloatOps.maximumf x (constant (F := Ideal) S_ .f32 0xFF800000#32) reducesTo_S64x50257_S64_d1 h_S_
  let mx' : FVec Ideal S64 .f32 := maximumf (broadcastInDim S64 ![] bcast_S_S64 (constant (F := Ideal) S_ .f32 0xFF800000#32)) mx
  let ex : FVec Ideal S64x50257 .f32 := Host.exp (F := Ideal) (subf x (broadcastInDim S64x50257 ![0, 1] bcast_S64x1_S64x50257_0_1 (broadcastInDim S64x1 ![0] bcast_S64_S64x1_0 mx')))
  let sm : FVec Ideal S64 .f32 := Host.reduceAdd (F := Ideal) ex (constant (F := Ideal) S_ .f32 0x00000000#32) reducesTo_S64x50257_S64_d1 h_S_
  Host.divf (F := Ideal) ex (broadcastInDim S64x50257 ![0, 1] bcast_S64x1_S64x50257_0_1 (broadcastInDim S64x1 ![0] bcast_S64_S64x1_0 sm))

theorem entSpec_apply (x : FVec Ideal S64x512x1024 .f32) (m : FVec Ideal S64x512x1 .f32) (d : Fin 1024) :
    entSpec x m (ix2 (0 : Fin 1) d) = ∑ b : Fin 64, ∑ e : Fin 512, x (ix3 b e d) * m (ix3 b e 0) := rfl

theorem logitsSpec_apply (z : FVec Ideal S64x1024 .bf16) (Ws : FVec Ideal S1024x50257 .f32) (bs : FVec Ideal S1x50257 .f32)
    (r : Fin 64) (v : Fin 50257) :
    logitsSpec z Ws bs (ix2 r v) = (∑ k : Fin 1024, z (ix2 r k) * Ws (ix2 k v)) + bs (ix2 0 v) := rfl

end Cert.KernelIdeal.Hand

end
-- ==== Proof.KI.Proj.lean ====
/- The vocabulary projection's pipeline at the exact (extended-real) instance: its proof data and body obligation.

   The kernel computes `logits = z · Ws + bs` for `z` of 64 × 1024, `Ws` of 1024 × 50257 and `bs` of 1 × 50257 in 25
   tiles of 2048 columns. 25 · 2048 = 51200 exceeds 50257: the last tile of the weights, of the bias and of the result
   overhangs its array, its first 1105 columns inside. A transfer of such a tile moves only the part inside, so past it
   the staging buffers hold words nothing names, and the body computes from them. What makes exact proof data possible
   all the same: entry `(r, v)` of `z · W + b` is `Σ_k z[r,k] · W[k,v] + b[0,v]`, which reads COLUMN `v` of `W` and
   of `b` only. So on the columns inside the array the body's result is the specification's, whatever fills the rest;
   and the obligation of a window whose transfers may be cut asks for the columns inside only. -/
import proofs.«426471_j54382875902324_3_alg».proof.Proof.Gen.KernelIdeal.Launch
import proofs.«426471_j54382875902324_3_alg».proof.Proof.Gen.KernelIdeal.Skeleton
import proofs.«426471_j54382875902324_3_alg».proof.Proof.Gen.KernelIdeal.Points
import proofs.«426471_j54382875902324_3_alg».proof.Proof.KI.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered, at the exact (extended-real) instance
variable (V : (c : Dev nD) → (b : Ref sig .tc) → Buf (Elt Ideal) ((c : Thread nD τ).loc b))

/-! ## The payload at one element

At the exact instance the projection's payload at row `r` and column `v` of the tile is the plain sum over the
contraction coordinate of the products of row `r` of the left operand with COLUMN `v` of the right one, plus the bias
at column `v`: the narrowing conversion is the identity on extended reals, the accumulator is the zero splat, and the
broadcast bias reads its one row. So the value at a column depends on that column of the weights and the bias only. -/

/-- The projection's dimension numbers: rows times contraction, contraction times columns. -/
abbrev dotP := dot_S64x1024_S1024x2048_S64x2048_1_0_0_1_n_n

theorem dotP_rank : dotP.contr.rank = 1 := rfl
theorem dotP_size : dotP.contr.size ⟨0, by rw [dotP_rank]; exact Nat.one_pos⟩ = 1024 := rfl

/-- The contraction index is its one coordinate. -/
abbrev kEquiv : dotP.contr.Idx ≃ Fin 1024 := contrEquiv1 dotP 1024 dotP_rank dotP_size

/-- At result index `(r, v)` and contraction coordinate `k` the left operand is read at `(r, k)` … -/
theorem lhsIdx_dotP (r : Fin 64) (v : Fin 2048) (k : dotP.contr.Idx) : dotP.lhsIdx (ix2 r v) k = ix2 r (kEquiv k) := by
  funext a
  match a with
  | ⟨0, _⟩ => exact Fin.ext rfl
  | ⟨1, _⟩ => exact Fin.ext rfl

/-- … and the right one at `(k, v)`. -/
theorem rhsIdx_dotP (r : Fin 64) (v : Fin 2048) (k : dotP.contr.Idx) : dotP.rhsIdx (ix2 r v) k = ix2 (kEquiv k) v := by
  funext a
  match a with
  | ⟨0, _⟩ => exact Fin.ext rfl
  | ⟨1, _⟩ => exact Fin.ext rfl

/-- The payload at `(r, v)`: `Σ_k z[r,k] · W[k,v] + b[0,v]`. -/
theorem k2_pay1_apply (z : Vec Ideal S64x1024 .bf16) (X1 : Vec Ideal S1024x2048 .f32) (X2 : Vec Ideal S1x2048 .f32)
    (r : Fin 64) (v : Fin 2048) :
    k2_pay1 (F := Ideal) z X1 X2 (ix2 r v) = (∑ k : Fin 1024, z (ix2 r k) * X1 (ix2 k v)) + X2 (ix2 0 v) := by
  unfold k2_pay1
  rw [addf_apply, shapeCast_self, shapeCast_self]
  simp only [matmul]
  rw [Ideal.matmul_constant_zero_apply,
    broadcastTo_apply X2 broadcasts_S1x2048_S64x2048 (ix2 r v) (ix2 (0 : Fin 1) v) (fun a => by
      match a with
      | ⟨0, _⟩ => rfl
      | ⟨1, _⟩ => rfl)]
  congr 1
  refine Fintype.sum_equiv kEquiv _ _ fun k => ?_
  rw [lhsIdx_dotP, rhsIdx_dotP, truncf_apply]

/-! ## The windows' blocks and the proof data -/

/-- Window `w`'s block at point `t`, its part inside the array, read off the array as the region finds it. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The logits as the specification gives them from the region's entry arrays. -/
abbrev logits2 (c : Dev nD) : FVec Ideal S64x50257 .f32 := logitsSpec (V c main_v13) (V c main_arg10) (V c main_v12)

/-- The output's block at point `t`, its part inside the array: the specification's logits read through it. -/
def oblk2 (c : Dev nD) (t : Fin cfg2.N) : (win2_3.xblock (grid2.coords t)).Idx → Elt Ideal .f32 :=
  (win2_3.blk t).view.read (Elt Ideal) (logits2 V c)

/-- The weights' block at point `t` filled out past the array's end with the zero word; -/
def wblk2 (c : Dev nD) (t : Fin cfg2.N) : S1024x2048.Idx → Elt Ideal .f32 :=
  win2_1.fill (grid2.coords t) (fun _ => (FloatOps.ofBits (F := Ideal) .f32 0#32 : Elt Ideal .f32)) (iblk2 V c 1 t)
/-- the bias's; -/
def bblk2 (c : Dev nD) (t : Fin cfg2.N) : S1x2048.Idx → Elt Ideal .f32 :=
  win2_2.fill (grid2.coords t) (fun _ => (FloatOps.ofBits (F := Ideal) .f32 0#32 : Elt Ideal .f32)) (iblk2 V c 2 t)
/-- the specification's output block likewise. -/
def lblk2 (c : Dev nD) (t : Fin cfg2.N) : S64x2048.Idx → Elt Ideal .f32 :=
  win2_3.fill (grid2.coords t) (fun _ => (FloatOps.ofBits (F := Ideal) .f32 0#32 : Elt Ideal .f32)) (oblk2 V c t)

/-- The proof data of the projection's pipeline on core `c`. After the body at point `t`: the activations' buffer
    holds their (one, whole) block; the weights' and the bias's hold their blocks, and the output's the specification's
    block, each filled out past the array's end with the zero word, which no obligation reads. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => lblk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t = lblk2 V c t := by dsimp only [dat2]

/-- The activations' window is fetched at the first point only and its block index never moves: at every point its
    buffer holds the block. -/
theorem before2_0 (c : Dev nD) (t : Fin cfg2.N) (d) : (dat2 V c).before 0 t d = iblk2 V c 0 t := by
  rw [(dat2 V c).before_in_eq_fetched 0 rfl (fun _ => rfl) (fun _ _ _ => rfl)
    (fun t => by rw [after2_0]; unfold Dat.blockOf iblk2; rw [A_eq2]) t d]
  unfold Dat.fetched Dat.blockOf iblk2; rw [A_eq2]; rfl

/-- The weights' and the bias's windows are fetched at every point: each buffer holds the block on the part the
    fetch fills and arbitrary words `d` past the array's end. -/
theorem before2_1 (c : Dev nD) (t : Fin cfg2.N) (d) :
    (dat2 V c).before 1 t d = win2_1.fill (grid2.coords t) d (iblk2 V c 1 t) := by
  rw [(dat2 V c).before_fetched 1 t (fetch2_1 t) d]
  unfold Dat.fetched Dat.blockOf iblk2; rw [A_eq2]
theorem before2_2 (c : Dev nD) (t : Fin cfg2.N) (d) :
    (dat2 V c).before 2 t d = win2_2.fill (grid2.coords t) d (iblk2 V c 2 t) := by
  rw [(dat2 V c).before_fetched 2 t (fetch2_2 t) d]
  unfold Dat.fetched Dat.blockOf iblk2; rw [A_eq2]

/-- The output's window is written back at every point: its buffer comes to the body at contents nothing names. -/
theorem before2_3 (c : Dev nD) (t : Fin cfg2.N) (d) : (dat2 V c).before 3 t d = d :=
  (dat2 V c).before_out_reset 3 rfl t
    (by by_cases h : t.val = 0
        · exact .inl h
        · exact .inr ⟨h, flush2_3 _⟩) d

/-! ## The body's triple -/

/-- The kernel body on whole staging memrefs: four whole loads (the last one dead) and one whole store of the payload.
    The three inputs' buffers are left as found and the output's holds the payload of what the inputs' hold. -/
theorem sound_kernel2 (c : Dev nD) (E : Set ℕ) (i : grid2.Coords)
    (arg1 : Memref sig .tc .vmem S64x1024 .bf16) (harg1 : arg1.IsWhole) (arg2 : Memref sig .tc .vmem S1024x2048 .f32) (harg2 : arg2.IsWhole)
    (arg3 : Memref sig .tc .vmem S1x2048 .f32) (harg3 : arg3.IsWhole) (arg4 : Memref sig .tc .vmem S64x2048 .f32) (harg4 : arg4.IsWhole)
    (x0 : Vec Ideal S64x1024 .bf16) (x1 : Vec Ideal S1024x2048 .f32) (x2 : Vec Ideal S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 (F := Ideal) x0 x1 x2)) -∗ K ⟨⟩))
      ⊢ wp frame (wpE (defs₀ (F := Ideal)) Variants.none c none) E (cc2__proj_kernel i arg1 harg1 arg2 harg2 arg3 harg3 arg4 harg4) K := by
  have hz : (![0, 0] : Fin 2 → Nat) = fun _ => 0 := funext fun a => by fin_cases a <;> rfl
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz inb_S64x2048_S64x2048_0_0 y⟩),
    View.canon_unit_zero hz, View.readAt_eq_ld, View.readAt_eq_ld, View.readAt_eq_ld,
    View.ld_unit_zero hz, View.ld_unit_zero hz, View.ld_unit_zero hz]

/-! ## The columns inside the array

The weights', the bias's and the output's windows carry the same column block index and are cut alike, and no window
moves along the rows. So a column of the tile that lies inside the logits array lies inside the weights' and the bias's
arrays too, and there the staging buffers hold the arrays' own entries, whatever words fill the rest. -/

/-- At a point `t`, whatever words `d1`, `d2` fill the weights' and the bias's buffers past the arrays' end, the
    payload's columns inside the logits array are the specification's: entry `(r, v)` of the tile reads row `r` of the
    activations, column `v` of the weights' buffer and entry `v` of the bias's, and for `v` inside the array those are
    the arrays' column `index · 2048 + v`. -/
theorem cut_payload2 (c : Dev nD) (t : Fin cfg2.N) (d1 : S1024x2048.Idx → Elt Ideal .f32) (d2 : S1x2048.Idx → Elt Ideal .f32) :
    win2_3.cut (grid2.coords t)
        (k2_pay1 (F := Ideal) (iblk2 V c 0 t) (win2_1.fill (grid2.coords t) d1 (iblk2 V c 1 t))
          (win2_2.fill (grid2.coords t) d2 (iblk2 V c 2 t)))
      = oblk2 V c t := by
  funext j
  -- the tile's row and column under `j`
  obtain ⟨r, hr⟩ : ∃ r : Fin 64, r.val = (j 0).val := ⟨⟨_, (j 0).isLt⟩, rfl⟩
  obtain ⟨v, hv⟩ : ∃ v : Fin 2048, v.val = (j 1).val :=
    ⟨⟨_, Nat.lt_of_lt_of_le (j 1).isLt (win2_3.xsize_le (grid2.coords t) 1)⟩, rfl⟩
  have hx : win2_3.xinj (grid2.coords t) j = ix2 r v := Shape.idx_ext₂ hr.symm hv.symm
  -- the array's element under `j`: row `e0 = r`, column `e1 = index · 2048 + v`
  obtain ⟨e0, e1, hE⟩ : ∃ (e0 : Fin 64) (e1 : Fin 50257), (win2_3.rect t).emb j = ix2 e0 e1 :=
    ⟨(win2_3.rect t).emb j 0, (win2_3.rect t).emb j 1, eq_ix2 (n0 := 64) (n1 := 50257) _⟩
  have hE0 : (((win2_3.rect t).emb j) 0).val = e0.val := by rw [hE]; rfl
  have hE1 : (((win2_3.rect t).emb j) 1).val = e1.val := by rw [hE]; rfl
  have hr0 : e0.val = r.val :=
    hE0.symm.trans ((win2_3.rect_emb_val t j 0).trans (by show 0 * 64 + (j 0).val = r.val; omega))
  have hc1 : e1.val = win2_3.index t 1 * 2048 + (j 1).val := hE1.symm.trans (win2_3.rect_emb_val t j 1)
  -- the activations' entry `(r, k)`: their one block is the whole array
  have ha : ∀ k : Fin 1024, iblk2 V c 0 t (ix2 r k) = V c main_v13 (ix2 e0 k) := fun k => by
    show V c main_v13 ((win2_0.rect t).emb (ix2 r k)) = _
    refine congrArg (V c main_v13) (Shape.idx_ext₂ ?_ ?_)
    · exact (win2_0.rect_emb_val t (ix2 r k) 0).trans (by show 0 * 64 + r.val = e0.val; omega)
    · exact (win2_0.rect_emb_val t (ix2 r k) 1).trans (by show 0 * 1024 + k.val = k.val; omega)
  -- the weights' entry under `(k, v)`: inside the part the fetch fills
  have hw : ∀ k : Fin 1024, win2_1.fill (grid2.coords t) d1 (iblk2 V c 1 t) (ix2 k v) = V c main_arg10 (ix2 k e1) := fun k => by
    let j1 : (win2_1.xblock (grid2.coords t)).Idx := fun a => match a with | ⟨0, _⟩ => k | ⟨1, _⟩ => j 1
    have h1 : win2_1.xinj (grid2.coords t) j1 = ix2 k v := Shape.idx_ext₂ rfl hv.symm
    rw [← h1, win2_1.fill_xinj]
    show V c main_arg10 ((win2_1.rect t).emb j1) = _
    refine congrArg (V c main_arg10) (Shape.idx_ext₂ ?_ ?_)
    · exact (win2_1.rect_emb_val t j1 0).trans (by show 0 * 1024 + k.val = k.val; omega)
    · exact (win2_1.rect_emb_val t j1 1).trans hc1.symm
  -- the bias's entry under column `v`
  have hb : win2_2.fill (grid2.coords t) d2 (iblk2 V c 2 t) (ix2 (0 : Fin 1) v) = V c main_v12 (ix2 (0 : Fin 1) e1) := by
    let j2 : (win2_2.xblock (grid2.coords t)).Idx := fun a => match a with | ⟨0, _⟩ => (0 : Fin 1) | ⟨1, _⟩ => j 1
    have h2 : win2_2.xinj (grid2.coords t) j2 = ix2 (0 : Fin 1) v := Shape.idx_ext₂ rfl hv.symm
    rw [← h2, win2_2.fill_xinj]
    show V c main_v12 ((win2_2.rect t).emb j2) = _
    refine congrArg (V c main_v12) (Shape.idx_ext₂ ?_ ?_)
    · exact (win2_2.rect_emb_val t j2 0).trans (by show 0 * 1 + 0 = 0; omega)
    · exact (win2_2.rect_emb_val t j2 1).trans hc1.symm
  show k2_pay1 (F := Ideal) _ _ _ (win2_3.xinj (grid2.coords t) j)
    = logitsSpec (V c main_v13) (V c main_arg10) (V c main_v12) ((win2_3.rect t).emb j)
  rw [hx, k2_pay1_apply, hE, logitsSpec_apply]
  simp only [ha, hw, hb]

/-- The output's block as the proof data names it, cut back to the part inside the array, is the specification's. -/
theorem cut_lblk2 (c : Dev nD) (t : Fin cfg2.N) : win2_3.cut (grid2.coords t) (lblk2 V c t) = oblk2 V c t :=
  win2_3.cut_fill _ _ _

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the activations' buffer at its block, and each clipped window's buffer at the named contents
    on the part its transfers move, anything past it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ (∃ d, owns (c : Thread nD τ) (st2_3 t) fullShare (win2_3.fill (grid2.coords t) d (win2_3.cut (grid2.coords t) ((dat2 V c).after 3 t)))))

/-- The body at any point. The inputs' buffers arrive holding their blocks, the clipped ones filled out with arbitrary
    words; they leave as they came, which on the moved part is what the proof data names. The output's buffer leaves
    holding the payload of those, whose columns inside the array are the specification's (`cut_payload2`). -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win2_1.cut (grid2.coords t) (wblk2 V c t) = iblk2 V c 1 t from win2_1.cut_fill _ _ _]
    iexact H1
  isplitl [H2]
  · iexists d2
    rw [show win2_2.cut (grid2.coords t) (bblk2 V c t) = iblk2 V c 2 t from win2_2.cut_fill _ _ _]
    iexact H2
  · iexists _
    rw [win2_3.fill_congr_cut (grid2.coords t) ((cut_payload2 V c t d1 d2).trans (cut_lblk2 V c t).symm)]
    iexact H3

/-- The library's body obligation, in the form for windows whose transfers may be cut, at every point. -/
theorem body_obligation2 (c : Dev nD) : BodyObligationLoose (dat2 V c) (defs₀ (F := Ideal)) Variants.none () Set.univ := fun t => by
  rw [bigSep_W2, bigSep_W2]
  exact sound_body2 V c t

end Cert.KernelIdeal.Hand

end
-- ==== Proof.KI.Run.lean ====
import proofs.«426471_j54382875902324_3_alg».proof.Proof.KI.Reduce
import proofs.«426471_j54382875902324_3_alg».proof.Proof.KI.FfnData
import proofs.«426471_j54382875902324_3_alg».proof.Proof.KI.Proj
import Idealize.ShloMosaic.PureOps.Ideal
import proofs.«426471_j54382875902324_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The run of @main: four host stretches and three kernel regions, from the launch to the return

Between two items core `c` holds every unscoped buffer at a known valuation: the launch contents, then each host
stretch applied, then — at a region's exit — the region's output array replaced by what the pipeline's write-backs leave
(`Dat.arrAt … N`) and everything else as the region found it. The valuations are the generated ones
(`Gen.V0 … Gen.V7`), whose one parameter, the contents a region leaves in its output array, is fixed here stage by stage. -/

variable (m : (ℓ : Loc nD τ sig) → Buf (Elt Ideal) ℓ) (ρ : Dev nD → PrngReg)

/-- The masked-sum region is entered from the launch contents after the first host stretch. -/
abbrev E0 : (c : Dev nD) → (b : Ref sig .tc) → Buf (Elt Ideal) ((c : Thread nD τ).loc b) := fun c b => Gen.V1 m c b

/-- What the regions leave, stage 1: the masked-sum region's arrays after its write-backs (only the entry at its output
    array `main_v9` is ever read). -/
def outsA : Gen.Outs (F := Ideal) := fun _ r c =>
  Pipeline.withArrays spec0 c (Gen.V1 m c) (fun w => (dat0 (E0 m) c).arrAt w cfg0.N) (Proc.devRef .tc r)

theorem outsA_v9 (J : ℕ) (c : Dev nD) : outsA m J main_v9 c = (dat0 (E0 m) c).arrAt 2 cfg0.N := by
  unfold outsA; exact Pipeline.withArrays_arr spec0 launch0.win.arr_inj c _ _ 2

/-- The feed-forward region is entered after the second host stretch. -/
abbrev E1 : (c : Dev nD) → (b : Ref sig .tc) → Buf (Elt Ideal) ((c : Thread nD τ).loc b) := fun c b => Gen.V3 m (outsA m) c b

/-- Stage 2: also the feed-forward region's arrays after its write-back (read at `main_v11` only). -/
def outsB : Gen.Outs (F := Ideal) := fun J r c => match J with
  | 4 => Pipeline.withArrays spec1 c (Gen.V3 m (outsA m) c) (fun w => (dat1 (E1 m) c).arrAt w cfg1.N) (Proc.devRef .tc r)
  | _ => outsA m J r c

theorem outsB_v11 (c : Dev nD) : outsB m 4 main_v11 c = (dat1 (E1 m) c).arrAt 8 cfg1.N := by
  unfold outsB; exact Pipeline.withArrays_arr spec1 launch1.win.arr_inj c _ _ 8

/-- The projection region is entered after the third host stretch. -/
abbrev E2 : (c : Dev nD) → (b : Ref sig .tc) → Buf (Elt Ideal) ((c : Thread nD τ).loc b) := fun c b => Gen.V5 m (outsB m) c b

/-- Stage 3: also the projection region's arrays after its write-backs (read at `main_v14` only). -/
def outs : Gen.Outs (F := Ideal) := fun J r c => match J with
  | 6 => Pipeline.withArrays spec2 c (Gen.V5 m (outsB m) c) (fun w => (dat2 (E2 m) c).arrAt w cfg2.N) (Proc.devRef .tc r)
  | _ => outsB m J r c

theorem outs_v14 (c : Dev nD) : outs m 6 main_v14 c = (dat2 (E2 m) c).arrAt 3 cfg2.N := by
  unfold outs; exact Pipeline.withArrays_arr spec2 launch2.win.arr_inj c _ _ 3

/-! The later stages change nothing an earlier boundary reads. -/
theorem V2_stage (c : Dev nD) : Gen.V2 m (outs m) c = Gen.V2 m (outsA m) c := rfl
theorem V3_stage (c : Dev nD) : Gen.V3 m (outs m) c = Gen.V3 m (outsA m) c := rfl
theorem V4_stage (c : Dev nD) : Gen.V4 m (outs m) c = Gen.V4 m (outsB m) c := rfl
theorem V5_stage (c : Dev nD) : Gen.V5 m (outs m) c = Gen.V5 m (outsB m) c := rfl

/-! ## The proof data of the three pipelines, each at its region's entry contents -/

def pdats : (p : Fin 3) → (c : Dev nD) → Dat τ (Elt Ideal) Unit ℕ (UR sig nD τ) ℕ (Pipeline.pin (pcfgs (F := Ideal)) Gen.adm p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-! ### Region 0 -/

/-- At the region's exit each of its arrays holds what the pipeline leaves: an input what it held at entry, the output
    what the write-backs made of it. -/
theorem hF0 (c : Dev nD) (w : Fin cfg0.W) :
    (pdats m 0 c).arrAt w cfg0.N = (fun b : Ref sig .tc => Gen.V2 m (outs m) c b) (Pipeline.arrRef spec0 w) :=
  match w with
  | ⟨0, _⟩ => (((pdats m 0 c).arrAt_in 0 rfl _).trans (A_eq0 (E0 m) c 0)).trans (Gen.V2_of m (outs m) c main_arg0 (by decide)).symm
  | ⟨1, _⟩ => (((pdats m 0 c).arrAt_in 1 rfl _).trans (A_eq0 (E0 m) c 1)).trans (Gen.V2_of m (outs m) c main_v8 (by decide)).symm
  | ⟨2, _⟩ => (outsA_v9 m 2 c).symm.trans
      (show outs m 2 main_v9 c = Gen.V2 m (outs m) c (Proc.devRef .tc main_v9)
        from (Function.update_self (Proc.devRef .tc main_v9 : DevRef τ sig) (outs m 2 main_v9 c) (Gen.V1 m c)).symm)

/-- Every buffer that is none of the region's arrays is as the region found it. -/
theorem hrest0 (c : Dev nD) : ∀ b : Ref sig .tc, b ∉ Finset.univ.image (Pipeline.arrRef spec0) →
    (fun b : Ref sig .tc => Gen.V2 m (outs m) c b) b = (fun b : Ref sig .tc => Gen.V1 m c b) b := fun b hb =>
  Gen.V2_of m (outs m) c b (by
    intro h; rw [List.mem_singleton] at h; subst h
    exact hb (Finset.mem_image.mpr ⟨2, Finset.mem_univ _, rfl⟩))

set_option backward.isDefEq.respectTransparency.types false in
/-- The region as a segment of @main: entered with every unscoped buffer at the boundary's valuation, left with the
    output array replaced; its arrays are split out of the unscoped buffers at entry and put back at exit; the generator
    register goes into the pipeline's invariant and comes back; nothing is owed; the kernel has no semaphore of its own. -/
def reg0 : Pipeline.RegionSeg (pcfgs (F := Ideal)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V1 m c b)
  hentry c := by
    rw [Pipeline.ownSems0_none]
    have hsplit := Pipeline.arrays_of_unscopedBufs (p := 0) (pcfgs (F := Ideal)) Gen.adm (pdats m) launch0.win launch0.arr_whole c
      ((pdats m 0 c).share_full fun _ => rfl) (fun b : Ref sig .tc => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) Gen.adm (Ix := Unit) (Name := ℕ) (U := UR sig nD τ) (Lvl := ℕ)
      launch0.win launch0.arr_whole c (pdats m) ((pdats m 0 c).share_full fun _ => rfl)
      (fun b : Ref sig .tc => Gen.V1 m c b) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

/-- At the region's exit each of its arrays holds what the pipeline leaves: an input what it held at entry, the output
    what the write-backs made of it. -/
theorem hF1 (c : Dev nD) (w : Fin cfg1.W) :
    (pdats m 1 c).arrAt w cfg1.N = (fun b : Ref sig .tc => Gen.V4 m (outs m) c b) (Pipeline.arrRef spec1 w) :=
  match w with
  | ⟨0, _⟩ => (((pdats m 1 c).arrAt_in 0 rfl _).trans (A_eq1 (E1 m) c 0)).trans (Gen.V4_of m (outs m) c main_v6 (by decide)).symm
  | ⟨1, _⟩ => (((pdats m 1 c).arrAt_in 1 rfl _).trans (A_eq1 (E1 m) c 1)).trans (Gen.V4_of m (outs m) c main_arg4 (by decide)).symm
  | ⟨2, _⟩ => (((pdats m 1 c).arrAt_in 2 rfl _).trans (A_eq1 (E1 m) c 2)).trans (Gen.V4_of m (outs m) c main_arg5 (by decide)).symm
  | ⟨3, _⟩ => (((pdats m 1 c).arrAt_in 3 rfl _).trans (A_eq1 (E1 m) c 3)).trans (Gen.V4_of m (outs m) c main_arg6 (by decide)).symm
  | ⟨4, _⟩ => (((pdats m 1 c).arrAt_in 4 rfl _).trans (A_eq1 (E1 m) c 4)).trans (Gen.V4_of m (outs m) c main_arg7 (by decide)).symm
  | ⟨5, _⟩ => (((pdats m 1 c).arrAt_in 5 rfl _).trans (A_eq1 (E1 m) c 5)).trans (Gen.V4_of m (outs m) c main_arg8 (by decide)).symm
  | ⟨6, _⟩ => (((pdats m 1 c).arrAt_in 6 rfl _).trans (A_eq1 (E1 m) c 6)).trans (Gen.V4_of m (outs m) c main_arg9 (by decide)).symm
  | ⟨7, _⟩ => (((pdats m 1 c).arrAt_in 7 rfl _).trans (A_eq1 (E1 m) c 7)).trans (Gen.V4_of m (outs m) c main_v10 (by decide)).symm
  | ⟨8, _⟩ => (outsB_v11 m c).symm.trans
      (show outs m 4 main_v11 c = Gen.V4 m (outs m) c (Proc.devRef .tc main_v11)
        from (Function.update_self (Proc.devRef .tc main_v11 : DevRef τ sig) (outs m 4 main_v11 c) (Gen.V3 m (outs m) c)).symm)

/-- Every buffer that is none of the region's arrays is as the region found it. -/
theorem hrest1 (c : Dev nD) : ∀ b : Ref sig .tc, b ∉ Finset.univ.image (Pipeline.arrRef spec1) →
    (fun b : Ref sig .tc => Gen.V4 m (outs m) c b) b = (fun b : Ref sig .tc => Gen.V3 m (outs m) c b) b := fun b hb =>
  Gen.V4_of m (outs m) c b (by
    intro h; rw [List.mem_singleton] at h; subst h
    exact hb (Finset.mem_image.mpr ⟨8, Finset.mem_univ _, rfl⟩))

set_option backward.isDefEq.respectTransparency.types false in
/-- The region as a segment of @main: entered with every unscoped buffer at the boundary's valuation, left with the
    output array replaced; its arrays are split out of the unscoped buffers at entry and put back at exit; the generator
    register goes into the pipeline's invariant and comes back; nothing is owed; the kernel has no semaphore of its own. -/
def reg1 : Pipeline.RegionSeg (pcfgs (F := Ideal)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V3 m (outs m) c b)
  hentry c := by
    rw [Pipeline.ownSems0_none]
    have hsplit := Pipeline.arrays_of_unscopedBufs (p := 1) (pcfgs (F := Ideal)) Gen.adm (pdats m) launch1.win launch1.arr_whole c
      ((pdats m 1 c).share_full fun _ => rfl) (fun b : Ref sig .tc => Gen.V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) Gen.adm (Ix := Unit) (Name := ℕ) (U := UR sig nD τ) (Lvl := ℕ)
      launch1.win launch1.arr_whole c (pdats m) ((pdats m 1 c).share_full fun _ => rfl)
      (fun b : Ref sig .tc => Gen.V3 m (outs m) c b) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

/-- At the region's exit each of its arrays holds what the pipeline leaves: an input what it held at entry, the output
    what the write-backs made of it. -/
theorem hF2 (c : Dev nD) (w : Fin cfg2.W) :
    (pdats m 2 c).arrAt w cfg2.N = (fun b : Ref sig .tc => Gen.V6 m (outs m) c b) (Pipeline.arrRef spec2 w) :=
  match w with
  | ⟨0, _⟩ => (((pdats m 2 c).arrAt_in 0 rfl _).trans (A_eq2 (E2 m) c 0)).trans (Gen.V6_of m (outs m) c main_v13 (by decide)).symm
  | ⟨1, _⟩ => (((pdats m 2 c).arrAt_in 1 rfl _).trans (A_eq2 (E2 m) c 1)).trans (Gen.V6_of m (outs m) c main_arg10 (by decide)).symm
  | ⟨2, _⟩ => (((pdats m 2 c).arrAt_in 2 rfl _).trans (A_eq2 (E2 m) c 2)).trans (Gen.V6_of m (outs m) c main_v12 (by decide)).symm
  | ⟨3, _⟩ => (outs_v14 m c).symm.trans
      (show outs m 6 main_v14 c = Gen.V6 m (outs m) c (Proc.devRef .tc main_v14)
        from (Function.update_self (Proc.devRef .tc main_v14 : DevRef τ sig) (outs m 6 main_v14 c) (Gen.V5 m (outs m) c)).symm)

/-- Every buffer that is none of the region's arrays is as the region found it. -/
theorem hrest2 (c : Dev nD) : ∀ b : Ref sig .tc, b ∉ Finset.univ.image (Pipeline.arrRef spec2) →
    (fun b : Ref sig .tc => Gen.V6 m (outs m) c b) b = (fun b : Ref sig .tc => Gen.V5 m (outs m) c b) b := fun b hb =>
  Gen.V6_of m (outs m) c b (by
    intro h; rw [List.mem_singleton] at h; subst h
    exact hb (Finset.mem_image.mpr ⟨3, Finset.mem_univ _, rfl⟩))

set_option backward.isDefEq.respectTransparency.types false in
/-- The region as a segment of @main: entered with every unscoped buffer at the boundary's valuation, left with the
    output array replaced; its arrays are split out of the unscoped buffers at entry and put back at exit; the generator
    register goes into the pipeline's invariant and comes back; nothing is owed; the kernel has no semaphore of its own. -/
def reg2 : Pipeline.RegionSeg (pcfgs (F := Ideal)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (E2 m) c
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => Gen.V5 m (outs m) c b)
  hentry c := by
    rw [Pipeline.ownSems0_none]
    have hsplit := Pipeline.arrays_of_unscopedBufs (p := 2) (pcfgs (F := Ideal)) Gen.adm (pdats m) launch2.win launch2.arr_whole c
      ((pdats m 2 c).share_full fun _ => rfl) (fun b : Ref sig .tc => Gen.V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) Gen.adm (Ix := Unit) (Name := ℕ) (U := UR sig nD τ) (Lvl := ℕ)
      launch2.win launch2.arr_whole c (pdats m) ((pdats m 2 c).share_full fun _ => rfl)
      (fun b : Ref sig .tc => Gen.V5 m (outs m) c b) (fun b : Ref sig .tc => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the launch -/

/-- A host stretch as a segment: its operations run over the unscoped buffers from the valuation `W`, the rest riding
    along; it leaves them at the stretch applied to `W`, which is the next boundary's valuation by name. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := Ideal)) Gen.adm (pdats m) () defs₀ 𝒱₀ L lv) :=
  [ .host (hseg hostOps0 hostOps0_sub hostOps0_fresh (Gen.V0 m)),
    .region (reg0 m),
    .host (hseg hostOps1 hostOps1_sub hostOps1_fresh (Gen.V2 m (outs m))),
    .region (reg1 m),
    .host (hseg hostOps2 hostOps2_sub hostOps2_fresh (Gen.V4 m (outs m))),
    .region (reg2 m),
    .host (hseg hostOps3 hostOps3_sub hostOps3_fresh (Gen.V6 m (outs m))) ]

/-- @main is the run of the seven items. -/
theorem main_run (c : Dev nD) : main (F := Ideal) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    every final state holds each unscoped buffer at the last boundary's valuation `Gen.V7 m (outs m)`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = Gen.V7 m (outs m) c b) :=
  Pipeline.θ_run_regions_kit (pcfgs (F := Ideal)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V7 m (outs m) c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Gen.V7 m (outs m) c) ∗ R c) ⊢ _
      iintro ⟨Hh, Hp, HO⟩; isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun s h c => h c)

end Cert.KernelIdeal.Hand

end
-- ==== Proof.KI.ReduceValue.lean ====
import proofs.«426471_j54382875902324_3_alg».proof.Proof.KI.Reduce
import proofs.«426471_j54382875902324_3_alg».proof.Proof.KI.Spec
import proofs.«426471_j54382875902324_3_alg».proof.Proof.Gen.KernelIdeal.Launch
import proofs.«426471_j54382875902324_3_alg».proof.Proof.Gen.KernelIdeal.Skeleton
import proofs.«426471_j54382875902324_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

-- the TensorCore's buffer contents when the region is entered, over the extended reals
variable (V : (c : Dev nD) → (b : Ref sig .tc) → Buf (Elt Ideal) ((c : Thread nD τ).loc b))

/-! # The value of region 0: the host's sum of the output's two rows is the masked entity sum

Region 0's output array `[2, 1, 1024]` holds one row per core. Row `r` after the run is the sum, over the eight
points `(r, 0) … (r, 7)` of the core's run, of the points' block sums; the block of point `(r, j)` is batch rows
`4·(8r + j) … 4·(8r + j) + 3` of the hidden states and of the mask. The host adds the two rows. Over the extended
reals addition commutes and associates, so the 2 × 8 × 4 rows summed in the grid's order are the 64 batch rows summed
in the specification's. -/

/-! ## The payloads at an index -/

/-- The reset row is zero everywhere. -/
theorem pay1_apply (i : S1x1x1024.Idx) : k0_pay1 (F := Ideal) i = 0 := by
  unfold k0_pay1; exact Ideal.ofBits_zero_f32

/-- The block's two reductions, over its rows then over its entities, at feature `j`: the double sum of the
    hidden states times the mask (the mask's unit axis broadcast along the features). -/
theorem blockSum_apply (x0 : FVec Ideal S4x512x1024 .f32) (x1 : FVec Ideal S4x512x1 .f32)
    (hφ hφ' : FKind.Formats .f32) (ha : (0x00000000#32 : BitVec 32) = FKind.add.neutral .f32 hφ)
    (ha' : (0x00000000#32 : BitVec 32) = FKind.add.neutral .f32 hφ') (j : S1024.Idx) :
    multiReduction .add [0] S1024
        (multiReduction .add [0] S512x1024 (mulf x0 (broadcastTo S4x512x1024 x1 broadcasts_S4x512x1_S4x512x1024))
          0x00000000#32 reduces_S4x512x1024_S512x1024 hφ ha)
        0x00000000#32 reduces_S512x1024_S1024 hφ' ha' j
      = ∑ e : Fin 512, ∑ b : Fin 4, x0 (ix3 b e (j 0)) * x1 (ix3 b e 0) := by
  refine (Ideal.multiReduction_add_single _ _ _ hφ' ha' j).trans ?_
  refine Finset.sum_congr rfl fun e _ => ?_
  refine (Ideal.multiReduction_add_single _ _ _ hφ ha _).trans ?_
  refine Finset.sum_congr rfl fun b _ => ?_
  rw [mulf_apply]
  congr 1
  · exact congrArg x0 (funext fun a => Fin.ext (match a with | ⟨0, _⟩ => rfl | ⟨1, _⟩ => rfl | ⟨2, _⟩ => rfl))
  · exact broadcastTo_apply x1 _ _ _ (fun a => match a with | ⟨0, _⟩ => rfl | ⟨1, _⟩ => rfl | ⟨2, _⟩ => rfl)

/-- THE BODY'S VALUE at feature `d`: what the output row held there plus the block's double sum. -/
theorem pay2_apply (x0 : Vec Ideal S4x512x1024 .f32) (x1 : Vec Ideal S4x512x1 .f32) (p : Vec Ideal S1x1x1024 .f32) (d : Fin 1024) :
    k0_pay2 (F := Ideal) x0 x1 p (ix3 0 0 d) = p (ix3 0 0 d) + ∑ e : Fin 512, ∑ b : Fin 4, x0 (ix3 b e d) * x1 (ix3 b e 0) := by
  unfold k0_pay2
  simp only [shapeCast_self]
  rw [addf_apply]
  congr 1
  refine (shapeCast_addUnit_apply ![1, 1024] _ _ _).trans ?_
  refine (shapeCast_addUnit_apply ![1024] _ _ _).trans ?_
  exact blockSum_apply x0 x1 _ _ _ _ _

/-! ## The blocks as rows of the whole arrays -/

/-- At point `t` the hidden states' window is at block `(t, 0, 0)`: core `t / 8`, step `t % 8`, block `8·(t / 8) + t % 8`. -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- The mask's likewise. -/
theorem index0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
/-- The output's window is at block `(t / 8, 0, 0)`: the core's row. -/
theorem index0_2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- Element `(b, e, d)` of the hidden states' block at point `t` is element `(4t + b, e, d)` of the array. -/
theorem iblk0_0_apply (c : Dev nD) (t : Fin cfg0.N) (b : Fin 4) (e : Fin 512) (d : Fin 1024) (k : S64x512x1024.Idx)
    (hk0 : (k 0).val = 4 * t.val + b.val) (hk1 : (k 1).val = e.val) (hk2 : (k 2).val = d.val) :
    (iblk0 V c 0 t : Vec Ideal S4x512x1024 .f32) (ix3 b e d) = (V c main_arg0 : S64x512x1024.Idx → Elt Ideal .f32) k := by
  obtain ⟨h0, h1, h2⟩ := index0_0 t
  unfold iblk0
  rw [View.read_apply]
  show V c main_arg0 _ = V c main_arg0 _
  congr 1
  funext a
  apply Fin.ext
  match a with
  | ⟨0, _⟩ => show win0_0.index t 0 * 4 + 1 * b.val = (k 0).val; rw [h0, hk0]; omega
  | ⟨1, _⟩ => show win0_0.index t 1 * 512 + 1 * e.val = (k 1).val; rw [h1, hk1]; omega
  | ⟨2, _⟩ => show win0_0.index t 2 * 1024 + 1 * d.val = (k 2).val; rw [h2, hk2]; omega

/-- Element `(b, e, 0)` of the mask's block at point `t` is element `(4t + b, e, 0)` of the array. -/
theorem iblk0_1_apply (c : Dev nD) (t : Fin cfg0.N) (b : Fin 4) (e : Fin 512) (k : S64x512x1.Idx)
    (hk0 : (k 0).val = 4 * t.val + b.val) (hk1 : (k 1).val = e.val) :
    (iblk0 V c 1 t : Vec Ideal S4x512x1 .f32) (ix3 b e 0) = (V c main_v8 : S64x512x1.Idx → Elt Ideal .f32) k := by
  obtain ⟨h0, h1, h2⟩ := index0_1 t
  have hk2 : (k 2).val = 0 := by have := (k 2).isLt; exact Nat.lt_one_iff.mp this
  unfold iblk0
  rw [View.read_apply]
  show V c main_v8 _ = V c main_v8 _
  congr 1
  funext a
  apply Fin.ext
  match a with
  | ⟨0, _⟩ => show win0_1.index t 0 * 4 + 1 * b.val = (k 0).val; rw [h0, hk0]; omega
  | ⟨1, _⟩ => show win0_1.index t 1 * 512 + 1 * e.val = (k 1).val; rw [h1, hk1]; omega
  | ⟨2, _⟩ => show win0_1.index t 2 * 1 + 1 * 0 = (k 2).val; rw [h2, hk2]

/-! ## The running sum in closed form -/

/-- The running sum read at two equal positions and indices. -/
theorem acc0_congr (c : Dev nD) {n n' : ℕ} (e : n = n') (h : n < cfg0.N) (h' : n' < cfg0.N)
    {y y' : S1x1x1024.Idx} (ey : y = y') : acc0 V c n h y = acc0 V c n' h' y' := by
  subst e; subst ey; rfl

/-- The hidden states' block at point `t`, at its literal shape. -/
def hid0 (c : Dev nD) (t : Fin cfg0.N) : FVec Ideal S4x512x1024 .f32 := iblk0 V c 0 t
/-- The mask's block at point `t`, at its literal shape. -/
def msk0 (c : Dev nD) (t : Fin cfg0.N) : FVec Ideal S4x512x1 .f32 := iblk0 V c 1 t

/-- Point `n`'s addend at feature `d`: the sum over the block's entities and rows of hidden state times mask
    (zero past the grid, where it is never read). -/
def blockSum (c : Dev nD) (n : ℕ) (d : Fin 1024) : EReal :=
  if h : n < cfg0.N then ∑ e : Fin 512, ∑ b : Fin 4, hid0 V c ⟨n, h⟩ (ix3 b e d) * msk0 V c ⟨n, h⟩ (ix3 b e 0) else 0

/-- After step `j` of core `q`'s run (position `8q + j`) the output row holds, at feature `d`, the sum of the
    addends of positions `8q … 8q + j`: by induction on the step, the first step adding to the zero row. -/
theorem acc0_apply (c : Dev nD) (d : Fin 1024) (q : ℕ) : ∀ (j : ℕ) (_ : j < 8) (h : 8 * q + j < cfg0.N),
    acc0 V c (8 * q + j) h (ix3 0 0 d) = ∑ s ∈ Finset.range (j + 1), blockSum V c (8 * q + s) d
  | 0, _, h => by
    have e := acc0_reset V c ⟨8 * q + 0, h⟩ (by dsimp only; omega)
    dsimp only at e
    rw [e, pay2_apply, pay1_apply, zero_add, Finset.sum_range_one, blockSum, dif_pos h]; rfl
  | j + 1, hj, h => by
    have e := acc0_step V c ⟨8 * q + (j + 1), h⟩ (by dsimp only; omega)
    dsimp only at e
    rw [e, pay2_apply, Finset.sum_range_succ _ (j + 1),
      ← acc0_apply c d q j (Nat.lt_of_succ_lt hj) (Nat.lt_of_succ_lt h)]
    congr 1
    unfold blockSum hid0 msk0
    rw [dif_pos h]

/-! ## The output array after the run -/

/-- Positions `8r + 7`, `r < 2`, are grid points. -/
theorem last_lt (r : ℕ) (hr : r < 2) : 8 * r + 7 < cfg0.N := by
  rw [show cfg0.N = 16 from N_0]; omega

/-- THE OUTPUT ARRAY after the run: row `r` is the running sum after the last step of core `r`'s run. -/
def outArr (c : Dev nD) : Buf (Elt Ideal) ((c : Thread nD τ).loc main_v9) :=
  fun i : S2x1x1024.Idx => acc0 V c (8 * (i 0).val + 7) (last_lt _ (i 0).isLt) (ix3 0 0 (i 2))

/-- A point that writes the output back writes its block of `outArr`: the point is `8r + 7`, its block is row `r`
    of the array, and what the body left there is the running sum at that position. -/
theorem flushed0_eq (c : Dev nD) (t : Fin cfg0.N) (hf : (cfg0.win 2).flush t = true) :
    (dat0 V c).flushed 2 t = ((cfg0.win 2).blk t).view.read (Elt Ideal) (outArr V c) := by
  have h7 : t.val % 8 = 7 := (flush0_2 t).mp hf
  obtain ⟨h0, h1, h2⟩ := index0_2 t
  show (cfg0.win 2).cut (grid0.coords t) ((dat0 V c).after 2 t) = _
  rw [after0_2]
  funext y
  rw [View.read_apply]
  show acc0 V c t.val t.isLt y = outArr V c _
  unfold outArr
  refine acc0_congr V c ?_ _ _ ?_
  · show t.val = 8 * (win0_2.index t 0 * 1 + 1 * (y 0).val) + 7
    have : (y 0).val = 0 := Nat.lt_one_iff.mp (y 0).isLt
    rw [h0, this]; omega
  · funext a
    apply Fin.ext
    match a with
    | ⟨0, _⟩ => exact Nat.lt_one_iff.mp (y 0).isLt
    | ⟨1, _⟩ => exact Nat.lt_one_iff.mp (y 1).isLt
    | ⟨2, _⟩ => show (y 2).val = win0_2.index t 2 * 1024 + 1 * (y 2).val; rw [h2]; omega

/-- Every element of the output array lies in the block of a point that writes back: row `r` in that of `8r + 7`. -/
theorem cover0 (i : S2x1x1024.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1024 := (i 2).isLt
  refine ⟨⟨8 * (i 0).val + 7, last_lt _ hi0⟩, (flush0_2 _).mpr (by dsimp only; omega), ?_⟩
  obtain ⟨h0, h1, h2⟩ := index0_2 ⟨8 * (i 0).val + 7, last_lt _ hi0⟩
  dsimp only at h0
  show i ∈ ((View.whole main_v9).slice (win0_2.rect ⟨8 * (i 0).val + 7, last_lt _ hi0⟩)).set
  rw [View.set_slice_whole, Rect.mem_set_unit]
  intro a
  match a with
  | ⟨0, _⟩ =>
    show win0_2.index ⟨8 * (i 0).val + 7, _⟩ 0 * 1 ≤ (i 0).val ∧ (i 0).val < win0_2.index ⟨8 * (i 0).val + 7, _⟩ 0 * 1 + 1
    rw [h0]; omega
  | ⟨1, _⟩ =>
    show win0_2.index ⟨8 * (i 0).val + 7, _⟩ 1 * 1 ≤ (i 1).val ∧ (i 1).val < win0_2.index ⟨8 * (i 0).val + 7, _⟩ 1 * 1 + 1
    rw [h1]; omega
  | ⟨2, _⟩ =>
    show win0_2.index ⟨8 * (i 0).val + 7, _⟩ 2 * 1024 ≤ (i 2).val ∧ (i 2).val < win0_2.index ⟨8 * (i 0).val + 7, _⟩ 2 * 1024 + 1024
    rw [h2]; omega

/-- So the output array ends holding `outArr`: its two rows are written back once each, at positions 7 and 15. -/
theorem final_arr (c : Dev nD) : (dat0 V c).arrAt 2 cfg0.N = outArr V c :=
  (dat0 V c).arrAt_eq_of_cover 2 (outArr V c) (flushed0_eq V c) cover0

/-! ## The host's sum of the two rows is the specification -/

/-- A sum over the first `n·m` naturals, taken by `m` consecutive blocks of `n`. -/
theorem sum_range_mul_eq {M : Type*} [AddCommMonoid M] (g : ℕ → M) (n : ℕ) :
    ∀ m : ℕ, ∑ i ∈ Finset.range (n * m), g i = ∑ q ∈ Finset.range m, ∑ p ∈ Finset.range n, g (n * q + p)
  | 0 => by simp
  | m + 1 => by rw [Nat.mul_succ, Finset.sum_range_add, sum_range_mul_eq g n m, Finset.sum_range_succ]

/-- The hidden states and the mask as the region finds them, at their literal shapes. -/
def xArr (c : Dev nD) : FVec Ideal S64x512x1024 .f32 := V c main_arg0
def mArr (c : Dev nD) : FVec Ideal S64x512x1 .f32 := V c main_v8

/-- Batch row `B`'s contribution at feature `d`: the sum over the entities of hidden state times mask (zero past
    the last row, where it is never read). -/
def rowSum (c : Dev nD) (d : Fin 1024) (B : ℕ) : EReal :=
  if h : B < 64 then ∑ e : Fin 512, xArr V c (ix3 ⟨B, h⟩ e d) * mArr V c (ix3 ⟨B, h⟩ e 0) else 0

/-- Point `n`'s addend is the contribution of batch rows `4n … 4n + 3`: the block's rows are those rows of the
    arrays, and the two finite sums commute. -/
theorem blockSum_eq (c : Dev nD) (d : Fin 1024) (n : ℕ) (hn : n < cfg0.N) :
    blockSum V c n d = ∑ b ∈ Finset.range 4, rowSum V c d (4 * n + b) := by
  have hN : cfg0.N = 16 := N_0
  rw [blockSum, dif_pos hn, Finset.sum_comm, ← Fin.sum_univ_eq_sum_range (fun b => rowSum V c d (4 * n + b)) 4]
  refine Finset.sum_congr rfl fun b _ => ?_
  have hb : 4 * n + b.val < 64 := by have := b.isLt; omega
  rw [rowSum, dif_pos hb]
  refine Finset.sum_congr rfl fun e _ => ?_
  exact congrArg₂ (· * ·)
    (iblk0_0_apply V c ⟨n, hn⟩ b e d (ix3 ⟨4 * n + b.val, hb⟩ e d) rfl rfl rfl)
    (iblk0_1_apply V c ⟨n, hn⟩ b e (ix3 ⟨4 * n + b.val, hb⟩ e 0) rfl rfl)

/-- The specification's sum over the 64 batch rows, as a sum over the first 64 naturals. -/
theorem spec_as_rows (c : Dev nD) (d : Fin 1024) :
    ∑ B : Fin 64, ∑ e : Fin 512, xArr V c (ix3 B e d) * mArr V c (ix3 B e 0) = ∑ B ∈ Finset.range 64, rowSum V c d B := by
  rw [← Fin.sum_univ_eq_sum_range (rowSum V c d) 64]
  refine Finset.sum_congr rfl fun B _ => ?_
  rw [rowSum, dif_pos B.isLt]

/-- The 64 batch rows are the 2 × 8 points' blocks of 4 rows, in order. -/
theorem rows_by_points (c : Dev nD) (d : Fin 1024) :
    ∑ B ∈ Finset.range 64, rowSum V c d B = ∑ r ∈ Finset.range 2, ∑ s ∈ Finset.range 8, blockSum V c (8 * r + s) d := by
  rw [show (64 : ℕ) = 4 * (8 * 2) from rfl, sum_range_mul_eq (rowSum V c d) 4 (8 * 2), sum_range_mul_eq _ 8 2]
  refine Finset.sum_congr rfl fun r hr => Finset.sum_congr rfl fun s hs => ?_
  have hr' := Finset.mem_range.mp hr
  have hs' := Finset.mem_range.mp hs
  exact (blockSum_eq V c d (8 * r + s) (by rw [show cfg0.N = 16 from N_0]; omega)).symm

/-- THE VALUE OF REGION 0. The output array after the run, its two core rows added by the host, is the masked
    entity sum of the whole arrays: row `r` holds the sum of the addends of core `r`'s eight points, the two rows'
    sixteen addends are the 64 batch rows' contributions four by four, and sums over the extended reals commute and
    associate. -/
theorem ent_sum_eq (c : Dev nD) :
    Host.reduceAdd (F := Ideal) ((dat0 V c).arrAt 2 cfg0.N) (constant (F := Ideal) S_ .f32 0x00000000#32)
        reducesTo_S2x1x1024_S1x1024_d0 h_S_ = entSpec (V c main_arg0) (V c main_v8) := by
  rw [final_arr]
  funext j
  obtain ⟨a, d, rfl⟩ : ∃ (a : Fin 1) (d : Fin 1024), j = ix2 a d := ⟨j 0, j 1, eq_ix2 j⟩
  obtain rfl : a = 0 := Subsingleton.elim _ _
  rw [entSpec_apply]
  have hred : S2x1x1024.Reduces [0] S1x1024 := by decide
  show Ideal.hostReduceAdd reducesTo_S2x1x1024_S1x1024_d0 (outArr V c) (Ideal.ofBits .f32 0x00000000#32) (ix2 0 d)
    = ∑ B : Fin 64, ∑ e : Fin 512, xArr V c (ix3 B e d) * mArr V c (ix3 B e 0)
  rw [Ideal.hostReduceAdd_single _ hred, Ideal.ofBits_zero_f32, zero_add, spec_as_rows, rows_by_points,
    ← Fin.sum_univ_eq_sum_range (fun r => ∑ s ∈ Finset.range 8, blockSum V c (8 * r + s) d) 2]
  refine Finset.sum_congr rfl fun k _ => ?_
  have hk : k.val < 2 := k.isLt
  rw [← acc0_apply V c d k.val 7 (by omega) (last_lt _ hk)]
  unfold outArr
  exact acc0_congr V c rfl _ _ (congrArg (ix3 0 0) (Fin.ext rfl))

end Cert.KernelIdeal.Hand

end
-- ==== Proof.KI.ProjValue.lean ====
/- The vocabulary projection's output array after its region, at the exact (extended-real) instance: the 25
   write-backs, the last one cut at the array's end, leave the specification's logits in the whole array. -/
import proofs.«426471_j54382875902324_3_alg».proof.Proof.KI.Proj
import proofs.«426471_j54382875902324_3_alg».proof.Proof.KI.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat Cfg Window)

-- the TensorCore's buffer contents when the region is entered, at the exact (extended-real) instance
variable (V : (c : Dev nD) → (b : Ref sig .tc) → Buf (Elt Ideal) ((c : Thread nD τ).loc b))

/-! ## The output array after the region

At every point the pipeline writes back the part of the output's buffer inside the array, which is the specification's
block there. Point `t`'s block holds columns `2048 t` to `2048 t + 2047`, the last one's cut at the array's end; column
`v` lies in the block of point `v / 2048`. So the 25 write-backs leave the specification's logits in the whole array. -/

/-- The output window at each of the 25 points: row block 0 with all 64 rows, column block `t` with 2048 columns but
    for the last, which has the 1105 left. -/
theorem blk2_3_cols : ∀ t : Fin grid2.N, win2_3.index t 0 = 0 ∧ win2_3.index t 1 = t.val
    ∧ win2_3.xsize (grid2.coords t) 0 = 64 ∧ win2_3.xsize (grid2.coords t) 1 = min 2048 (50257 - t.val * 2048) := by
  decide +kernel

/-- An entry of the logits array lies in point `t`'s block iff its column is one of the block's columns inside the array
    (every row is: the blocks span the rows). -/
theorem mem_blk2_3 (t : Fin cfg2.N) (i : S64x50257.Idx) :
    i ∈ (win2_3.blk t).view.set
      ↔ t.val * 2048 ≤ (i 1 : Nat) ∧ (i 1 : Nat) < t.val * 2048 + min 2048 (50257 - t.val * 2048) := by
  obtain ⟨h00, h01, hx0, hx1⟩ := blk2_3_cols t
  have hr : (i 0 : Nat) < 64 := (i 0).isLt
  show i ∈ ((View.whole main_v14).slice (win2_3.rect t)).set ↔ _
  rw [View.set_slice_whole, Rect.mem_set_unit]
  constructor
  · intro h
    have h1 : win2_3.index t 1 * 2048 ≤ (i 1 : Nat) ∧ (i 1 : Nat) < win2_3.index t 1 * 2048 + win2_3.xsize (grid2.coords t) 1 := h 1
    rw [h01, hx1] at h1
    exact h1
  · intro h a
    match a with
    | ⟨0, _⟩ =>
      show win2_3.index t 0 * 64 ≤ (i 0 : Nat) ∧ (i 0 : Nat) < win2_3.index t 0 * 64 + win2_3.xsize (grid2.coords t) 0
      rw [h00, hx0]; omega
    | ⟨1, _⟩ =>
      show win2_3.index t 1 * 2048 ≤ (i 1 : Nat) ∧ (i 1 : Nat) < win2_3.index t 1 * 2048 + win2_3.xsize (grid2.coords t) 1
      rw [h01, hx1]; exact h

/-- Every entry of the logits array is written back by some point: column `v` by point `v / 2048`. -/
theorem cover2_3 (i : S64x50257.Idx) :
    ∃ t : Fin cfg2.N, (cfg2.win 3).flush t = true ∧ i ∈ ((cfg2.win 3).blk t).view.set := by
  have hi : (i 1 : Nat) < 50257 := (i 1).isLt
  have hN : cfg2.N = 25 := N_2
  refine ⟨⟨(i 1 : Nat) / 2048, by rw [hN]; omega⟩, flush2_3 _, ?_⟩
  refine (mem_blk2_3 ⟨(i 1 : Nat) / 2048, by rw [hN]; omega⟩ i).mpr ?_
  show (i 1 : Nat) / 2048 * 2048 ≤ (i 1 : Nat)
    ∧ (i 1 : Nat) < (i 1 : Nat) / 2048 * 2048 + min 2048 (50257 - (i 1 : Nat) / 2048 * 2048)
  omega

/-- The output array after the region is the specification's projection of the region's entry arrays. -/
theorem logits_eq (c : Dev nD) :
    (dat2 V c).arrAt 3 cfg2.N = logitsSpec (V c main_v13) (V c main_arg10) (V c main_v12) :=
  (dat2 V c).arrAt_eq_of_cover 3 (logits2 V c)
    (fun t _ => by
      show win2_3.cut (grid2.coords t) ((dat2 V c).after 3 t) = _
      rw [after2_3]; exact cut_lblk2 V c t)
    cover2_3

end Cert.KernelIdeal.Hand

end
-- ==== Proof.KI.Value.lean ====
import proofs.«426471_j54382875902324_3_alg».proof.Proof.KI.Run
import proofs.«426471_j54382875902324_3_alg».proof.Proof.KI.ReduceValue
import proofs.«426471_j54382875902324_3_alg».proof.Proof.KI.ProjValue
import proofs.«426471_j54382875902324_3_alg».proof.Proof.KI.Spec
import Idealize.ShloMosaic.Lib.StableHlo.Run
import proofs.«426471_j54382875902324_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! # What the kernel's program returns: the softmax of the spec's logits

Read back through the boundaries: the result buffer is the closing softmax chain of the projection region's output; that
output is the spec's projection of the region's entry arrays; its left operand is the feed-forward region's output (rounded
to bf16 by a host cast, the identity here), which is the spec's feed-forward stage of ITS entry arrays; and the entity-sum
row among those is the host's sum over the two core rows of the masked-sum region's output, the spec's masked entity sum. -/

/-- An argument array is never written: every boundary's valuation has it at its launch contents. -/
theorem E0_arg0 (c : Dev nD) : E0 m c main_arg0 = m ((c : Thread nD τ).loc main_arg0) := Gen.V1_of m c main_arg0 (by decide)
theorem E1_arg4 (c : Dev nD) : E1 m c main_arg4 = m ((c : Thread nD τ).loc main_arg4) :=
  (Gen.V3_of m (outsA m) c main_arg4 (by decide)).trans ((Gen.V2_of m (outsA m) c main_arg4 (by decide)).trans (Gen.V1_of m c main_arg4 (by decide)))
theorem E1_arg5 (c : Dev nD) : E1 m c main_arg5 = m ((c : Thread nD τ).loc main_arg5) :=
  (Gen.V3_of m (outsA m) c main_arg5 (by decide)).trans ((Gen.V2_of m (outsA m) c main_arg5 (by decide)).trans (Gen.V1_of m c main_arg5 (by decide)))
theorem E1_arg6 (c : Dev nD) : E1 m c main_arg6 = m ((c : Thread nD τ).loc main_arg6) :=
  (Gen.V3_of m (outsA m) c main_arg6 (by decide)).trans ((Gen.V2_of m (outsA m) c main_arg6 (by decide)).trans (Gen.V1_of m c main_arg6 (by decide)))
theorem E1_arg7 (c : Dev nD) : E1 m c main_arg7 = m ((c : Thread nD τ).loc main_arg7) :=
  (Gen.V3_of m (outsA m) c main_arg7 (by decide)).trans ((Gen.V2_of m (outsA m) c main_arg7 (by decide)).trans (Gen.V1_of m c main_arg7 (by decide)))
theorem E1_arg8 (c : Dev nD) : E1 m c main_arg8 = m ((c : Thread nD τ).loc main_arg8) :=
  (Gen.V3_of m (outsA m) c main_arg8 (by decide)).trans ((Gen.V2_of m (outsA m) c main_arg8 (by decide)).trans (Gen.V1_of m c main_arg8 (by decide)))
theorem E1_arg9 (c : Dev nD) : E1 m c main_arg9 = m ((c : Thread nD τ).loc main_arg9) :=
  (Gen.V3_of m (outsA m) c main_arg9 (by decide)).trans ((Gen.V2_of m (outsA m) c main_arg9 (by decide)).trans (Gen.V1_of m c main_arg9 (by decide)))
theorem E2_arg10 (c : Dev nD) : E2 m c main_arg10 = m ((c : Thread nD τ).loc main_arg10) :=
  (Gen.V5_of m (outsB m) c main_arg10 (by decide)).trans ((Gen.V4_of m (outsB m) c main_arg10 (by decide)).trans
    ((Gen.V3_of m (outsB m) c main_arg10 (by decide)).trans ((Gen.V2_of m (outsB m) c main_arg10 (by decide)).trans (Gen.V1_of m c main_arg10 (by decide)))))
/-- The question-embedding rows reach the feed-forward region as the first host stretch left them. -/
theorem E1_v6 (c : Dev nD) : E1 m c main_v6 = Gen.V1 m c main_v6 :=
  (Gen.V3_of m (outsA m) c main_v6 (by decide)).trans (Gen.V2_of m (outsA m) c main_v6 (by decide))

/-- The entity-sum row the feed-forward region reads: the host's sum over the two core rows of the masked-sum region's
    output, which is the spec's masked entity sum of the entity tensor and the mask. -/
theorem E1_v10 (c : Dev nD) : E1 m c main_v10 = entSpec (m ((c : Thread nD τ).loc main_arg0)) (Gen.V1 m c main_v8) := by
  have h9 : Gen.V2 m (outsA m) c (Proc.devRef .tc main_v9) = (dat0 (E0 m) c).arrAt 2 cfg0.N :=
    (Function.update_self (Proc.devRef .tc main_v9 : DevRef τ sig) (outsA m 2 main_v9 c) (Gen.V1 m c)).trans (outsA_v9 m 2 c)
  have hs : E1 m c main_v10 = Host.reduceAdd (F := Ideal) (Gen.V2 m (outsA m) c (Proc.devRef .tc main_v9))
      (constant (F := Ideal) S_ .f32 0x00000000#32) reducesTo_S2x1x1024_S1x1024_d0 h_S_ := by
    show StableHlo.after hostOps1 (Gen.V2 m (outsA m) c) (Proc.devRef .tc main_v10) = _
    after_results <;> rfl
  rw [hs, h9, ent_sum_eq (E0 m) c, E0_arg0]

/-- The feed-forward region's output, as the projection region's host cast finds it. -/
theorem V4_v11 (c : Dev nD) : Gen.V4 m (outsB m) c (Proc.devRef .tc main_v11)
    = ffnSpec (Gen.V1 m c main_v6) (m ((c : Thread nD τ).loc main_arg4)) (m ((c : Thread nD τ).loc main_arg5)) (m ((c : Thread nD τ).loc main_arg6))
        (m ((c : Thread nD τ).loc main_arg7)) (m ((c : Thread nD τ).loc main_arg8))
        (entSpec (m ((c : Thread nD τ).loc main_arg0)) (Gen.V1 m c main_v8)) (m ((c : Thread nD τ).loc main_arg9)) := by
  have h11 : Gen.V4 m (outsB m) c (Proc.devRef .tc main_v11) = (dat1 (E1 m) c).arrAt 8 cfg1.N :=
    (Function.update_self (Proc.devRef .tc main_v11 : DevRef τ sig) (outsB m 4 main_v11 c) (Gen.V3 m (outsB m) c)).trans (outsB_v11 m c)
  rw [h11, ffn_out (E1 m) c, E1_v6, E1_arg4, E1_arg5, E1_arg6, E1_arg7, E1_arg8, E1_arg9, E1_v10]

/-- THE KERNEL'S RESULT: the closing softmax of the spec's logits of the launch arrays (the question-embedding rows, the
    mask with its unit axis and the bias as a row kept as the host stretches made them). -/
theorem kernel_result (c : Dev nD) : Gen.V7 m (outs m) c (Proc.devRef .tc main_v25)
    = softmaxTail (logitsSpec
        (truncf .bf16 (ffnSpec (Gen.V1 m c main_v6) (m ((c : Thread nD τ).loc main_arg4)) (m ((c : Thread nD τ).loc main_arg5)) (m ((c : Thread nD τ).loc main_arg6))
          (m ((c : Thread nD τ).loc main_arg7)) (m ((c : Thread nD τ).loc main_arg8))
          (entSpec (m ((c : Thread nD τ).loc main_arg0)) (Gen.V1 m c main_v8)) (m ((c : Thread nD τ).loc main_arg9))) bitsLt_bf16_f32)
        (m ((c : Thread nD τ).loc main_arg10)) (E2 m c main_v12)) := by
  have h14 : Gen.V6 m (outs m) c (Proc.devRef .tc main_v14) = (dat2 (E2 m) c).arrAt 3 cfg2.N :=
    (Function.update_self (Proc.devRef .tc main_v14 : DevRef τ sig) (outs m 6 main_v14 c) (Gen.V5 m (outs m) c)).trans (outs_v14 m c)
  have h13 : (E2 m c main_v13 : FVec Ideal S64x1024 .bf16)
      = truncf (F := Ideal) .bf16 (Gen.V4 m (outsB m) c (Proc.devRef .tc main_v11) : FVec Ideal S64x1024 .f32) bitsLt_bf16_f32 := by
    show StableHlo.after hostOps2 (Gen.V4 m (outsB m) c) (Proc.devRef .tc main_v13) = _
    after_results <;> rfl
  have ht : Gen.V7 m (outs m) c (Proc.devRef .tc main_v25) = softmaxTail (Gen.V6 m (outs m) c (Proc.devRef .tc main_v14)) := by
    show StableHlo.after hostOps3 (Gen.V6 m (outs m) c) (Proc.devRef .tc main_v25) = _
    after_results <;> rfl
  rw [ht, h14, logits_eq (E2 m) c, h13, V4_v11, E2_arg10]

end Cert.KernelIdeal.Hand

end
-- ==== Proof.RefSide.lean ====
/- The reference program's run and its stages read at an index: the two generated modules this proof builds on,
   gathered under one import. -/
import proofs.«426471_j54382875902324_3_alg».proof.Proof.Gen.ReferenceIdeal.Run
import proofs.«426471_j54382875902324_3_alg».proof.Proof.Gen.ReferenceIdeal.Read
-- ==== Proof.RefValue.lean ====
/- The reference program's result as the specification's functions of the launch arrays, over the extended reals:
   the closing softmax of the vocabulary projection of the feed-forward / gate stage, the latter at the gathered
   question-embedding rows and the masked entity sum. Four stage equalities over arbitrary arrays — (1) the
   feed-forward chain of plain contractions, bias rows and the rectifier is the kernel's arithmetic on whole arrays;
   (2) the sum over the batch and entity axes of `x · mask` is the double sum `Σ_b Σ_e x[b,e,d] · mask[b,e,0]`;
   (3) the contraction with `Ws` plus the bias row is `Σ_k z[r,k] · Ws[k,v] + bs[0,v]`; (4) the last operations are the
   softmax chain itself — and their composition along the reference's stages. The gather of the embedding table and
   the softmax's reductions are carried as whole terms and never opened. -/
import proofs.«426471_j54382875902324_3_alg».proof.Proof.RefSide
import proofs.«426471_j54382875902324_3_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## Joining the two programs' spellings of one operation

The kernel's arithmetic is written with vector operations (a contraction into a zero accumulator, shape casts and
broadcasts of a row, a splat), the reference's with host operations (a plain contraction, `broadcast_in_dim`). Over the
extended reals each pair is the same function; the lemmas below say so on whole arrays, so that the stage equalities
after them are rewrites of one chain into the other. -/

section Layout
variable {α : Type}

/-- A vector `[b]` viewed as the one-row matrix `[1, b]`: the shape cast and the `broadcast_in_dim` along axis 1 read
    the same entry, the vector's at the column. -/
theorem shapeCast_row_eq_broadcastInDim {b : ℕ} (hb : b ≠ 1) (x : (⟨1, ![b]⟩ : Shape).Idx → α)
    (hsc : (⟨1, ![b]⟩ : Shape).ShapeCasts ⟨2, ![1, b]⟩)
    (g : (⟨1, ![b]⟩ : Shape).BroadcastsInDim ⟨2, ![1, b]⟩ (![1] : Fin 1 → Fin 2)) :
    shapeCast ⟨2, ![1, b]⟩ x hsc = broadcastInDim ⟨2, ![1, b]⟩ (![1] : Fin 1 → Fin 2) g x := by
  funext j
  obtain ⟨u, i, rfl⟩ : ∃ (u : Fin 1) (i : Fin b), j = ix2 u i := ⟨j 0, j 1, eq_ix2 j⟩
  rw [shapeCast_a_1a_apply]
  refine (broadcastInDim_apply _ g x _ (ix1 i) fun a => ?_).symm
  match a with
  | ⟨0, _⟩ => show i.val = if b = 1 then 0 else i.val; rw [if_neg hb]

/-- One row `[1, b]` repeated over `a` rows: the vector broadcast and the `broadcast_in_dim` along both axes read the
    same entry, the row's at the column. -/
theorem broadcastTo_rows_eq_broadcastInDim {a b : ℕ} (hb : b ≠ 1) (y : (⟨2, ![1, b]⟩ : Shape).Idx → α)
    (hbc : (⟨2, ![1, b]⟩ : Shape).Broadcasts ⟨2, ![a, b]⟩)
    (g : (⟨2, ![1, b]⟩ : Shape).BroadcastsInDim ⟨2, ![a, b]⟩ (![0, 1] : Fin 2 → Fin 2)) :
    broadcastTo ⟨2, ![a, b]⟩ y hbc = broadcastInDim ⟨2, ![a, b]⟩ (![0, 1] : Fin 2 → Fin 2) g y := by
  funext j
  obtain ⟨p, i, rfl⟩ : ∃ (p : Fin a) (i : Fin b), j = ix2 p i := ⟨j 0, j 1, eq_ix2 j⟩
  rw [broadcastTo_1b_ab_apply]
  refine (broadcastInDim_apply _ g y _ (ix2 (0 : Fin 1) i) fun ax => ?_).symm
  match ax with
  | ⟨0, _⟩ => show 0 = if (1 : ℕ) = 1 then 0 else p.val; rw [if_pos rfl]
  | ⟨1, _⟩ => show i.val = if b = 1 then 0 else i.val; rw [if_neg hb]

end Layout

/-- A contraction accumulated into the zero splat is the plain contraction: both are the sum over the contraction
    index of the operands' products, whatever formats the operands are labelled with and whatever precision is asked. -/
theorem matmul_zero_eq_dotGeneral {sl sr so : Shape} {φ₁ φ₂ : FTy} (ψ₁ ψ₂ : FTy) (d : DotDims sl sr so)
    (p p' : Option ContractPrecision) (l : FVec Ideal sl φ₁) (r : FVec Ideal sr φ₂) :
    matmul (F := Ideal) d p l r (constant (F := Ideal) so .f32 0x00000000#32)
      = Host.dotGeneral (F := Ideal) (φ₁ := ψ₁) (φ₂ := ψ₂) d p' l r := by
  funext j
  simp only [matmul, Host.dotGeneral]
  rw [Ideal.matmul_constant_zero_apply, Ideal.dotGeneral_apply]

/-- Narrowing a vector's format is the identity over the extended reals. -/
theorem truncf_id {s : Shape} {φ : FTy} (ψ : FTy) (a : FVec Ideal s φ) (h : ψ.bits < φ.bits) :
    (truncf ψ a h : FVec Ideal s ψ) = a := rfl

/-- The two programs' dimension numbers of each contraction are the same data. -/
theorem dotK_1024_2048 : Cert.KernelIdeal.dot_S64x1024_S1024x2048_S64x2048_1_0_0_1_n_n = dot_S64x1024_S1024x2048_S64x2048_1_0_0_1_n_n := rfl
theorem dotK_2048_1024 : Cert.KernelIdeal.dot_S64x2048_S2048x1024_S64x1024_1_0_0_1_n_n = dot_S64x2048_S2048x1024_S64x1024_1_0_0_1_n_n := rfl
theorem dotK_1024_1024 : Cert.KernelIdeal.dot_S64x1024_S1024x1024_S64x1024_1_0_0_1_n_n = dot_S64x1024_S1024x1024_S64x1024_1_0_0_1_n_n := rfl

/-- The zero the rectifier compares with: the splat of the scalar zero and the broadcast of the rank-0 zero constant. -/
theorem zeroSplat_eq :
    (broadcast S64x2048 (Scalar.ofBits (F := Ideal) .f32 0x00000000#32) : FVec Ideal S64x2048 .f32)
      = broadcastInDim S64x2048 ![] bcast_S_S64x2048 (constant (F := Ideal) S_ .f32 0x00000000#32) := by
  funext j
  exact (broadcastInDim_apply _ bcast_S_S64x2048 (constant (F := Ideal) S_ .f32 0x00000000#32) j (fun a => a.elim0) (fun a => a.elim0)).symm

/-! ## (1) The feed-forward / gate stage -/

/-- The reference's feed-forward / gate chain on whole arrays: `q = max(eq0·W1 + b1, 0)·W2 + b2`, then
    `q + ((q·A) ∘ ent)·H`, with `ent` one row repeated over the 64 rows. -/
def ffnRef (eq0 : FVec Ideal S64x1024 .f32) (W1 : FVec Ideal S1024x2048 .f32) (b1 : FVec Ideal S2048 .f32)
    (W2 : FVec Ideal S2048x1024 .f32) (b2 : FVec Ideal S1024 .f32) (A : FVec Ideal S1024x1024 .f32)
    (ent : FVec Ideal S1x1024 .f32) (H : FVec Ideal S1024x1024 .f32) : FVec Ideal S64x1024 .f32 :=
  addf
    (addf (Host.dotGeneral dot_S64x2048_S2048x1024_S64x1024_1_0_0_1_n_n none
        (maximumf (addf (Host.dotGeneral dot_S64x1024_S1024x2048_S64x2048_1_0_0_1_n_n none eq0 W1)
            (broadcastInDim S64x2048 ![0, 1] bcast_S1x2048_S64x2048_0_1 (broadcastInDim S1x2048 ![1] bcast_S2048_S1x2048_1 b1)))
          (broadcastInDim S64x2048 ![] bcast_S_S64x2048 (constant (F := Ideal) S_ .f32 0x00000000#32))) W2)
      (broadcastInDim S64x1024 ![0, 1] bcast_S1x1024_S64x1024_0_1 (broadcastInDim S1x1024 ![1] bcast_S1024_S1x1024_1 b2)))
    (Host.dotGeneral dot_S64x1024_S1024x1024_S64x1024_1_0_0_1_n_n none
      (mulf (Host.dotGeneral dot_S64x1024_S1024x1024_S64x1024_1_0_0_1_n_n none
          (addf (Host.dotGeneral dot_S64x2048_S2048x1024_S64x1024_1_0_0_1_n_n none
              (maximumf (addf (Host.dotGeneral dot_S64x1024_S1024x2048_S64x2048_1_0_0_1_n_n none eq0 W1)
                  (broadcastInDim S64x2048 ![0, 1] bcast_S1x2048_S64x2048_0_1 (broadcastInDim S1x2048 ![1] bcast_S2048_S1x2048_1 b1)))
                (broadcastInDim S64x2048 ![] bcast_S_S64x2048 (constant (F := Ideal) S_ .f32 0x00000000#32))) W2)
            (broadcastInDim S64x1024 ![0, 1] bcast_S1x1024_S64x1024_0_1 (broadcastInDim S1x1024 ![1] bcast_S1024_S1x1024_1 b2))) A)
        (broadcastInDim S64x1024 ![0, 1] bcast_S1x1024_S64x1024_0_1 ent)) H)

/-- The kernel's feed-forward arithmetic is the reference's chain: each contraction into the zero splat is the plain
    contraction of the same operands (format narrowings are identities), each bias row and the entity row are the same
    row repeated, the rectifier's zero is the same zero. -/
theorem ffnRef_eq_ffnSpec (eq0 : FVec Ideal S64x1024 .f32) (W1 : FVec Ideal S1024x2048 .f32) (b1 : FVec Ideal S2048 .f32)
    (W2 : FVec Ideal S2048x1024 .f32) (b2 : FVec Ideal S1024 .f32) (A : FVec Ideal S1024x1024 .f32)
    (ent : FVec Ideal S1x1024 .f32) (H : FVec Ideal S1024x1024 .f32) :
    ffnRef eq0 W1 b1 W2 b2 A ent H = Cert.KernelIdeal.Hand.ffnSpec eq0 W1 b1 W2 b2 A ent H := by
  have hb1 : broadcastTo Cert.KernelIdeal.S64x2048 (shapeCast Cert.KernelIdeal.S1x2048 b1 Cert.KernelIdeal.Gen.shapeCasts_S2048_S1x2048) Cert.KernelIdeal.Gen.broadcasts_S1x2048_S64x2048
      = broadcastInDim S64x2048 ![0, 1] bcast_S1x2048_S64x2048_0_1 (broadcastInDim S1x2048 ![1] bcast_S2048_S1x2048_1 b1) := by
    rw [shapeCast_row_eq_broadcastInDim (by decide) b1 _ bcast_S2048_S1x2048_1]
    exact broadcastTo_rows_eq_broadcastInDim (by decide) _ _ bcast_S1x2048_S64x2048_0_1
  have hb2 : broadcastTo Cert.KernelIdeal.S64x1024 (shapeCast Cert.KernelIdeal.S1x1024 b2 Cert.KernelIdeal.Gen.shapeCasts_S1024_S1x1024) Cert.KernelIdeal.Gen.broadcasts_S1x1024_S64x1024
      = broadcastInDim S64x1024 ![0, 1] bcast_S1x1024_S64x1024_0_1 (broadcastInDim S1x1024 ![1] bcast_S1024_S1x1024_1 b2) := by
    rw [shapeCast_row_eq_broadcastInDim (by decide) b2 _ bcast_S1024_S1x1024_1]
    exact broadcastTo_rows_eq_broadcastInDim (by decide) _ _ bcast_S1x1024_S64x1024_0_1
  have hent : broadcastTo Cert.KernelIdeal.S64x1024 ent Cert.KernelIdeal.Gen.broadcasts_S1x1024_S64x1024
      = broadcastInDim S64x1024 ![0, 1] bcast_S1x1024_S64x1024_0_1 ent :=
    broadcastTo_rows_eq_broadcastInDim (by decide) _ _ bcast_S1x1024_S64x1024_0_1
  show _ = Cert.KernelIdeal.Gen.k1_pay1 (F := Ideal) eq0 W1 b1 W2 b2 A ent H
  unfold Cert.KernelIdeal.Gen.k1_pay1 ffnRef
  simp only [shapeCast_self, truncf_id, hb1, hb2, hent, zeroSplat_eq, dotK_1024_2048, dotK_2048_1024, dotK_1024_1024,
    matmul_zero_eq_dotGeneral .f32 .f32 _ _ none]

/-! ## (2) The entity sum -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reduction over the batch and entity axes keeps the feature axis: a source index lands on feature `d` exactly
    when its last coordinate is `d`. -/
theorem drop01_eq_iff (i : S64x512x1024.Idx) (d : Fin 1024) :
    reducesTo_S64x512x1024_S1024_d0_1.drop i = ix1 d ↔ i 2 = d := by
  have hv : ((reducesTo_S64x512x1024_S1024_d0_1.drop i) 0 : ℕ) = (i 2 : ℕ) :=
    Shape.ReducesTo.drop_apply_val_of_eq reducesTo_S64x512x1024_S1024_d0_1 i 0 2
  constructor
  · intro h
    exact Fin.ext (hv.symm.trans (congrArg (fun k : S1024.Idx => (k 0 : ℕ)) h))
  · intro h
    funext a
    match a with
    | ⟨0, _⟩ => exact Fin.ext (hv.trans (congrArg Fin.val h))

/-- The reference's masked entity sum, as a row: the sum over the batch and entity axes of `x · mask` (the mask's
    trailing unit axis repeated over the features) at feature `d` is `Σ_b Σ_e x[b,e,d] · mask[b,e,0]`: the filtered sum
    over the source indices with last coordinate `d`, re-indexed by the two summed coordinates. -/
theorem entRow_eq_entSpec (x : FVec Ideal S64x512x1024 .f32) (mk : FVec Ideal S64x512x1 .f32) :
    broadcastInDim S1x1024 ![1] bcast_S1024_S1x1024_1
        (Host.reduceAdd (F := Ideal) (mulf x (broadcastInDim S64x512x1024 ![0, 1, 2] bcast_S64x512x1_S64x512x1024_0_1_2 mk))
          (constant (F := Ideal) S_ .f32 0x00000000#32) reducesTo_S64x512x1024_S1024_d0_1 h_S_)
      = Cert.KernelIdeal.Hand.entSpec x mk := by
  funext j
  obtain ⟨u, d, rfl⟩ : ∃ (u : Fin 1) (d : Fin 1024), j = ix2 u d := ⟨j 0, j 1, eq_ix2 j⟩
  rw [broadcastInDim_apply _ bcast_S1024_S1x1024_1 _ _ (ix1 d) (fun a => match a with
    | ⟨0, _⟩ => by show d.val = if (1024 : ℕ) = 1 then 0 else d.val; rw [if_neg (by decide)])]
  show Ideal.hostReduceAdd reducesTo_S64x512x1024_S1024_d0_1 _ (Ideal.ofBits .f32 0x00000000#32) (ix1 d)
      = ∑ b : Fin 64, ∑ e : Fin 512, x (ix3 b e d) * mk (ix3 b e 0)
  unfold Ideal.hostReduceAdd
  rw [Ideal.ofBits_zero_f32, zero_add, Finset.sum_filter, sum_idx3]
  refine Finset.sum_congr rfl fun b _ => Finset.sum_congr rfl fun e _ => ?_
  rw [Finset.sum_eq_single d]
  · rw [if_pos ((drop01_eq_iff (ix3 b e d) d).2 rfl)]
    show x (ix3 b e d) * broadcastInDim S64x512x1024 ![0, 1, 2] bcast_S64x512x1_S64x512x1024_0_1_2 mk (ix3 b e d) = _
    rw [broadcastInDim_apply _ bcast_S64x512x1_S64x512x1024_0_1_2 mk _ (ix3 b e (0 : Fin 1)) (fun a => match a with
      | ⟨0, _⟩ => by show b.val = if (64 : ℕ) = 1 then 0 else b.val; rw [if_neg (by decide)]
      | ⟨1, _⟩ => by show e.val = if (512 : ℕ) = 1 then 0 else e.val; rw [if_neg (by decide)]
      | ⟨2, _⟩ => by show 0 = if (1 : ℕ) = 1 then 0 else d.val; rw [if_pos rfl])]
  · intro c _ hc
    exact if_neg fun h => hc ((drop01_eq_iff (ix3 b e c) d).1 h)
  · intro h
    exact absurd (Finset.mem_univ d) h

/-! ## (3) The vocabulary projection -/

/-- The reference's projection: the contraction of `z` with `Ws` over the 1024 features plus the bias row repeated over
    the 64 rows is, at `(r, v)`, `Σ_k z[r,k] · Ws[k,v] + bs[0,v]`: the contraction's one-axis index is the feature `k`. -/
theorem proj_eq_logitsSpec (z : FVec Ideal S64x1024 .f32) (Ws : FVec Ideal S1024x50257 .f32) (bsr : FVec Ideal S1x50257 .f32) :
    addf (Host.dotGeneral dot_S64x1024_S1024x50257_S64x50257_1_0_0_1_n_n none z Ws)
        (broadcastInDim S64x50257 ![0, 1] bcast_S1x50257_S64x50257_0_1 bsr)
      = Cert.KernelIdeal.Hand.logitsSpec z Ws bsr := by
  funext i
  obtain ⟨r, v, rfl⟩ : ∃ (r : Fin 64) (v : Fin 50257), i = ix2 r v := ⟨i 0, i 1, eq_ix2 i⟩
  show FloatOps.dotGeneral dot_S64x1024_S1024x50257_S64x50257_1_0_0_1_n_n none .single z Ws (ix2 r v)
        + broadcastInDim S64x50257 ![0, 1] bcast_S1x50257_S64x50257_0_1 bsr (ix2 r v)
      = (∑ k : Fin 1024, z (ix2 r k) * Ws (ix2 k v)) + bsr (ix2 (0 : Fin 1) v)
  rw [Ideal.dotGeneral_apply, ← Equiv.sum_comp (contrEquiv1 dot_S64x1024_S1024x50257_S64x50257_1_0_0_1_n_n 1024 rfl rfl).symm,
    broadcastInDim_apply _ bcast_S1x50257_S64x50257_0_1 bsr _ (ix2 (0 : Fin 1) v) (fun a => match a with
      | ⟨0, _⟩ => by show 0 = if (1 : ℕ) = 1 then 0 else r.val; rw [if_pos rfl]
      | ⟨1, _⟩ => by show v.val = if (50257 : ℕ) = 1 then 0 else v.val; rw [if_neg (by decide)])]
  refine congrArg (· + bsr (ix2 (0 : Fin 1) v)) (Finset.sum_congr rfl fun k _ => ?_)
  have hk := contrEquiv1_symm_val dot_S64x1024_S1024x50257_S64x50257_1_0_0_1_n_n 1024 rfl rfl k
  have el : dot_S64x1024_S1024x50257_S64x50257_1_0_0_1_n_n.lhsIdx (ix2 r v)
      ((contrEquiv1 dot_S64x1024_S1024x50257_S64x50257_1_0_0_1_n_n 1024 rfl rfl).symm k) = ix2 r k :=
    funext fun a => Fin.ext (by
      match a with
      | ⟨0, _⟩ => exact lhs_main_v27_0 _ _
      | ⟨1, _⟩ => exact (lhs_main_v27_1 _ _).trans hk)
  have er : dot_S64x1024_S1024x50257_S64x50257_1_0_0_1_n_n.rhsIdx (ix2 r v)
      ((contrEquiv1 dot_S64x1024_S1024x50257_S64x50257_1_0_0_1_n_n 1024 rfl rfl).symm k) = ix2 k v :=
    funext fun a => Fin.ext (by
      match a with
      | ⟨0, _⟩ => exact (rhs_main_v27_0 _ _).trans hk
      | ⟨1, _⟩ => exact rhs_main_v27_1 _ _)
  rw [el, er]

/-! ## (4) The softmax tail -/

/-- The reference's last eleven operations (row maximum, shift, exponential, row sum, quotient) are the closing softmax
    applied to its logits: the same chain of host operations, term for term. -/
theorem val_main_v41_eq_softmaxTail (x0 : (⟨S64x512x1024, .f32⟩ : BufTy).Contents (Elt Ideal)) (x1 : (⟨S64, .i32⟩ : BufTy).Contents (Elt Ideal)) (x2 : (⟨S64x512, .i1⟩ : BufTy).Contents (Elt Ideal))
    (x3 : (⟨S50257x1024, .f32⟩ : BufTy).Contents (Elt Ideal)) (x4 : (⟨S1024x2048, .f32⟩ : BufTy).Contents (Elt Ideal)) (x5 : (⟨S2048, .f32⟩ : BufTy).Contents (Elt Ideal))
    (x6 : (⟨S2048x1024, .f32⟩ : BufTy).Contents (Elt Ideal)) (x7 : (⟨S1024, .f32⟩ : BufTy).Contents (Elt Ideal)) (x8 x9 : (⟨S1024x1024, .f32⟩ : BufTy).Contents (Elt Ideal))
    (x10 : (⟨S1024x50257, .f32⟩ : BufTy).Contents (Elt Ideal)) (x11 : (⟨S50257, .f32⟩ : BufTy).Contents (Elt Ideal)) :
    val_main_v41 (F := Ideal) x0 x1 x2 x3 x4 x5 x6 x7 x8 x9 x10 x11
      = Cert.KernelIdeal.Hand.softmaxTail (val_main_v30 (F := Ideal) x0 x1 x2 x3 x4 x5 x6 x7 x8 x9 x10 x11) := by
  unfold val_main_v41 val_main_v40 val_main_v39 val_main_v38 val_main_v37 val_main_v36 val_main_v35 val_main_v34 val_main_v33
    val_main_v32 val_main_v31 val_main_cst_1 val_main_cst_2 val_main_cst_3 Cert.KernelIdeal.Hand.softmaxTail
  generalize val_main_v30 (F := Ideal) x0 x1 x2 x3 x4 x5 x6 x7 x8 x9 x10 x11 = y
  with_reducible rfl

/-! ## The stages folded, and the result -/

/-- The reference's operations 7 to 26 are the feed-forward chain at the gathered rows and the entity-sum row. -/
theorem val_main_v26_eq_ffnRef (x0 : (⟨S64x512x1024, .f32⟩ : BufTy).Contents (Elt Ideal)) (x1 : (⟨S64, .i32⟩ : BufTy).Contents (Elt Ideal)) (x2 : (⟨S64x512, .i1⟩ : BufTy).Contents (Elt Ideal))
    (x3 : (⟨S50257x1024, .f32⟩ : BufTy).Contents (Elt Ideal)) (x4 : (⟨S1024x2048, .f32⟩ : BufTy).Contents (Elt Ideal)) (x5 : (⟨S2048, .f32⟩ : BufTy).Contents (Elt Ideal))
    (x6 : (⟨S2048x1024, .f32⟩ : BufTy).Contents (Elt Ideal)) (x7 : (⟨S1024, .f32⟩ : BufTy).Contents (Elt Ideal)) (x8 x9 : (⟨S1024x1024, .f32⟩ : BufTy).Contents (Elt Ideal)) :
    val_main_v26 (F := Ideal) x0 x1 x2 x3 x4 x5 x6 x7 x8 x9
      = ffnRef (val_main_v6 (F := Ideal) x1 x3) x4 x5 x6 x7 x8 (val_main_v22 (F := Ideal) x0 x2) x9 := by
  unfold val_main_v26 val_main_v25 val_main_v24 val_main_v23 val_main_v16 val_main_v15 val_main_v14 val_main_v13 val_main_v12
    val_main_v11 val_main_call0_v0 val_main_call0_cst val_main_v10 val_main_v9 val_main_v8 val_main_v7 ffnRef
  with_reducible rfl

/-- The reference's operations 19 to 22 are the masked entity sum of the entity states and the mask. -/
theorem val_main_v22_eq_entSpec (x0 : (⟨S64x512x1024, .f32⟩ : BufTy).Contents (Elt Ideal)) (x2 : (⟨S64x512, .i1⟩ : BufTy).Contents (Elt Ideal)) :
    val_main_v22 (F := Ideal) x0 x2 = Cert.KernelIdeal.Hand.entSpec x0 (val_main_v18 (F := Ideal) x2) := by
  unfold val_main_v22 val_main_v21 val_main_v20 val_main_v19 val_main_cst
  exact entRow_eq_entSpec x0 (val_main_v18 (F := Ideal) x2)

/-- The reference's logits are the projection of the feed-forward stage's output. -/
theorem val_main_v30_eq_logitsSpec (x0 : (⟨S64x512x1024, .f32⟩ : BufTy).Contents (Elt Ideal)) (x1 : (⟨S64, .i32⟩ : BufTy).Contents (Elt Ideal)) (x2 : (⟨S64x512, .i1⟩ : BufTy).Contents (Elt Ideal))
    (x3 : (⟨S50257x1024, .f32⟩ : BufTy).Contents (Elt Ideal)) (x4 : (⟨S1024x2048, .f32⟩ : BufTy).Contents (Elt Ideal)) (x5 : (⟨S2048, .f32⟩ : BufTy).Contents (Elt Ideal))
    (x6 : (⟨S2048x1024, .f32⟩ : BufTy).Contents (Elt Ideal)) (x7 : (⟨S1024, .f32⟩ : BufTy).Contents (Elt Ideal)) (x8 x9 : (⟨S1024x1024, .f32⟩ : BufTy).Contents (Elt Ideal))
    (x10 : (⟨S1024x50257, .f32⟩ : BufTy).Contents (Elt Ideal)) (x11 : (⟨S50257, .f32⟩ : BufTy).Contents (Elt Ideal)) :
    val_main_v30 (F := Ideal) x0 x1 x2 x3 x4 x5 x6 x7 x8 x9 x10 x11
      = Cert.KernelIdeal.Hand.logitsSpec
          (Cert.KernelIdeal.Hand.ffnSpec (val_main_v6 (F := Ideal) x1 x3) x4 x5 x6 x7 x8
            (Cert.KernelIdeal.Hand.entSpec x0 (val_main_v18 (F := Ideal) x2)) x9)
          x10 (broadcastInDim S1x50257 ![1] bcast_S50257_S1x50257_1 x11) := by
  unfold val_main_v30 val_main_v29 val_main_v28 val_main_v27
  rw [proj_eq_logitsSpec, val_main_v26_eq_ffnRef, ffnRef_eq_ffnSpec, val_main_v22_eq_entSpec]

/-- The reference's question-embedding rows: the embedding table gathered at the question tokens (a negative token
    wrapped by the vocabulary size). One term, shared with the kernel program's head and never opened. -/
def eq0R (m : (ℓ : Loc nD τ sig) → Buf (Elt Ideal) ℓ) (c : Dev nD) : FVec Ideal S64x1024 .f32 :=
  Host.gather gather_S50257x1024_S64x1_S64x1024_1_0_n_n_0_1_11024 (m ((c.tc : Thread nD τ).loc main_arg3))
    (broadcastInDim S64x1 ![0] bcast_S64_S64x1_0
      (select (cmpi .slt (m ((c.tc : Thread nD τ).loc main_arg1)) (broadcastInDim S64 ![] bcast_S_S64 (constantI S_ 32 0#32)))
        (addi (m ((c.tc : Thread nD τ).loc main_arg1)) (broadcastInDim S64 ![] bcast_S_S64 (constantI S_ 32 50257#32)))
        (m ((c.tc : Thread nD τ).loc main_arg1))))

/-- It is the reference's gather stage at the launch arrays. -/
theorem eq0R_eq_val (m : (ℓ : Loc nD τ sig) → Buf (Elt Ideal) ℓ) (c : Dev nD) :
    eq0R m c = val_main_v6 (F := Ideal) (m ((c.tc : Thread nD τ).loc main_arg1)) (m ((c.tc : Thread nD τ).loc main_arg3)) := by
  unfold eq0R val_main_v6 val_main_v5 val_main_v4 val_main_v3 val_main_v2 val_main_c_0 val_main_v1 val_main_v0 val_main_c
  with_reducible rfl

/-- The keys' mask read as extended reals (1 on a kept entity, 0 elsewhere), with a trailing unit axis. -/
def maskR (m : (ℓ : Loc nD τ sig) → Buf (Elt Ideal) ℓ) (c : Dev nD) : FVec Ideal S64x512x1 .f32 :=
  broadcastInDim S64x512x1 ![0, 1] bcast_S64x512_S64x512x1_0_1 (uitofp .f32 (m ((c.tc : Thread nD τ).loc main_arg2)))

/-- It is the reference's mask stage at the launch array. -/
theorem maskR_eq_val (m : (ℓ : Loc nD τ sig) → Buf (Elt Ideal) ℓ) (c : Dev nD) :
    maskR m c = val_main_v18 (F := Ideal) (m ((c.tc : Thread nD τ).loc main_arg2)) := by
  unfold maskR val_main_v18 val_main_v17
  with_reducible rfl

/-- The reference's result on every device: the closing softmax of the projection of the feed-forward stage at the
    gathered question rows and the masked entity sum, all read off the launch arrays. -/
theorem ref_result (m : (ℓ : Loc nD τ sig) → Buf (Elt Ideal) ℓ) (c : Dev nD) :
    Cert.ReferenceIdeal.Value.res_out0 (F := Ideal) m c
      = Cert.KernelIdeal.Hand.softmaxTail (Cert.KernelIdeal.Hand.logitsSpec
          (Cert.KernelIdeal.Hand.ffnSpec (eq0R m c) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (Cert.KernelIdeal.Hand.entSpec (m ((c.tc : Thread nD τ).loc main_arg0)) (maskR m c)) (m ((c.tc : Thread nD τ).loc main_arg9)))
          (m ((c.tc : Thread nD τ).loc main_arg10))
          (broadcastInDim S1x50257 ![1] bcast_S50257_S1x50257_1 (m ((c.tc : Thread nD τ).loc main_arg11)))) := by
  show Cert.ReferenceIdeal.Value.res_main_v41 m c = _
  rw [val_main_v41_eq, val_main_v41_eq_softmaxTail, val_main_v30_eq_logitsSpec, eq0R_eq_val, maskR_eq_val]

end Cert.ReferenceIdeal.RefValue

end
-- ==== Proof.KI.Join.lean ====
/- The two programs' logits written over one specification. The kernel program hands the projection a bias row made
   by reshaping the bias vector `[50257]` to `[1, 50257]` and rows `z` narrowed to a 16-bit format; the reference hands it
   the bias vector broadcast along axis 1 and the rows as they are. Over the extended reals the narrowing is the
   identity, and both bias rows read `bs[v]` at `(0, v)`; the projection `Σ_k z[r,k] · Ws[k,v] + bs[0,v]` depends on its
   row operand only through those entries, so the two logits are equal. -/
import proofs.«426471_j54382875902324_3_alg».proof.Proof.KI.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-- The projection depends on its rows and on its bias row only through their entries: equal entries of `z`, `z'` and
    equal entries of the one bias row give equal logits. -/
theorem logitsSpec_congr (z z' : FVec Ideal S64x1024 .bf16) (Ws : FVec Ideal S1024x50257 .f32) (bs bs' : FVec Ideal S1x50257 .f32)
    (hz : ∀ (r : Fin 64) (k : Fin 1024), z (ValueIdx.ix2 r k) = z' (ValueIdx.ix2 r k))
    (hb : ∀ v : Fin 50257, bs (ValueIdx.ix2 0 v) = bs' (ValueIdx.ix2 0 v)) :
    logitsSpec z Ws bs = logitsSpec z' Ws bs' := by
  funext i
  obtain ⟨r, v, rfl⟩ : ∃ (r : Fin 64) (v : Fin 50257), i = ix2 r v := ⟨i 0, i 1, eq_ix2 i⟩
  rw [logitsSpec_apply, logitsSpec_apply, hb v]
  exact congrArg (· + bs' (ix2 0 v)) (Finset.sum_congr rfl fun k _ => by rw [hz r k])

/-- The bias vector reshaped to one row reads, at `(0, v)`, the vector at `v`: the two indices have the same row-major
    position. -/
theorem bias_row_reshape (bs : FVec Ideal S50257 .f32) (v : Fin 50257) :
    shapeCast S1x50257 bs shapeCasts_S50257_S1x50257 (ValueIdx.ix2 0 v) = bs (ValueIdx.ix1 v) :=
  shapeCast_a_1a_apply bs shapeCasts_S50257_S1x50257 (0 : Fin 1) v

/-- The bias vector broadcast along axis 1 to one row reads, at `(0, v)`, the vector at `v`: axis 1 of the row is the
    vector's axis, whose extent is not one. -/
theorem bias_row_bcast (bs : FVec Ideal S50257 .f32) (h : S50257.BroadcastsInDim S1x50257 (![1] : Fin 1 → Fin 2)) (v : Fin 50257) :
    broadcastInDim S1x50257 ![1] h bs (ValueIdx.ix2 0 v) = bs (ValueIdx.ix1 v) :=
  broadcastInDim_apply _ h bs _ (ix1 v) fun a => match a with
    | ⟨0, _⟩ => by show v.val = if (50257 : ℕ) = 1 then 0 else v.val; rw [if_neg (by decide)]

/-- The kernel program's logits (narrowed rows, reshaped bias) are the reference's (the rows, broadcast bias). -/
theorem logits_join (z : FVec Ideal S64x1024 .f32) (Ws : FVec Ideal S1024x50257 .f32) (bs : FVec Ideal S50257 .f32)
    (h : S50257.BroadcastsInDim S1x50257 (![1] : Fin 1 → Fin 2)) :
    logitsSpec (truncf .bf16 z bitsLt_bf16_f32) Ws (shapeCast S1x50257 bs shapeCasts_S50257_S1x50257)
      = logitsSpec z Ws (broadcastInDim S1x50257 ![1] h bs) :=
  logitsSpec_congr _ _ Ws _ _ (fun _ _ => rfl) fun v => (bias_row_reshape bs v).trans (bias_row_bcast bs h v).symm

end Cert.KernelIdeal.Hand

end
-- ==== Proof.KI.Bridge.lean ====
import proofs.«426471_j54382875902324_3_alg».proof.Proof.KI.Value
import proofs.«426471_j54382875902324_3_alg».proof.Proof.RefValue
import proofs.«426471_j54382875902324_3_alg».proof.Proof.KI.Join
import Idealize.ShloMosaic.Lib.StableHlo.Run
import proofs.«426471_j54382875902324_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! # The two programs' results agree

The reference's result is the closing softmax of the spec's logits of ITS launch arrays; the kernel's is the same of ITS
launch arrays, through a bf16 rounding of the feed-forward output (the identity at the exact instance) and with the bias row
obtained by a reshape rather than a broadcast (the same row). With the launch arrays agreeing, the two are one term: the
question-embedding rows and the mask are produced by the same host operations in both programs. -/

/-- The question-embedding rows after the first host stretch: the gather of the embedding table at the (wrapped) question
    tokens. -/
theorem V1_v6 (c : Dev nD) : Gen.V1 m c main_v6
    = Host.gather gather_S50257x1024_S64x1_S64x1024_1_0_n_n_0_1_11024 (m ((c : Thread nD τ).loc main_arg3))
        (broadcastInDim S64x1 ![0] bcast_S64_S64x1_0 (select (cmpi .slt (m ((c : Thread nD τ).loc main_arg1)) (broadcastInDim S64 ![] bcast_S_S64 (constantI S_ 32 0#32)))
          (addi (m ((c : Thread nD τ).loc main_arg1)) (broadcastInDim S64 ![] bcast_S_S64 (constantI S_ 32 50257#32))) (m ((c : Thread nD τ).loc main_arg1)))) := by
  show StableHlo.after hostOps0 (Gen.V0 m c) (Proc.devRef .tc main_v6) = _
  after_results <;> rfl

/-- The mask with its trailing unit axis after the first host stretch. -/
theorem V1_v8 (c : Dev nD) : Gen.V1 m c main_v8
    = broadcastInDim S64x512x1 ![0, 1] bcast_S64x512_S64x512x1_0_1 (uitofp (F := Ideal) .f32 (m ((c : Thread nD τ).loc main_arg2))) := by
  show StableHlo.after hostOps0 (Gen.V0 m c) (Proc.devRef .tc main_v8) = _
  after_results <;> rfl

theorem V4_arg11 (c : Dev nD) : Gen.V4 m (outsB m) c (Proc.devRef .tc main_arg11) = m ((c : Thread nD τ).loc main_arg11) :=
  (Gen.V4_of m (outsB m) c main_arg11 (by decide)).trans ((Gen.V3_of m (outsB m) c main_arg11 (by decide)).trans
    ((Gen.V2_of m (outsB m) c main_arg11 (by decide)).trans (Gen.V1_of m c main_arg11 (by decide))))

/-- The bias as a row, as the projection region finds it: the reshape of the bias vector. -/
theorem E2_v12 (c : Dev nD) : E2 m c main_v12 = shapeCast S1x50257 (m ((c : Thread nD τ).loc main_arg11)) shapeCasts_S50257_S1x50257 := by
  have h : E2 m c main_v12 = shapeCast S1x50257 (Gen.V4 m (outsB m) c (Proc.devRef .tc main_arg11)) shapeCasts_S50257_S1x50257 := by
    show StableHlo.after hostOps2 (Gen.V4 m (outsB m) c) (Proc.devRef .tc main_v12) = _
    after_results <;> rfl
  rw [h, V4_arg11]

open Cert.ReferenceIdeal.RefValue in
/-- THE JOIN: from launch arrays that agree, the reference's result term is the kernel's result buffer. -/
theorem results_agree (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    Cert.ReferenceIdeal.Value.res_main_v41 (F := Ideal) m' c = Gen.V7 m (outs m) c (Proc.devRef .tc main_v25) := by
  rw [show Cert.ReferenceIdeal.Value.res_main_v41 (F := Ideal) m' c = Cert.ReferenceIdeal.Value.res_out0 (F := Ideal) m' c from rfl,
    ref_result m' c, kernel_result m c]
  unfold eq0R maskR
  rw [h0, h1, h2, h3, h4, h5, h6, h7, h8, h9, h10, h11, V1_v6, V1_v8, E2_v12]
  exact congrArg softmaxTail (logits_join _ _ _ _).symm

end Cert.KernelIdeal.Hand

end
-- ==== Proof.lean ====
/- The proof of `Cert.Claim`: the three frames, the (empty) idealization ledger, and the equality of results over the
   extended reals.

   The program is three kernel regions between four stretches of host operations. Each region's frame rests on its own
   proof data (what every staging buffer holds after the body at each grid point) and body triple; the run of @main
   composes them over the thread state "every unscoped buffer at a known valuation". For the idealized program the data
   are exact throughout, and the last valuation read at the result buffer is the closing softmax of the projection
   `Σ_k z[r,k]·Ws[k,v] + bs[v]` of the feed-forward stage of the masked entity sum — the same function of the launch
   arrays that the reference's run computes, the sums merely grouped by core, grid step and vocabulary tile. For the
   word-level program the projection region's last vocabulary tile overhangs its array, the fetched tail of its staging
   buffers holds unnamed words, and the matrix unit's result there is not a function of the columns inside alone; its
   frame is proved over relational data that constrain the buffers without naming their contents. -/
import proofs.«426471_j54382875902324_3_alg».proof.Defs
import proofs.«426471_j54382875902324_3_alg».proof.Proof.Gen.Kernel
import proofs.«426471_j54382875902324_3_alg».proof.Proof.Gen.KernelIdeal
import proofs.«426471_j54382875902324_3_alg».proof.Proof.Gen.ReferenceIdeal
import proofs.«426471_j54382875902324_3_alg».proof.Proof.Gen.Pre_finite_inputs
import proofs.«426471_j54382875902324_3_alg».proof.Proof.K.Run
import proofs.«426471_j54382875902324_3_alg».proof.Proof.KI.Bridge
import Idealize.ShloMosaic.Adequacy
import Idealize.ShloMosaic.Init

noncomputable section

namespace Cert.Proof

open Idealize.ShloMosaic Idealize.ShloMosaic.TcCoe Idealize.SL.Sem

section Frames
open Cert.KernelIdeal Cert.KernelIdeal.Gen Cert.KernelIdeal.Hand

/-- The idealized program's run read at the twelve argument arrays: no host stretch writes one and no region may. -/
theorem frame_ki : Cert.frame_KernelIdeal := fun m ρ _ =>
  (θ_run Cert.KernelIdeal.defs _ _).mono (fun r h c =>
    ⟨(h c _ (mem_uc main_arg0 (by decide))).trans (Gen.V7_main_arg0 m (outs m) c),
     (h c _ (mem_uc main_arg1 (by decide))).trans (Gen.V7_main_arg1 m (outs m) c),
     (h c _ (mem_uc main_arg2 (by decide))).trans (Gen.V7_main_arg2 m (outs m) c),
     (h c _ (mem_uc main_arg3 (by decide))).trans (Gen.V7_main_arg3 m (outs m) c),
     (h c _ (mem_uc main_arg4 (by decide))).trans (Gen.V7_main_arg4 m (outs m) c),
     (h c _ (mem_uc main_arg5 (by decide))).trans (Gen.V7_main_arg5 m (outs m) c),
     (h c _ (mem_uc main_arg6 (by decide))).trans (Gen.V7_main_arg6 m (outs m) c),
     (h c _ (mem_uc main_arg7 (by decide))).trans (Gen.V7_main_arg7 m (outs m) c),
     (h c _ (mem_uc main_arg8 (by decide))).trans (Gen.V7_main_arg8 m (outs m) c),
     (h c _ (mem_uc main_arg9 (by decide))).trans (Gen.V7_main_arg9 m (outs m) c),
     (h c _ (mem_uc main_arg10 (by decide))).trans (Gen.V7_main_arg10 m (outs m) c),
     (h c _ (mem_uc main_arg11 (by decide))).trans (Gen.V7_main_arg11 m (outs m) c)⟩)
    (run_all m ρ)

/-- Both programs run; the kernel's result buffer ends at the last valuation's, the reference's at its composed term, and
    the two are one function of arguments that agree. -/
theorem algebraic : Cert.algebraic_KernelIdeal_ReferenceIdeal := by
  intro m ρ m' ρ' _ hagree
  refine ⟨fun c => Gen.V7 m (outs m) c (Proc.devRef .tc main_v25), ?_, ?_⟩
  · exact (θ_run Cert.KernelIdeal.defs _ _).mono (fun r h c =>
      ⟨h c _ (mem_uc main_v25 (by decide)),
       (h c _ (mem_uc main_arg0 (by decide))).trans (Gen.V7_main_arg0 m (outs m) c),
       (h c _ (mem_uc main_arg1 (by decide))).trans (Gen.V7_main_arg1 m (outs m) c),
       (h c _ (mem_uc main_arg2 (by decide))).trans (Gen.V7_main_arg2 m (outs m) c),
       (h c _ (mem_uc main_arg3 (by decide))).trans (Gen.V7_main_arg3 m (outs m) c),
       (h c _ (mem_uc main_arg4 (by decide))).trans (Gen.V7_main_arg4 m (outs m) c),
       (h c _ (mem_uc main_arg5 (by decide))).trans (Gen.V7_main_arg5 m (outs m) c),
       (h c _ (mem_uc main_arg6 (by decide))).trans (Gen.V7_main_arg6 m (outs m) c),
       (h c _ (mem_uc main_arg7 (by decide))).trans (Gen.V7_main_arg7 m (outs m) c),
       (h c _ (mem_uc main_arg8 (by decide))).trans (Gen.V7_main_arg8 m (outs m) c),
       (h c _ (mem_uc main_arg9 (by decide))).trans (Gen.V7_main_arg9 m (outs m) c),
       (h c _ (mem_uc main_arg10 (by decide))).trans (Gen.V7_main_arg10 m (outs m) c),
       (h c _ (mem_uc main_arg11 (by decide))).trans (Gen.V7_main_arg11 m (outs m) c)⟩)
      (run_all m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    exact results_agree m m' c h0 h1 h2 h3 h4 h5 h6 h7 h8 h9 h10 h11

end Frames

/-- The word-level program's frame, over relational proof data for the projection region. -/
theorem frame_k : Cert.frame_Kernel := fun m ρ _ => Cert.Kernel.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
